-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x16 : Shape := ⟨2, ![800000, 16]⟩
abbrev S50000 : Shape := ⟨1, ![50000]⟩
abbrev S3x64x64 : Shape := ⟨3, ![3, 64, 64]⟩
abbrev S3x64 : Shape := ⟨2, ![3, 64]⟩
abbrev S4x16x64 : Shape := ⟨3, ![4, 16, 64]⟩
abbrev S4x64 : Shape := ⟨2, ![4, 64]⟩
abbrev S64x1 : Shape := ⟨2, ![64, 1]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S4x16x64 : S_.BroadcastsInDim S4x16x64 (![] : Fin 0 → Fin S4x16x64.rank)
  reducesTo_S4x16x64_S_d0_1_2 : S4x16x64.ReducesTo [0, 1, 2] S_
  bcast_S_S4x64 : S_.BroadcastsInDim S4x64 (![] : Fin 0 → Fin S4x64.rank)
  reducesTo_S4x64_S_d0_1 : S4x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_v53 : IVec S1x800000 32 := (extractStridedSlice S1x800000 ![0, 0] · slices_S2x800000_S1x800000_0_0) main_arg1
  let main_v54 : IVec S800000 32 := shapeCast S800000 main_v53 shapeCasts_S1x800000_S800000
  let main_c_19 : IVec S_ 32 := constantI S_ 32 50000#32
  let main_v55 : IVec S800000 32 := broadcastInDim S800000 ![] bcast_S_S800000 main_c_19
  let main_v56 : IVec S800000 1 := cmpi .slt main_v54 main_v55
  let main_v57 : IVec S800000 1 := andi main_v52 main_v56
  let main_c_20 : IVec S_ 1 := constantI S_ 1 1#1
  let main_v58 : IVec S_ 1 := (fun x v => Host.reduce IntOp.andi x v reducesTo_S800000_S_d0 h_S_) main_v57 main_c_20
  let main_v59 : IVec S_ 1 := andi main_v48 main_v58
  main_v59

def fn_part2 {F : FTy → Type} [FloatOps F] (main_arg1 : IVec S2x800000 32) (main_arg9 : FVec F S1 .f32) (main_arg10 : FVec F S1 .f32) (main_arg11 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : IVec S1x800000 32 := (extractStridedSlice S1x800000 ![0, 0] · slices_S2x800000_S1x800000_0_0) main_arg1
  let main_v50 : IVec S800000 32 := shapeCast S800000 main_v49 shapeCasts_S1x800000_S800000
  let main_c_18 : IVec S_ 32 := constantI S_ 32 0#32
  fn_part3 (F := F) main_arg1 main_v48 main_v50 main_c_18

def fn_part1 {F : FTy → Type} [FloatOps F] (main_arg1 : IVec S2x800000 32) (main_arg6 : FVec F S4x16x64 .f32) (main_arg7 : FVec F S4x64 .f32) (main_arg8 : FVec F S64x1 .f32) (main_arg9 : FVec F S1 .f32) (main_arg10 : FVec F S1 .f32) (main_arg11 : FVec F S1 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S4x16x64 .f32 := Host.absf main_arg6
  let main_cst_6 : FVec F S_ .f32 := constant S_ .f32 0x7F800000#32
  let main_v20 : FVec F S4x16x64 .f32 := broadcastInDim S4x16x64 ![] bcast_S_S4x16x64 main_cst_6
  let main_v21 : IVec S4x16x64 1 := cmpf .olt main_v19 main_v20
  let main_c_7 : IVec S_ 1 := constantI S_ 1 1#1
  let main_v22 : IVec S_ 1 := (fun x v => Host.reduce IntOp.andi x v reducesTo_S4x16x64_S_d0_1_2 h_S_) main_v21 main_c_7
  let main_v23 : IVec S_ 1 := andi main_v18 main_v22
  let main_v24 : FVec F S4x64 .f32 := Host.absf main_arg7
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S64x1 .f32 := Host.absf main_arg8
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg1 main_arg9 main_arg10 main_arg11 main_v33

def fn {F : FTy → Type} [FloatOps F] (main_arg0 : FVec F S50000x64 .f32) (main_arg1 : IVec S2x800000 32) (main_arg2 : FVec F S800000x16 .f32) (main_arg3 : IVec S50000 32) (main_arg4 : FVec F S3x64x64 .f32) (main_arg5 : FVec F S3x64 .f32) (main_arg6 : FVec F S4x16x64 .f32) (main_arg7 : FVec F S4x64 .f32) (main_arg8 : FVec F S64x1 .f32) (main_arg9 : FVec F S1 .f32) (main_arg10 : FVec F S1 .f32) (main_arg11 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg1 main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S800000x16 : Shape := ⟨2, ![800000, 16]⟩
abbrev S50000 : Shape := ⟨1, ![50000]⟩
abbrev S3x64x64 : Shape := ⟨3, ![3, 64, 64]⟩
abbrev S3x64 : Shape := ⟨2, ![3, 64]⟩
abbrev S4x16x64 : Shape := ⟨3, ![4, 16, 64]⟩
abbrev S4x64 : Shape := ⟨2, ![4, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x64 : Shape := ⟨2, ![800000, 64]⟩
abbrev S1x16x64 : Shape := ⟨3, ![1, 16, 64]⟩
abbrev S16x64 : Shape := ⟨2, ![16, 64]⟩
abbrev S1x64 : Shape := ⟨2, ![1, 64]⟩
abbrev S64 : Shape := ⟨1, ![64]⟩
abbrev S4000x64 : Shape := ⟨2, ![4000, 64]⟩
abbrev S4000x16 : Shape := ⟨2, ![4000, 16]⟩
abbrev S1x64x64 : Shape := ⟨3, ![1, 64, 64]⟩
abbrev S64x64 : Shape := ⟨2, ![64, 64]⟩
abbrev S2000x64 : Shape := ⟨2, ![2000, 64]⟩
abbrev S50000x1 : Shape := ⟨2, ![50000, 1]⟩
abbrev S2000x1 : Shape := ⟨2, ![2000, 1]⟩
abbrev S512x1 : Shape := ⟨2, ![512, 1]⟩

abbrev nBuf : Space → Nat
  | .hbm => 220
  | .vmem => 64
  | .smem => 0
  | _ => 0

abbrev hbmTy0_0 (i : Nat) : BufTy := match i % 128 with
  | 0 => ⟨S50000x64, .f32⟩
  | 1 => ⟨S2x800000, .i32⟩
  | 2 => ⟨S800000x16, .f32⟩
  | 3 => ⟨S50000, .i32⟩
  | 4 => ⟨S3x64x64, .f32⟩
  | 5 => ⟨S3x64, .f32⟩
  | 6 => ⟨S4x16x64, .f32⟩
  | 7 => ⟨S4x64, .f32⟩
  | 8 => ⟨S64x1, .f32⟩
  | 9 => ⟨S1, .f32⟩
  | 10 => ⟨S1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S1, .i32⟩
  | 25 => ⟨S_, .i32⟩
  | 26 => ⟨S800000x1, .i32⟩
  | 27 => ⟨S800000x1, .i1⟩
  | 28 => ⟨S1x1, .i32⟩
  | 29 => ⟨S800000x1, .i32⟩
  | 30 => ⟨S800000x1, .i1⟩
  | 31 => ⟨S800000x1, .i1⟩
  | 32 => ⟨S_, .i1⟩
  | 33 => ⟨S800000, .i1⟩
  | 34 => ⟨S800000x64, .f32⟩
  | 35 => ⟨S800000x64, .i1⟩
  | 36 => ⟨S_, .f32⟩
  | 37 => ⟨S800000x64, .f32⟩
  | 38 => ⟨S800000x64, .f32⟩
  | 39 => ⟨S1x16x64, .f32⟩
  | 40 => ⟨S16x64, .f32⟩
  | 41 => ⟨S1x64, .f32⟩
  | 42 => ⟨S64, .f32⟩
  | 43 => ⟨S1x64, .f32⟩
  | 44 => ⟨S800000x64, .f32⟩
  | 45 => ⟨S_, .f32⟩
  | 46 => ⟨S50000x64, .f32⟩
  | 47 => ⟨S800000x1, .i32⟩
  | 48 => ⟨S50000x64, .f32⟩
  | 49 => ⟨S1x64x64, .f32⟩
  | 50 => ⟨S64x64, .f32⟩
  | 51 => ⟨S1x64, .f32⟩
  | 52 => ⟨S64, .f32⟩
  | 53 => ⟨S1x64, .f32⟩
  | 54 => ⟨S50000x64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S1, .i32⟩
  | 64 => ⟨S_, .i32⟩
  | 65 => ⟨S800000x1, .i32⟩
  | 66 => ⟨S800000x1, .i1⟩
  | 67 => ⟨S1x1, .i32⟩
  | 68 => ⟨S800000x1, .i32⟩
  | 69 => ⟨S800000x1, .i1⟩
  | 70 => ⟨S800000x1, .i1⟩
  | 71 => ⟨S_, .i1⟩
  | 72 => ⟨S800000, .i1⟩
  | 73 => ⟨S800000x64, .f32⟩
  | 74 => ⟨S800000x64, .i1⟩
  | 75 => ⟨S_, .f32⟩
  | 76 => ⟨S800000x64, .f32⟩
  | 77 => ⟨S800000x64, .f32⟩
  | 78 => ⟨S1x16x64, .f32⟩
  | 79 => ⟨S16x64, .f32⟩
  | 80 => ⟨S1x64, .f32⟩
  | 81 => ⟨S64, .f32⟩
  | 82 => ⟨S1x64, .f32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S1x64x64, .f32⟩
  | 89 => ⟨S64x64, .f32⟩
  | 90 => ⟨S1x64, .f32⟩
  | 91 => ⟨S64, .f32⟩
  | 92 => ⟨S1x64, .f32⟩
  | 93 => ⟨S50000x64, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S1, .i32⟩
  | 103 => ⟨S_, .i32⟩
  | 104 => ⟨S800000x1, .i32⟩
  | 105 => ⟨S800000x1, .i1⟩
  | 106 => ⟨S1x1, .i32⟩
  | 107 => ⟨S800000x1, .i32⟩
  | 108 => ⟨S800000x1, .i1⟩
  | 109 => ⟨S800000x1, .i1⟩
  | 110 => ⟨S_, .i1⟩
  | 111 => ⟨S800000, .i1⟩
  | 112 => ⟨S800000x64, .f32⟩
  | 113 => ⟨S800000x64, .i1⟩
  | 114 => ⟨S_, .f32⟩
  | 115 => ⟨S800000x64, .f32⟩
  | 116 => ⟨S800000x64, .f32⟩
  | 117 => ⟨S1x16x64, .f32⟩
  | 118 => ⟨S16x64, .f32⟩
  | 119 => ⟨S1x64, .f32⟩
  | 120 => ⟨S64, .f32⟩
  | 121 => ⟨S1x64, .f32⟩
  | 122 => ⟨S800000x64, .f32⟩
  | 123 => ⟨S_, .f32⟩
  | 124 => ⟨S50000x64, .f32⟩
  | 125 => ⟨S800000x1, .i32⟩
  | 126 => ⟨S50000x64, .f32⟩
  | 127 => ⟨S1x64x64, .f32⟩
  | _ => ⟨S50000x64, .f32⟩

abbrev hbmTy0_1 (i : Nat) : BufTy := match i % 128 with
  | 0 => ⟨S64x64, .f32⟩
  | 1 => ⟨S1x64, .f32⟩
  | 2 => ⟨S64, .f32⟩
  | 3 => ⟨S1x64, .f32⟩
  | 4 => ⟨S50000x64, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S1, .i32⟩
  | 14 => ⟨S_, .i32⟩
  | 15 => ⟨S800000x1, .i32⟩
  | 16 => ⟨S800000x1, .i1⟩
  | 17 => ⟨S1x1, .i32⟩
  | 18 => ⟨S800000x1, .i32⟩
  | 19 => ⟨S800000x1, .i1⟩
  | 20 => ⟨S800000x1, .i1⟩
  | 21 => ⟨S_, .i1⟩
  | 22 => ⟨S800000, .i1⟩
  | 23 => ⟨S800000x64, .f32⟩
  | 24 => ⟨S800000x64, .i1⟩
  | 25 => ⟨S_, .f32⟩
  | 26 => ⟨S800000x64, .f32⟩
  | 27 => ⟨S800000x64, .f32⟩
  | 28 => ⟨S1x16x64, .f32⟩
  | 29 => ⟨S16x64, .f32⟩
  | 30 => ⟨S1x64, .f32⟩
  | 31 => ⟨S64, .f32⟩
  | 32 => ⟨S1x64, .f32⟩
  | 33 => ⟨S800000x64, .f32⟩
  | 34 => ⟨S_, .f32⟩
  | 35 => ⟨S50000x64, .f32⟩
  | 36 => ⟨S800000x1, .i32⟩
  | 37 => ⟨S50000x64, .f32⟩
  | 38 => ⟨S1x1, .f32⟩
  | 39 => ⟨S50000x1, .f32⟩
  | 40 => ⟨S_, .f32⟩
  | 41 => ⟨S50000x1, .f32⟩
  | 42 => ⟨S_, .f32⟩
  | 43 => ⟨S512x1, .f32⟩
  | 44 => ⟨S50000x1, .i32⟩
  | 45 => ⟨S512x1, .f32⟩
  | 46 => ⟨S_, .f32⟩
  | 47 => ⟨S512x1, .f32⟩
  | 48 => ⟨S50000x1, .i32⟩
  | 49 => ⟨S512x1, .f32⟩
  | 50 => ⟨S_, .f32⟩
  | 51 => ⟨S512x1, .f32⟩
  | 52 => ⟨S512x1, .f32⟩
  | 53 => ⟨S512x1, .f32⟩
  | 54 => ⟨S_, .f32⟩
  | 55 => ⟨S1, .f32⟩
  | 56 => ⟨S_, .f32⟩
  | 57 => ⟨S1, .f32⟩
  | 58 => ⟨S1, .f32⟩
  | 59 => ⟨S1x1, .f32⟩
  | 60 => ⟨S512x1, .f32⟩
  | 61 => ⟨S512x1, .f32⟩
  | 62 => ⟨S512x1, .f32⟩
  | 63 => ⟨S_, .f32⟩
  | 64 => ⟨S1, .f32⟩
  | 65 => ⟨S_, .f32⟩
  | 66 => ⟨S1, .f32⟩
  | 67 => ⟨S1, .f32⟩
  | 68 => ⟨S1x1, .f32⟩
  | 69 => ⟨S512x1, .f32⟩
  | 70 => ⟨S512x1, .f32⟩
  | 71 => ⟨S1x1, .f32⟩
  | 72 => ⟨S512x1, .f32⟩
  | 73 => ⟨S512x1, .f32⟩
  | 74 => ⟨S_, .f32⟩
  | 75 => ⟨S1, .f32⟩
  | 76 => ⟨S1, .f32⟩
  | 77 => ⟨S1, .f32⟩
  | 78 => ⟨S1x1, .f32⟩
  | 79 => ⟨S512x1, .f32⟩
  | 80 => ⟨S512x1, .f32⟩
  | 81 => ⟨S1x1, .f32⟩
  | 82 => ⟨S512x1, .f32⟩
  | 83 => ⟨S512x1, .f32⟩
  | 84 => ⟨S512x1, .f32⟩
  | 85 => ⟨S512x1, .f32⟩
  | 86 => ⟨S_, .f32⟩
  | 87 => ⟨S512x1, .f32⟩
  | 88 => ⟨S512x1, .f32⟩
  | 89 => ⟨S_, .f32⟩
  | 90 => ⟨S512x1, .f32⟩
  | 91 => ⟨S512x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x16, .f32⟩
  | .local _ .vmem, ⟨3, _⟩ => ⟨S4000x16, .f32⟩
  | .local _ .vmem, ⟨4, _⟩ => ⟨S16x64, .f32⟩
  | .local _ .vmem, ⟨5, _⟩ => ⟨S1x64, .f32⟩
  | .local _ .vmem, ⟨6, _⟩ => ⟨S4000x64, .f32⟩
  | .local _ .vmem, ⟨7, _⟩ => ⟨S4000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S4000x64, .f32⟩
  | .local _ .vmem, ⟨17, _⟩ => ⟨S4000x64, .f32⟩
  | .local _ .vmem, ⟨18, _⟩ => ⟨S4000x16, .f32⟩
  | .local _ .vmem, ⟨19, _⟩ => ⟨S4000x16, .f32⟩
  | .local _ .vmem, ⟨20, _⟩ => ⟨S16x64, .f32⟩
  | .local _ .vmem, ⟨21, _⟩ => ⟨S1x64, .f32⟩
  | .local _ .vmem, ⟨22, _⟩ => ⟨S4000x64, .f32⟩
  | .local _ .vmem, ⟨23, _⟩ => ⟨S4000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S64x64, .f32⟩
  | .local _ .vmem, ⟨29, _⟩ => ⟨S1x64, .f32⟩
  | .local _ .vmem, ⟨30, _⟩ => ⟨S2000x64, .f32⟩
  | .local _ .vmem, ⟨31, _⟩ => ⟨S2000x64, .f32⟩
  | .local _ .vmem, ⟨32, _⟩ => ⟨S4000x64, .f32⟩
  | .local _ .vmem, ⟨33, _⟩ => ⟨S4000x64, .f32⟩
  | .local _ .vmem, ⟨34, _⟩ => ⟨S4000x16, .f32⟩
  | .local _ .vmem, ⟨35, _⟩ => ⟨S4000x16, .f32⟩
  | .local _ .vmem, ⟨36, _⟩ => ⟨S16x64, .f32⟩
  | .local _ .vmem, ⟨37, _⟩ => ⟨S1x64, .f32⟩
  | .local _ .vmem, ⟨38, _⟩ => ⟨S4000x64, .f32⟩
  | .local _ .vmem, ⟨39, _⟩ => ⟨S4000x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S64x64, .f32⟩
  | .local _ .vmem, ⟨45, _⟩ => ⟨S1x64, .f32⟩
  | .local _ .vmem, ⟨46, _⟩ => ⟨S2000x64, .f32⟩
  | .local _ .vmem, ⟨47, _⟩ => ⟨S2000x64, .f32⟩
  | .local _ .vmem, ⟨48, _⟩ => ⟨S4000x64, .f32⟩
  | .local _ .vmem, ⟨49, _⟩ => ⟨S4000x64, .f32⟩
  | .local _ .vmem, ⟨50, _⟩ => ⟨S4000x16, .f32⟩
  | .local _ .vmem, ⟨51, _⟩ => ⟨S4000x16, .f32⟩
  | .local _ .vmem, ⟨52, _⟩ => ⟨S16x64, .f32⟩
  | .local _ .vmem, ⟨53, _⟩ => ⟨S1x64, .f32⟩
  | .local _ .vmem, ⟨54, _⟩ => ⟨S4000x64, .f32⟩
  | .local _ .vmem, ⟨55, _⟩ => ⟨S4000x64, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S2000x64, .f32⟩
  | .local _ .vmem, ⟨60, _⟩ => ⟨S64x1, .f32⟩
  | .local _ .vmem, ⟨61, _⟩ => ⟨S1x1, .f32⟩
  | .local _ .vmem, ⟨62, _⟩ => ⟨S2000x1, .f32⟩
  | .local _ .vmem, ⟨63, _⟩ => ⟨S2000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_cst_0 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_call2_c : Ref sig .tc := ⟨.hbm, 94, rfl⟩
abbrev main_call2_v0 : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_c_1 : Ref sig .tc := ⟨.hbm, 102, rfl⟩
abbrev main_call2_c_2 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_3 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_call2_cst : Ref sig .tc := ⟨.hbm, 114, rfl⟩
abbrev main_call2_v15 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_cst_1 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_call3_c : Ref sig .tc := ⟨.hbm, 133, rfl⟩
abbrev main_call3_v0 : Ref sig .tc := ⟨.hbm, 134, rfl⟩
abbrev main_call3_v1 : Ref sig .tc := ⟨.hbm, 135, rfl⟩
abbrev main_call3_c_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_c_1 : Ref sig .tc := ⟨.hbm, 141, rfl⟩
abbrev main_call3_c_2 : Ref sig .tc := ⟨.hbm, 142, rfl⟩
abbrev main_call3_v6 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_c_3 : Ref sig .tc := ⟨.hbm, 149, rfl⟩
abbrev main_call3_v12 : Ref sig .tc := ⟨.hbm, 150, rfl⟩
abbrev main_call3_v13 : Ref sig .tc := ⟨.hbm, 151, rfl⟩
abbrev main_call3_v14 : Ref sig .tc := ⟨.hbm, 152, rfl⟩
abbrev main_call3_cst : Ref sig .tc := ⟨.hbm, 153, rfl⟩
abbrev main_call3_v15 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_v55 : Ref sig .tc := ⟨.hbm, 158, rfl⟩
abbrev main_v56 : Ref sig .tc := ⟨.hbm, 159, rfl⟩
abbrev main_v57 : Ref sig .tc := ⟨.hbm, 160, rfl⟩
abbrev main_v58 : Ref sig .tc := ⟨.hbm, 161, rfl⟩
abbrev main_cst_2 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_cst_3 : Ref sig .tc := ⟨.hbm, 168, rfl⟩
abbrev main_v64 : Ref sig .tc := ⟨.hbm, 169, rfl⟩
abbrev main_cst_4 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩
abbrev main_cst_5 : Ref sig .tc := ⟨.hbm, 174, rfl⟩
abbrev main_v68 : Ref sig .tc := ⟨.hbm, 175, rfl⟩
abbrev main_v69 : Ref sig .tc := ⟨.hbm, 176, rfl⟩
abbrev main_v70 : Ref sig .tc := ⟨.hbm, 177, rfl⟩
abbrev main_cst_6 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_cst_7 : Ref sig .tc := ⟨.hbm, 182, rfl⟩
abbrev main_v74 : Ref sig .tc := ⟨.hbm, 183, rfl⟩
abbrev main_cst_8 : Ref sig .tc := ⟨.hbm, 184, rfl⟩
abbrev main_v75 : Ref sig .tc := ⟨.hbm, 185, rfl⟩
abbrev main_v76 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_v80 : Ref sig .tc := ⟨.hbm, 190, rfl⟩
abbrev main_cst_9 : Ref sig .tc := ⟨.hbm, 191, rfl⟩
abbrev main_v81 : Ref sig .tc := ⟨.hbm, 192, rfl⟩
abbrev main_cst_10 : Ref sig .tc := ⟨.hbm, 193, rfl⟩
abbrev main_v82 : Ref sig .tc := ⟨.hbm, 194, rfl⟩
abbrev main_v83 : Ref sig .tc := ⟨.hbm, 195, rfl⟩
abbrev main_v84 : Ref sig .tc := ⟨.hbm, 196, rfl⟩
abbrev main_v85 : Ref sig .tc := ⟨.hbm, 197, rfl⟩
abbrev main_v86 : Ref sig .tc := ⟨.hbm, 198, rfl⟩
abbrev main_v87 : Ref sig .tc := ⟨.hbm, 199, rfl⟩
abbrev main_v88 : Ref sig .tc := ⟨.hbm, 200, rfl⟩
abbrev main_v89 : Ref sig .tc := ⟨.hbm, 201, rfl⟩
abbrev main_cst_11 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_v95 : Ref sig .tc := ⟨.hbm, 208, rfl⟩
abbrev main_v96 : Ref sig .tc := ⟨.hbm, 209, rfl⟩
abbrev main_v97 : Ref sig .tc := ⟨.hbm, 210, rfl⟩
abbrev main_v98 : Ref sig .tc := ⟨.hbm, 211, rfl⟩
abbrev main_v99 : Ref sig .tc := ⟨.hbm, 212, rfl⟩
abbrev main_v100 : Ref sig .tc := ⟨.hbm, 213, rfl⟩
abbrev main_cst_12 : Ref sig .tc := ⟨.hbm, 214, rfl⟩
abbrev main_v101 : Ref sig .tc := ⟨.hbm, 215, rfl⟩
abbrev main_v102 : Ref sig .tc := ⟨.hbm, 216, rfl⟩
abbrev main_cst_13 : Ref sig .tc := ⟨.hbm, 217, rfl⟩
abbrev main_v103 : Ref sig .tc := ⟨.hbm, 218, rfl⟩
abbrev main_v104 : Ref sig .tc := ⟨.hbm, 219, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg4_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem3_0 : DmaSem sig := 61
abbrev cc7_sem4_0 : DmaSem sig := 62
abbrev cc7_sem4_1 : DmaSem sig := 63

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S16x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S4000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S4x16x64_S1x16x64_0_0_0 : S4x16x64.Slices ![0, 0, 0] S1x16x64
  shapeCasts_S1x16x64_S16x64 : S1x16x64.ShapeCasts S16x64
  slices_S4x64_S1x64_0_0 : S4x64.Slices ![0, 0] S1x64
  shapeCasts_S1x64_S64 : S1x64.ShapeCasts S64
  shapeCasts_S64_S1x64 : S64.ShapeCasts S1x64
  inb_S4000x16_S4000x16_0_0 : ∀ a, (![0, 0] : Fin 2 → Nat) a + S4000x16.size a ≤ S4000x16.size a
  h_S4000x16 : 0 < S4000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S2000x64 : S1x64.Broadcasts S2000x64
  slices_S4x16x64_S1x16x64_1_0_0 : S4x16x64.Slices ![1, 0, 0] S1x16x64
  slices_S4x64_S1x64_1_0 : S4x64.Slices ![1, 0] S1x64
  slices_S3x64x64_S1x64x64_1_0_0 : S3x64x64.Slices ![1, 0, 0] S1x64x64
  slices_S3x64_S1x64_1_0 : S3x64.Slices ![1, 0] S1x64
  slices_S4x16x64_S1x16x64_2_0_0 : S4x16x64.Slices ![2, 0, 0] S1x16x64
  slices_S4x64_S1x64_2_0 : S4x64.Slices ![2, 0] S1x64
  slices_S3x64x64_S1x64x64_2_0_0 : S3x64x64.Slices ![2, 0, 0] S1x64x64
  slices_S3x64_S1x64_2_0 : S3x64.Slices ![2, 0] S1x64
  slices_S4x16x64_S1x16x64_3_0_0 : S4x16x64.Slices ![3, 0, 0] S1x16x64
  slices_S4x64_S1x64_3_0 : S4x64.Slices ![3, 0] S1x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  bcast_S_S50000x1 : S_.BroadcastsInDim S50000x1 (![] : Fin 0 → Fin S50000x1.rank)
  bcast_S_S512x1 : S_.BroadcastsInDim S512x1 (![] : Fin 0 → Fin S512x1.rank)
  bcast_S50000_S50000x1_0 : S50000.BroadcastsInDim S50000x1 (![0] : Fin 1 → Fin S50000x1.rank)
  reducesTo_S512x1_S1_d0 : S512x1.ReducesTo [0] S1
  bcast_S_S1 : S_.BroadcastsInDim S1 (![] : Fin 0 → Fin S1.rank)
  bcast_S1x1_S512x1_0_1 : S1x1.BroadcastsInDim S512x1 (![0, 1] : Fin 2 → Fin S512x1.rank)
  gather_S50000x64_S800000x1_S800000x64_1_0_n_n_0_1_164_wf : GatherDims.WF S50000x64 S800000x1 S800000x64 [1] [0] [] [0] [] 1 ![1, 64]
  dot_S4000x16_S16x64_S4000x64_1_0_0_1_n_n_wf : DotDims.WF S4000x16 S16x64 S4000x64 [1] [0] [0] [1] [] []
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []
  scatter_S512x1_S50000x1_S50000x1_1_0_0_1_wf : ScatterDims.WF S512x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x16.size a ≤ S800000x16.size a
  hwx0_1 : ∀ i : grid0.Coords, EltTy.bits .f32 = 32 ∨ (Rect.block (s := S800000x16) S4000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S800000x64.size a
  hwx0_4 : ∀ i : grid0.Coords, EltTy.bits .f32 = 32 ∨ (Rect.block (s := S800000x64) S4000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S800000x64.size a
  hwx2_0 : ∀ i : grid2.Coords, EltTy.bits .f32 = 32 ∨ (Rect.block (s := S800000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x16.size a ≤ S800000x16.size a
  hwx2_1 : ∀ i : grid2.Coords, EltTy.bits .f32 = 32 ∨ (Rect.block (s := S800000x16) S4000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x64.size a ≤ S16x64.size a
  hwx2_2 : ∀ i : grid2.Coords, EltTy.bits .f32 = 32 ∨ (Rect.block (s := S16x64) S16x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S800000x64.size a
  hwx2_4 : ∀ i : grid2.Coords, EltTy.bits .f32 = 32 ∨ (Rect.block (s := S800000x64) S4000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S800000x64.size a
  hwx4_0 : ∀ i : grid4.Coords, EltTy.bits .f32 = 32 ∨ (Rect.block (s := S800000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x16.size a ≤ S800000x16.size a
  hwx4_1 : ∀ i : grid4.Coords, EltTy.bits .f32 = 32 ∨ (Rect.block (s := S800000x16) S4000x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x64.size a ≤ S16x64.size a
  hwx4_2 : ∀ i : grid4.Coords, EltTy.bits .f32 = 32 ∨ (Rect.block (s := S16x64) S16x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x64.size a ≤ S800000x64.size a
  hwx4_4 : ∀ i : grid4.Coords, EltTy.bits .f32 = 32 ∨ (Rect.block (s := S800000x64) S4000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S800000x64.size a
  hwx6_0 : ∀ i : grid6.Coords, EltTy.bits .f32 = 32 ∨ (Rect.block (s := S800000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x16.size a ≤ S800000x16.size a
  hwx6_1 : ∀ i : grid6.Coords, EltTy.bits .f32 = 32 ∨ (Rect.block (s := S800000x16) S4000x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16x64.size a ≤ S16x64.size a
  hwx6_2 : ∀ i : grid6.Coords, EltTy.bits .f32 = 32 ∨ (Rect.block (s := S16x64) S16x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x64.size a ≤ S800000x64.size a
  hwx6_4 : ∀ i : grid6.Coords, EltTy.bits .f32 = 32 ∨ (Rect.block (s := S800000x64) S4000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x64.size a ≤ S50000x64.size a
  hwx7_1 : ∀ i : grid7.Coords, EltTy.bits .f32 = 32 ∨ (Rect.block (s := S50000x64) S2000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x1.size a ≤ S64x1.size a
  hwx7_2 : ∀ i : grid7.Coords, EltTy.bits .f32 = 32 ∨ (Rect.block (s := S64x1) S64x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x1.size a ≤ S50000x1.size a
  hwx7_4 : ∀ i : grid7.Coords, EltTy.bits .f32 = 32 ∨ (Rect.block (s := S50000x1) S2000x1.size (cc7_transform_4 i) (hinb7_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf

abbrev win0_0 : Pipeline.Window sig grid0 :=
  Pipeline.Window.ofSpec (Memref.whole main_v4) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S4000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v20) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S4000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S16x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v19) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v35) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v36) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S4000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v38) S16x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v42) S4000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v35) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v47) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v50) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v51) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v52) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg2) S4000x16.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v54) S16x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v57) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v58) S4000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v51) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v61) S2000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg8) S64x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v62) S1x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v63) S2000x1.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x16 : Shape := ⟨2, ![800000, 16]⟩
abbrev S50000 : Shape := ⟨1, ![50000]⟩
abbrev S3x64x64 : Shape := ⟨3, ![3, 64, 64]⟩
abbrev S3x64 : Shape := ⟨2, ![3, 64]⟩
abbrev S4x16x64 : Shape := ⟨3, ![4, 16, 64]⟩
abbrev S4x64 : Shape := ⟨2, ![4, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S1x16x64 : Shape := ⟨3, ![1, 16, 64]⟩
abbrev S16x64 : Shape := ⟨2, ![16, 64]⟩
abbrev S1x64 : Shape := ⟨2, ![1, 64]⟩
abbrev S64 : Shape := ⟨1, ![64]⟩
abbrev S800000x64 : Shape := ⟨2, ![800000, 64]⟩
abbrev S_ : Shape := ⟨0, ![]⟩
abbrev S800000x1 : Shape := ⟨2, ![800000, 1]⟩
abbrev S1x64x64 : Shape := ⟨3, ![1, 64, 64]⟩
abbrev S64x64 : Shape := ⟨2, ![64, 64]⟩
abbrev S50000x1 : Shape := ⟨2, ![50000, 1]⟩
abbrev S1x1 : Shape := ⟨2, ![1, 1]⟩
abbrev S512x1 : Shape := ⟨2, ![512, 1]⟩

abbrev nBuf : Space → Nat
  | .hbm => 209
  | .vmem => 0
  | .smem => 0
  | _ => 0

abbrev hbmTy0_0 (i : Nat) : BufTy := match i % 128 with
  | 0 => ⟨S50000x64, .f32⟩
  | 1 => ⟨S2x800000, .i32⟩
  | 2 => ⟨S800000x16, .f32⟩
  | 3 => ⟨S50000, .i32⟩
  | 4 => ⟨S3x64x64, .f32⟩
  | 5 => ⟨S3x64, .f32⟩
  | 6 => ⟨S4x16x64, .f32⟩
  | 7 => ⟨S4x64, .f32⟩
  | 8 => ⟨S64x1, .f32⟩
  | 9 => ⟨S1, .f32⟩
  | 10 => ⟨S1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S1x16x64, .f32⟩
  | 17 => ⟨S16x64, .f32⟩
  | 18 => ⟨S1x64, .f32⟩
  | 19 => ⟨S64, .f32⟩
  | 20 => ⟨S800000x64, .f32⟩
  | 21 => ⟨S1x64, .f32⟩
  | 22 => ⟨S800000x64, .f32⟩
  | 23 => ⟨S800000x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S800000x64, .f32⟩
  | 34 => ⟨S_, .f32⟩
  | 35 => ⟨S800000x64, .f32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S50000x64, .f32⟩
  | 42 => ⟨S1x64x64, .f32⟩
  | 43 => ⟨S64x64, .f32⟩
  | 44 => ⟨S50000x64, .f32⟩
  | 45 => ⟨S1x64, .f32⟩
  | 46 => ⟨S64, .f32⟩
  | 47 => ⟨S1x64, .f32⟩
  | 48 => ⟨S50000x64, .f32⟩
  | 49 => ⟨S50000x64, .f32⟩
  | 50 => ⟨S_, .f32⟩
  | 51 => ⟨S50000x64, .f32⟩
  | 52 => ⟨S50000x64, .f32⟩
  | 53 => ⟨S1x16x64, .f32⟩
  | 54 => ⟨S16x64, .f32⟩
  | 55 => ⟨S1x64, .f32⟩
  | 56 => ⟨S64, .f32⟩
  | 57 => ⟨S800000x64, .f32⟩
  | 58 => ⟨S1x64, .f32⟩
  | 59 => ⟨S800000x64, .f32⟩
  | 60 => ⟨S800000x64, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S800000x64, .f32⟩
  | 71 => ⟨S_, .f32⟩
  | 72 => ⟨S800000x64, .f32⟩
  | 73 => ⟨S800000x64, .f32⟩
  | 74 => ⟨S_, .f32⟩
  | 75 => ⟨S50000x64, .f32⟩
  | 76 => ⟨S800000x1, .i32⟩
  | 77 => ⟨S50000x64, .f32⟩
  | 78 => ⟨S50000x64, .f32⟩
  | 79 => ⟨S1x64x64, .f32⟩
  | 80 => ⟨S64x64, .f32⟩
  | 81 => ⟨S50000x64, .f32⟩
  | 82 => ⟨S1x64, .f32⟩
  | 83 => ⟨S64, .f32⟩
  | 84 => ⟨S1x64, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S1x16x64, .f32⟩
  | 91 => ⟨S16x64, .f32⟩
  | 92 => ⟨S1x64, .f32⟩
  | 93 => ⟨S64, .f32⟩
  | 94 => ⟨S800000x64, .f32⟩
  | 95 => ⟨S1x64, .f32⟩
  | 96 => ⟨S800000x64, .f32⟩
  | 97 => ⟨S800000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S800000x64, .f32⟩
  | 108 => ⟨S_, .f32⟩
  | 109 => ⟨S800000x64, .f32⟩
  | 110 => ⟨S800000x64, .f32⟩
  | 111 => ⟨S_, .f32⟩
  | 112 => ⟨S50000x64, .f32⟩
  | 113 => ⟨S800000x1, .i32⟩
  | 114 => ⟨S50000x64, .f32⟩
  | 115 => ⟨S50000x64, .f32⟩
  | 116 => ⟨S1x64x64, .f32⟩
  | 117 => ⟨S64x64, .f32⟩
  | 118 => ⟨S50000x64, .f32⟩
  | 119 => ⟨S1x64, .f32⟩
  | 120 => ⟨S64, .f32⟩
  | 121 => ⟨S1x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S1x16x64, .f32⟩
  | _ => ⟨S50000x64, .f32⟩

abbrev hbmTy0_1 (i : Nat) : BufTy := match i % 128 with
  | 0 => ⟨S16x64, .f32⟩
  | 1 => ⟨S1x64, .f32⟩
  | 2 => ⟨S64, .f32⟩
  | 3 => ⟨S800000x64, .f32⟩
  | 4 => ⟨S1x64, .f32⟩
  | 5 => ⟨S800000x64, .f32⟩
  | 6 => ⟨S800000x64, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x64, .f32⟩
  | 16 => ⟨S800000x64, .f32⟩
  | 17 => ⟨S_, .f32⟩
  | 18 => ⟨S800000x64, .f32⟩
  | 19 => ⟨S800000x64, .f32⟩
  | 20 => ⟨S_, .f32⟩
  | 21 => ⟨S50000x64, .f32⟩
  | 22 => ⟨S800000x1, .i32⟩
  | 23 => ⟨S50000x64, .f32⟩
  | 24 => ⟨S50000x64, .f32⟩
  | 25 => ⟨S50000x1, .f32⟩
  | 26 => ⟨S1x1, .f32⟩
  | 27 => ⟨S50000x1, .f32⟩
  | 28 => ⟨S50000x1, .f32⟩
  | 29 => ⟨S_, .f32⟩
  | 30 => ⟨S50000x1, .f32⟩
  | 31 => ⟨S_, .f32⟩
  | 32 => ⟨S512x1, .f32⟩
  | 33 => ⟨S50000x1, .i32⟩
  | 34 => ⟨S512x1, .f32⟩
  | 35 => ⟨S_, .f32⟩
  | 36 => ⟨S512x1, .f32⟩
  | 37 => ⟨S50000x1, .i32⟩
  | 38 => ⟨S512x1, .f32⟩
  | 39 => ⟨S_, .f32⟩
  | 40 => ⟨S512x1, .f32⟩
  | 41 => ⟨S512x1, .f32⟩
  | 42 => ⟨S512x1, .f32⟩
  | 43 => ⟨S_, .f32⟩
  | 44 => ⟨S1, .f32⟩
  | 45 => ⟨S_, .f32⟩
  | 46 => ⟨S1, .f32⟩
  | 47 => ⟨S1, .f32⟩
  | 48 => ⟨S1x1, .f32⟩
  | 49 => ⟨S512x1, .f32⟩
  | 50 => ⟨S512x1, .f32⟩
  | 51 => ⟨S512x1, .f32⟩
  | 52 => ⟨S_, .f32⟩
  | 53 => ⟨S1, .f32⟩
  | 54 => ⟨S_, .f32⟩
  | 55 => ⟨S1, .f32⟩
  | 56 => ⟨S1, .f32⟩
  | 57 => ⟨S1x1, .f32⟩
  | 58 => ⟨S512x1, .f32⟩
  | 59 => ⟨S512x1, .f32⟩
  | 60 => ⟨S1x1, .f32⟩
  | 61 => ⟨S512x1, .f32⟩
  | 62 => ⟨S512x1, .f32⟩
  | 63 => ⟨S_, .f32⟩
  | 64 => ⟨S1, .f32⟩
  | 65 => ⟨S1, .f32⟩
  | 66 => ⟨S1, .f32⟩
  | 67 => ⟨S1x1, .f32⟩
  | 68 => ⟨S512x1, .f32⟩
  | 69 => ⟨S512x1, .f32⟩
  | 70 => ⟨S1x1, .f32⟩
  | 71 => ⟨S512x1, .f32⟩
  | 72 => ⟨S512x1, .f32⟩
  | 73 => ⟨S512x1, .f32⟩
  | 74 => ⟨S512x1, .f32⟩
  | 75 => ⟨S_, .f32⟩
  | 76 => ⟨S512x1, .f32⟩
  | 77 => ⟨S512x1, .f32⟩
  | 78 => ⟨S_, .f32⟩
  | 79 => ⟨S512x1, .f32⟩
  | 80 => ⟨S512x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_cst : Ref sig .tc := ⟨.hbm, 50, rfl⟩
abbrev main_call1_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_1 : Ref sig .tc := ⟨.hbm, 61, rfl⟩
abbrev main_v42 : Ref sig .tc := ⟨.hbm, 62, rfl⟩
abbrev main_v43 : Ref sig .tc := ⟨.hbm, 63, rfl⟩
abbrev main_c_2 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call2_cst : Ref sig .tc := ⟨.hbm, 71, rfl⟩
abbrev main_call2_v0 : Ref sig .tc := ⟨.hbm, 72, rfl⟩
abbrev main_v50 : Ref sig .tc := ⟨.hbm, 73, rfl⟩
abbrev main_cst_3 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call3_cst : Ref sig .tc := ⟨.hbm, 87, rfl⟩
abbrev main_call3_v0 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_4 : Ref sig .tc := ⟨.hbm, 98, rfl⟩
abbrev main_v72 : Ref sig .tc := ⟨.hbm, 99, rfl⟩
abbrev main_v73 : Ref sig .tc := ⟨.hbm, 100, rfl⟩
abbrev main_c_5 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call4_cst : Ref sig .tc := ⟨.hbm, 108, rfl⟩
abbrev main_call4_v0 : Ref sig .tc := ⟨.hbm, 109, rfl⟩
abbrev main_v80 : Ref sig .tc := ⟨.hbm, 110, rfl⟩
abbrev main_cst_6 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call5_cst : Ref sig .tc := ⟨.hbm, 124, rfl⟩
abbrev main_call5_v0 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_7 : Ref sig .tc := ⟨.hbm, 135, rfl⟩
abbrev main_v102 : Ref sig .tc := ⟨.hbm, 136, rfl⟩
abbrev main_v103 : Ref sig .tc := ⟨.hbm, 137, rfl⟩
abbrev main_c_8 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_call6_cst : Ref sig .tc := ⟨.hbm, 145, rfl⟩
abbrev main_call6_v0 : Ref sig .tc := ⟨.hbm, 146, rfl⟩
abbrev main_v110 : Ref sig .tc := ⟨.hbm, 147, rfl⟩
abbrev main_cst_9 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_10 : Ref sig .tc := ⟨.hbm, 157, rfl⟩
abbrev main_v119 : Ref sig .tc := ⟨.hbm, 158, rfl⟩
abbrev main_cst_11 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_12 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_13 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_14 : Ref sig .tc := ⟨.hbm, 171, rfl⟩
abbrev main_v129 : Ref sig .tc := ⟨.hbm, 172, rfl⟩
abbrev main_cst_15 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_16 : Ref sig .tc := ⟨.hbm, 180, rfl⟩
abbrev main_v136 : Ref sig .tc := ⟨.hbm, 181, rfl⟩
abbrev main_cst_17 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_18 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_19 : Ref sig .tc := ⟨.hbm, 203, rfl⟩
abbrev main_v156 : Ref sig .tc := ⟨.hbm, 204, rfl⟩
abbrev main_v157 : Ref sig .tc := ⟨.hbm, 205, rfl⟩
abbrev main_cst_20 : Ref sig .tc := ⟨.hbm, 206, rfl⟩
abbrev main_v158 : Ref sig .tc := ⟨.hbm, 207, rfl⟩
abbrev main_v159 : Ref sig .tc := ⟨.hbm, 208, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S4x16x64_S1x16x64_0_0_0 : S4x16x64.Slices ![0, 0, 0] S1x16x64
  shapeCasts_S1x16x64_S16x64 : S1x16x64.ShapeCasts S16x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  bcast_S1x64_S50000x64_0_1 : S1x64.BroadcastsInDim S50000x64 (![0, 1] : Fin 2 → Fin S50000x64.rank)
  slices_S4x16x64_S1x16x64_1_0_0 : S4x16x64.Slices ![1, 0, 0] S1x16x64
  slices_S4x64_S1x64_1_0 : S4x64.Slices ![1, 0] S1x64
  slices_S3x64x64_S1x64x64_1_0_0 : S3x64x64.Slices ![1, 0, 0] S1x64x64
  slices_S3x64_S1x64_1_0 : S3x64.Slices ![1, 0] S1x64
  slices_S4x16x64_S1x16x64_2_0_0 : S4x16x64.Slices ![2, 0, 0] S1x16x64
  slices_S4x64_S1x64_2_0 : S4x64.Slices ![2, 0] S1x64
  slices_S3x64x64_S1x64x64_2_0_0 : S3x64x64.Slices ![2, 0, 0] S1x64x64
  slices_S3x64_S1x64_2_0 : S3x64.Slices ![2, 0] S1x64
  slices_S4x16x64_S1x16x64_3_0_0 : S4x16x64.Slices ![3, 0, 0] S1x16x64
  slices_S4x64_S1x64_3_0 : S4x64.Slices ![3, 0] S1x64
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  bcast_S50000_S50000x1_0 : S50000.BroadcastsInDim S50000x1 (![0] : Fin 1 → Fin S50000x1.rank)
  reducesTo_S512x1_S1_d0 : S512x1.ReducesTo [0] S1
  h_S_ : 0 < S_.numel
  bcast_S_S1 : S_.BroadcastsInDim S1 (![] : Fin 0 → Fin S1.rank)
  bcast_S1x1_S512x1_0_1 : S1x1.BroadcastsInDim S512x1 (![0, 1] : Fin 2 → Fin S512x1.rank)
  dot_S800000x16_S16x64_S800000x64_1_0_0_1_n_n_wf : DotDims.WF S800000x16 S16x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  scatter_S512x1_S50000x1_S50000x1_1_0_0_1_wf : ScatterDims.WF S512x1 S50000x1 S50000x1 [1] [0] [0] 1

variable [Facts₀]

def dot_S800000x16_S16x64_S800000x64_1_0_0_1_n_n : DotDims S800000x16 S16x64 S800000x64 where
  lhsContracting := [1]
  rhsContracting := [0]
  lhsNonContracting := [0]
  rhsNonContracting := [1]
  lhsBatch := []
  rhsBatch := []
  wf := dot_S800000x16_S16x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf

class Facts : Prop extends Facts₀ where

variable [Facts]
-- ==== Proof.HostFns.lean ====
/-
  The host-side steps both programs share, each as a function of its operands: the two rows of the edge list, the
  per-layer slices of the stacked weights, the row gather at the (wrap-normalised) source indices, and the
  scatter-add of the messages at the destination indices into a zero array.
-/
import proofs.«413400_j8254927142997_1_alg».proof.Proof.Gen.ReferenceIdeal

noncomputable section

namespace Cert.Spec

open Cert.ReferenceIdeal Cert.ReferenceIdeal.Gen Idealize.ShloMosaic

variable {F : FTy → Type} [FloatOps F]

/-- Row 0 of the edge list: the source node of every edge. -/
def srcN (ei : IVec S2x800000 32) : IVec S800000 32 :=
  shapeCast _ (extractStridedSlice S1x800000 ![0, 0] ei slices_S2x800000_S1x800000_0_0) shapeCasts_S1x800000_S800000

/-- Row 1 of the edge list: the destination node of every edge. -/
def dstN (ei : IVec S2x800000 32) : IVec S800000 32 :=
  shapeCast _ (extractStridedSlice S1x800000 ![1, 0] ei slices_S2x800000_S1x800000_1_0) shapeCasts_S1x800000_S800000

/-- The source indices with a negative index wrapped once (numpy's convention), as a column. -/
def normN (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The node features gathered at the edges' source nodes. -/
def gatherN (h : FVec F S50000x64 .f32) (s : IVec S800000 32) : FVec F S800000x64 .f32 :=
  Host.gather gather_S50000x64_S800000x1_S800000x64_1_0_n_n_0_1_164 h (normN s)

/-- The messages summed at their destination nodes, from zero. -/
def scatN (d : IVec S800000 32) (msg : FVec F S800000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 d) msg

/-- Layer `l`'s edge weight matrix out of the stack. -/
def weN0 (a : FVec F S4x16x64 .f32) : FVec F S16x64 .f32 :=
  shapeCast _ (extractStridedSlice S1x16x64 ![0, 0, 0] a slices_S4x16x64_S1x16x64_0_0_0) shapeCasts_S1x16x64_S16x64
def weN1 (a : FVec F S4x16x64 .f32) : FVec F S16x64 .f32 :=
  shapeCast _ (extractStridedSlice S1x16x64 ![1, 0, 0] a slices_S4x16x64_S1x16x64_1_0_0) shapeCasts_S1x16x64_S16x64
def weN2 (a : FVec F S4x16x64 .f32) : FVec F S16x64 .f32 :=
  shapeCast _ (extractStridedSlice S1x16x64 ![2, 0, 0] a slices_S4x16x64_S1x16x64_2_0_0) shapeCasts_S1x16x64_S16x64
def weN3 (a : FVec F S4x16x64 .f32) : FVec F S16x64 .f32 :=
  shapeCast _ (extractStridedSlice S1x16x64 ![3, 0, 0] a slices_S4x16x64_S1x16x64_3_0_0) shapeCasts_S1x16x64_S16x64

/-- Layer `l`'s edge bias row out of the stack. -/
def beN0 (a : FVec F S4x64 .f32) : FVec F S64 .f32 :=
  shapeCast _ (extractStridedSlice S1x64 ![0, 0] a slices_S4x64_S1x64_0_0) shapeCasts_S1x64_S64
def beN1 (a : FVec F S4x64 .f32) : FVec F S64 .f32 :=
  shapeCast _ (extractStridedSlice S1x64 ![1, 0] a slices_S4x64_S1x64_1_0) shapeCasts_S1x64_S64
def beN2 (a : FVec F S4x64 .f32) : FVec F S64 .f32 :=
  shapeCast _ (extractStridedSlice S1x64 ![2, 0] a slices_S4x64_S1x64_2_0) shapeCasts_S1x64_S64
def beN3 (a : FVec F S4x64 .f32) : FVec F S64 .f32 :=
  shapeCast _ (extractStridedSlice S1x64 ![3, 0] a slices_S4x64_S1x64_3_0) shapeCasts_S1x64_S64

/-- Layer `l`'s hidden weight matrix out of the stack. -/
def whN0 (a : FVec F S3x64x64 .f32) : FVec F S64x64 .f32 :=
  shapeCast _ (extractStridedSlice S1x64x64 ![0, 0, 0] a slices_S3x64x64_S1x64x64_0_0_0) shapeCasts_S1x64x64_S64x64
def whN1 (a : FVec F S3x64x64 .f32) : FVec F S64x64 .f32 :=
  shapeCast _ (extractStridedSlice S1x64x64 ![1, 0, 0] a slices_S3x64x64_S1x64x64_1_0_0) shapeCasts_S1x64x64_S64x64
def whN2 (a : FVec F S3x64x64 .f32) : FVec F S64x64 .f32 :=
  shapeCast _ (extractStridedSlice S1x64x64 ![2, 0, 0] a slices_S3x64x64_S1x64x64_2_0_0) shapeCasts_S1x64x64_S64x64

/-- Layer `l`'s hidden bias row out of the stack. -/
def bhN0 (a : FVec F S3x64 .f32) : FVec F S64 .f32 :=
  shapeCast _ (extractStridedSlice S1x64 ![0, 0] a slices_S3x64_S1x64_0_0) shapeCasts_S1x64_S64
def bhN1 (a : FVec F S3x64 .f32) : FVec F S64 .f32 :=
  shapeCast _ (extractStridedSlice S1x64 ![1, 0] a slices_S3x64_S1x64_1_0) shapeCasts_S1x64_S64
def bhN2 (a : FVec F S3x64 .f32) : FVec F S64 .f32 :=
  shapeCast _ (extractStridedSlice S1x64 ![2, 0] a slices_S3x64_S1x64_2_0) shapeCasts_S1x64_S64

end Cert.Spec

end
-- ==== Proof.PreRange.lean ====
/-
  The precondition's last conjunct, read back: every source index of the edge list is a node index. The predicate ends in
  the conjunction over all 800000 edges of (0 ≤ s[e]) and (s[e] < 50000), both signed, where s is row 0 of the edge list;
  a 32-bit word in [0, 50000) signed is below 50000 unsigned.
-/
import proofs.«413400_j8254927142997_1_alg».proof.Defs
import proofs.«413400_j8254927142997_1_alg».proof.Proof.Gen.Pre_finite_inputs
import proofs.«413400_j8254927142997_1_alg».proof.Proof.Gen.KernelIdeal
import proofs.«413400_j8254927142997_1_alg».proof.Proof.HostFns
import Idealize.ShloMosaic.Lib.ReduceAll
import Idealize.ShloMosaic.Lib.StableHlo.Predicate
import Idealize.ShloMosaic.Lib.ValueIdx

noncomputable section

open Idealize.ShloMosaic Idealize.ShloMosaic.TcCoe Idealize.SL.Sem

namespace Cert.KernelIdeal.PreRange

open Cert.KernelIdeal Cert.Spec

/-- A word that is at least 0 and below 50000, both signed, is below 50000 unsigned. -/
theorem toNat_lt_of_signed (w : BitVec 32) (h0 : IntOp.cmpi .sge w (0#32) = 1#1)
    (h1 : IntOp.cmpi .slt w (50000#32) = 1#1) : w.toNat < 50000 := by
  rw [IntOp.cmpi_sge] at h0
  rw [IntOp.cmpi_slt] at h1
  have e0 : (0#32).toInt = 0 := by decide
  have e1 : (50000#32).toInt = 50000 := by decide
  rw [e0] at h0
  rw [e1] at h1
  rw [BitVec.toInt_eq_toNat_cond] at h0 h1
  split at h0 <;> omega

/-- The scalar shape has one index. -/
instance subsingleton_scalar_idx : Subsingleton Cert.Pre_finite_inputs.S_.Idx :=
  ⟨fun a b => funext fun d => d.elim0⟩

/-- THE PRECONDITION DECODED at edge e: the source index is a node index. -/
theorem inRange_of_pre (m : (ℓ : Loc nD τ sig) → Buf (Elt Ideal) ℓ)
    (hpre : Cert.Pre_KernelIdeal (hPre_finite_inputs := Cert.Pre_finite_inputs.Gen.facts) m) (c : Dev nD) :
    ∀ e : Cert.ReferenceIdeal.S800000.Idx, ((srcN (m ((c.tc : Thread nD τ).loc main_arg1))) e).toNat < 50000 := by
  intro e
  have h := congrFun (hpre c) ValueIdx.ix0
  dsimp only [Cert.Pre_finite_inputs.fn, Cert.Pre_finite_inputs.fn_part1, Cert.Pre_finite_inputs.fn_part2,
    Cert.Pre_finite_inputs.fn_part3] at h
  -- the outermost conjunction: its last conjunct is the range check
  have hall := (IntOp.andi_eq_one.1 h).2
  -- the conjunction over all edges gives the check at edge e
  have he := Host.reduce_andi_all _ _ _ _ _ hall e
  obtain ⟨hge, hlt⟩ := IntOp.andi_eq_one.1 he
  exact toNat_lt_of_signed _ hge hlt

end Cert.KernelIdeal.PreRange

end
-- ==== Proof.Spec.lean ====
/-
  The three layer maps of the message-passing network, as functions of whole arrays read index by index on the
  extended reals.

  * edge message:  msg[e, j]  = max (hsrc[e, j] + (Σ_k attr[e, k] · We[k, j] + be[0, j])) 0
  * node update:   h'[n, j]   = max (Σ_k (h[n, k] + aggr[n, k]) · W[k, j] + b[0, j]) 0
  * last update:   out[n, 0]  = Σ_k (h[n, k] + aggr[n, k]) · Wout[k, 0] + bout[0, 0]

  Both programs compute these maps: the kernel block by block with a matrix product per block, the reference
  with one whole matrix product. A row of the result depends only on the same row of the row-indexed operands,
  so the blocking is invisible in the value.
-/
import Idealize.ShloMosaic.PureOps.Ideal
import Idealize.ShloMosaic.Lib.ValueIdx

noncomputable section

namespace Cert.Spec

open Idealize.ShloMosaic Idealize.ShloMosaic.ValueIdx

/-- The arrays' shapes, spelt literally. -/
abbrev SE64 : Shape := ⟨2, ![800000, 64]⟩
abbrev SE16 : Shape := ⟨2, ![800000, 16]⟩
abbrev SN64 : Shape := ⟨2, ![50000, 64]⟩
abbrev SN1 : Shape := ⟨2, ![50000, 1]⟩
abbrev S16x64 : Shape := ⟨2, ![16, 64]⟩
abbrev S64x64 : Shape := ⟨2, ![64, 64]⟩
abbrev S64x1 : Shape := ⟨2, ![64, 1]⟩
abbrev S1x64 : Shape := ⟨2, ![1, 64]⟩
abbrev S1x1 : Shape := ⟨2, ![1, 1]⟩

/-- One entry of an edge message: the source node's feature plus the edge's linear map of its attributes, clipped at 0. -/
def edgeAt (hs : SE64.Idx → EReal) (ea : SE16.Idx → EReal) (we : S16x64.Idx → EReal) (b : S1x64.Idx → EReal)
    (p : Fin 800000) (q : Fin 64) : EReal :=
  max (hs (ix2 p q) + ((∑ k : Fin 16, ea (ix2 p k) * we (ix2 k q)) + b (ix2 0 q))) 0

/-- The edge messages as one array. -/
def EdgeG (hs : SE64.Idx → EReal) (ea : SE16.Idx → EReal) (we : S16x64.Idx → EReal) (b : S1x64.Idx → EReal) :
    SE64.Idx → EReal :=
  fun i => edgeAt hs ea we b (i 0) (i 1)

theorem EdgeG_ix2 (hs : SE64.Idx → EReal) (ea : SE16.Idx → EReal) (we : S16x64.Idx → EReal) (b : S1x64.Idx → EReal)
    (p : Fin 800000) (q : Fin 64) : EdgeG hs ea we b (ix2 p q) = edgeAt hs ea we b p q := rfl

/-- One entry of a hidden node update: the linear map of the node's feature plus its aggregate, clipped at 0. -/
def nodeAt (h aggr : SN64.Idx → EReal) (w : S64x64.Idx → EReal) (b : S1x64.Idx → EReal)
    (p : Fin 50000) (q : Fin 64) : EReal :=
  max ((∑ k : Fin 64, (h (ix2 p k) + aggr (ix2 p k)) * w (ix2 k q)) + b (ix2 0 q)) 0

/-- The hidden node update as one array. -/
def NodeG (h aggr : SN64.Idx → EReal) (w : S64x64.Idx → EReal) (b : S1x64.Idx → EReal) : SN64.Idx → EReal :=
  fun i => nodeAt h aggr w b (i 0) (i 1)

theorem NodeG_ix2 (h aggr : SN64.Idx → EReal) (w : S64x64.Idx → EReal) (b : S1x64.Idx → EReal)
    (p : Fin 50000) (q : Fin 64) : NodeG h aggr w b (ix2 p q) = nodeAt h aggr w b p q := rfl

/-- One entry of the last node update: linear, one output column, no clipping. -/
def linAt (h aggr : SN64.Idx → EReal) (w : S64x1.Idx → EReal) (b : S1x1.Idx → EReal)
    (p : Fin 50000) (q : Fin 1) : EReal :=
  (∑ k : Fin 64, (h (ix2 p k) + aggr (ix2 p k)) * w (ix2 k q)) + b (ix2 0 q)

/-- The last node update as one array. -/
def LinG (h aggr : SN64.Idx → EReal) (w : S64x1.Idx → EReal) (b : S1x1.Idx → EReal) : SN1.Idx → EReal :=
  fun i => linAt h aggr w b (i 0) (i 1)

theorem LinG_ix2 (h aggr : SN64.Idx → EReal) (w : S64x1.Idx → EReal) (b : S1x1.Idx → EReal)
    (p : Fin 50000) (q : Fin 1) : LinG h aggr w b (ix2 p q) = linAt h aggr w b p q := rfl

/-- A length-64 vector as a one-row matrix (what a reshape, or a broadcast along a new leading axis of extent 1, makes of it). -/
def row64 (b : (⟨1, ![64]⟩ : Shape).Idx → EReal) : S1x64.Idx → EReal := fun i => b (ix1 (i 1))

/-- A length-1 vector as a one-by-one matrix. -/
def cell1 (b : (⟨1, ![1]⟩ : Shape).Idx → EReal) : S1x1.Idx → EReal := fun i => b (ix1 (i 1))

end Cert.Spec

end
-- ==== Proof.TailFn.lean ====
/-
  The closing stretch both programs share, as a function of the last node update's output: the per-graph node
  counts and sums (scatter-adds at the batch ids), the pooled mean, its batch normalisation over the 512 graphs
  (mean, variance, scale and shift), and the logistic function.
-/
import proofs.«413400_j8254927142997_1_alg».proof.Proof.Gen.ReferenceIdeal.Read
import proofs.«413400_j8254927142997_1_alg».proof.Proof.HostFns

noncomputable section

namespace Cert.Spec

open Cert.ReferenceIdeal Cert.ReferenceIdeal.Gen Idealize.ShloMosaic

variable {F : FTy → Type} [FloatOps F]

/-- The constant column of ones over the 512 graphs. -/
def tailOnes : FVec F S512x1 .f32 :=
  broadcastInDim S512x1 ![] bcast_S_S512x1 (constant (F := F) S_ .f32 0x3F800000#32)

/-- The constant column of zeros over the 512 graphs. -/
def tailZeros : FVec F S512x1 .f32 :=
  broadcastInDim S512x1 ![] bcast_S_S512x1 (constant (F := F) S_ .f32 0x00000000#32)

/-- The batch ids as a column of scatter indices. -/
def tailIds (bt : IVec S50000 32) : IVec S50000x1 32 :=
  broadcastInDim S50000x1 ![0] bcast_S50000_S50000x1_0 bt

/-- The number of nodes of every graph, at least one. -/
def tailCnt (bt : IVec S50000 32) : FVec F S512x1 .f32 :=
  maximumf
    (Host.scatterAdd (F := F) scatter_S512x1_S50000x1_S50000x1_1_0_0_1 (tailZeros (F := F)) (tailIds bt)
      (broadcastInDim S50000x1 ![] bcast_S_S50000x1 (constant (F := F) S_ .f32 0x3F800000#32)))
    (tailOnes (F := F))

/-- The mean of the node values over every graph. -/
def tailPool (h4 : FVec F S50000x1 .f32) (bt : IVec S50000 32) : FVec F S512x1 .f32 :=
  Host.divf (F := F)
    (Host.scatterAdd (F := F) scatter_S512x1_S50000x1_S50000x1_1_0_0_1 (tailZeros (F := F)) (tailIds bt) h4)
    (tailCnt (F := F) bt)

/-- The mean of a column over the 512 graphs. -/
def tailMean (p : FVec F S512x1 .f32) : FVec F S1 .f32 :=
  Host.divf (F := F)
    (Host.reduceAdd (F := F) p (constant (F := F) S_ .f32 0x00000000#32) reducesTo_S512x1_S1_d0 h_S_)
    (broadcastInDim S1 ![] bcast_S_S1 (constant (F := F) S_ .f32 0x44000000#32))

/-- A single value repeated down the 512 graphs. -/
def tailCol (v : FVec F S1 .f32) : FVec F S512x1 .f32 :=
  broadcastInDim S512x1 ![0, 1] bcast_S1x1_S512x1_0_1 (broadcastInDim S1x1 ![1] bcast_S1_S1x1_1 v)

/-- The pooled column less its mean. -/
def tailCtr (p : FVec F S512x1 .f32) : FVec F S512x1 .f32 :=
  subf p (tailCol (F := F) (tailMean (F := F) p))

/-- The standard deviation of the pooled column, with the stabilising constant under the root. -/
def tailStd (p : FVec F S512x1 .f32) : FVec F S1 .f32 :=
  Host.sqrt (F := F)
    (addf (tailMean (F := F) (mulf (tailCtr (F := F) p) (tailCtr (F := F) p)))
      (broadcastInDim S1 ![] bcast_S_S1 (constant (F := F) S_ .f32 0x3727C5AC#32)))

/-- The normalised, scaled and shifted pooled column. -/
def tailNorm (p : FVec F S512x1 .f32) (g b : FVec F S1 .f32) : FVec F S512x1 .f32 :=
  addf
    (Host.divf (F := F) (mulf (tailCol (F := F) g) (tailCtr (F := F) p)) (tailCol (F := F) (tailStd (F := F) p)))
    (tailCol (F := F) b)

/-- The logistic function of a column. -/
def tailSig (y : FVec F S512x1 .f32) : FVec F S512x1 .f32 :=
  Host.divf (F := F) (tailOnes (F := F))
    (addf (tailOnes (F := F)) (Host.exp (F := F) (Host.negf (F := F) y)))

/-- The whole closing stretch. -/
def tailN (h4 : FVec F S50000x1 .f32) (bt : IVec S50000 32) (g b : FVec F S1 .f32) : FVec F S512x1 .f32 :=
  tailSig (F := F) (tailNorm (F := F) (tailPool (F := F) h4 bt) g b)

open Cert.ReferenceIdeal.Read in
/-- The reference program's result is the closing stretch of its last node update. -/
theorem tail_ref (x0 : FVec F S50000x64 .f32) (x1 : IVec S2x800000 32) (x2 : FVec F S800000x16 .f32)
    (x3 : IVec S50000 32) (x4 : FVec F S3x64x64 .f32) (x5 : FVec F S3x64 .f32) (x6 : FVec F S4x16x64 .f32)
    (x7 : FVec F S4x64 .f32) (x8 : FVec F S64x1 .f32) (x9 x10 x11 : FVec F S1 .f32) :
    Cert.ReferenceIdeal.Read.val_main_v159 (F := F) x0 x1 x2 x3 x4 x5 x6 x7 x8 x9 x10 x11
      = tailN (F := F) (Cert.ReferenceIdeal.Read.val_main_v118 (F := F) x0 x1 x2 x4 x5 x6 x7 x8 x9) x3 x10 x11 := by
  rfl

end Cert.Spec
-- ==== Proof.Keep.lean ====
/-
  A buffer that a segment of the program does not write holds after the segment what it held before it. For a host
  stretch the buffers written are its operations' results, listed; for a blocked region the only array written is the
  region's output (an input array is read back through its window to what it held, every other buffer is untouched).
  One lemma per segment, for any buffer outside the segment's list.
-/
import proofs.«413400_j8254927142997_1_alg».proof.Proof.Gen.KernelIdeal.Frame

noncomputable section

open Idealize.ShloMosaic Idealize.ShloMosaic.TcCoe Idealize.SL.Sem

namespace Cert.KernelIdeal.Keep

open Cert.KernelIdeal Cert.KernelIdeal.Gen

variable {F : FTy → Type} [FloatOps F]
variable (m : (ℓ : Loc nD τ sig) → Buf (Elt F) ℓ) (ρ : Dev nD → PrngReg)

/-- A reference of a list, as a device buffer, is among the list's device buffers. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Every reference the stretch `hostOps0` writes, in order. -/
def written_W1 : List (Ref sig .tc) :=
  [ main_v0, main_v1, main_v2, main_v3 ]

theorem writes_W1 : (hostOps0 : List (HloOp τ sig (Elt F))).Forall fun op =>
    op.writes ⊆ (written_W1.map (Proc.devRef (τ := τ) .tc)).toFinset := by
  simp only [hostOps0, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub (by decide)

/-- A buffer the stretch `hostOps0` does not write keeps its contents across it. -/
theorem keep_W1 (c : Dev nD) (b : Ref sig .tc) (hb : b ∉ written_W1) :
    W1 m ρ c (Proc.devRef .tc b) = W0 m ρ c (Proc.devRef .tc b) :=
  StableHlo.after_of_writes_sub _ _ writes_W1 hb

/-- Every reference the stretch `hostOps0_1` writes, in order. -/
def written_W2 : List (Ref sig .tc) :=
  [ main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4 ]

theorem writes_W2 : (hostOps0_1 : List (HloOp τ sig (Elt F))).Forall fun op =>
    op.writes ⊆ (written_W2.map (Proc.devRef (τ := τ) .tc)).toFinset := by
  simp only [hostOps0_1, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub (by decide)

/-- A buffer the stretch `hostOps0_1` does not write keeps its contents across it. -/
theorem keep_W2 (c : Dev nD) (b : Ref sig .tc) (hb : b ∉ written_W2) :
    W2 m ρ c (Proc.devRef .tc b) = W1 m ρ c (Proc.devRef .tc b) :=
  StableHlo.after_of_writes_sub _ _ writes_W2 hb

/-- Every reference the stretch `hostOps0_2` writes, in order. -/
def written_W3 : List (Ref sig .tc) :=
  [ main_v5, main_v6, main_v7, main_v8, main_v9 ]

theorem writes_W3 : (hostOps0_2 : List (HloOp τ sig (Elt F))).Forall fun op =>
    op.writes ⊆ (written_W3.map (Proc.devRef (τ := τ) .tc)).toFinset := by
  simp only [hostOps0_2, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub (by decide)

/-- A buffer the stretch `hostOps0_2` does not write keeps its contents across it. -/
theorem keep_W3 (c : Dev nD) (b : Ref sig .tc) (hb : b ∉ written_W3) :
    W3 m ρ c (Proc.devRef .tc b) = W2 m ρ c (Proc.devRef .tc b) :=
  StableHlo.after_of_writes_sub _ _ writes_W3 hb

/-- Region 0 writes its output array only: every other buffer keeps its contents across it. -/
theorem keep_W4 (c : Dev nD) (b : Ref sig .tc) (hb : b ≠ main_v10) :
    W4 m ρ c (Proc.devRef .tc b) = W3 m ρ c (Proc.devRef .tc b) := by
  by_cases h : ∃ w, Pipeline.arrRef spec0 w = b
  · obtain ⟨w, rfl⟩ := h
    have hin : (cfg0.win w).isOut = false := by
      revert hb; revert w; decide
    exact (W4_arr m ρ c w).trans (((dat0 (V3 m ρ) c).arrAt_in w hin _).trans (A_eq0 (V3 m ρ) c w))
  · exact W4_of_ne m ρ c b fun w e => h ⟨w, e⟩

/-- Every reference the stretch `hostOps1` writes, in order. -/
def written_W5 : List (Ref sig .tc) :=
  [ main_cst, main_v11, main_v12, main_v13, main_v14, main_v15, main_v16, main_v17, main_v18 ]

theorem writes_W5 : (hostOps1 : List (HloOp τ sig (Elt F))).Forall fun op =>
    op.writes ⊆ (written_W5.map (Proc.devRef (τ := τ) .tc)).toFinset := by
  simp only [hostOps1, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub (by decide)

/-- A buffer the stretch `hostOps1` does not write keeps its contents across it. -/
theorem keep_W5 (c : Dev nD) (b : Ref sig .tc) (hb : b ∉ written_W5) :
    W5 m ρ c (Proc.devRef .tc b) = W4 m ρ c (Proc.devRef .tc b) :=
  StableHlo.after_of_writes_sub _ _ writes_W5 hb

/-- Region 1 writes its output array only: every other buffer keeps its contents across it. -/
theorem keep_W6 (c : Dev nD) (b : Ref sig .tc) (hb : b ≠ main_v19) :
    W6 m ρ c (Proc.devRef .tc b) = W5 m ρ c (Proc.devRef .tc b) := by
  by_cases h : ∃ w, Pipeline.arrRef spec1 w = b
  · obtain ⟨w, rfl⟩ := h
    have hin : (cfg1.win w).isOut = false := by
      revert hb; revert w; decide
    exact (W6_arr m ρ c w).trans (((dat1 (V5 m ρ) c).arrAt_in w hin _).trans (A_eq1 (V5 m ρ) c w))
  · exact W6_of_ne m ρ c b fun w e => h ⟨w, e⟩

/-- Every reference the stretch `hostOps2` writes, in order. -/
def written_W7 : List (Ref sig .tc) :=
  [ main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v20 ]

theorem writes_W7 : (hostOps2 : List (HloOp τ sig (Elt F))).Forall fun op =>
    op.writes ⊆ (written_W7.map (Proc.devRef (τ := τ) .tc)).toFinset := by
  simp only [hostOps2, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub (by decide)

/-- A buffer the stretch `hostOps2` does not write keeps its contents across it. -/
theorem keep_W7 (c : Dev nD) (b : Ref sig .tc) (hb : b ∉ written_W7) :
    W7 m ρ c (Proc.devRef .tc b) = W6 m ρ c (Proc.devRef .tc b) :=
  StableHlo.after_of_writes_sub _ _ writes_W7 hb

/-- Every reference the stretch `hostOps2_1` writes, in order. -/
def written_W8 : List (Ref sig .tc) :=
  [ main_v21, main_v22, main_v23, main_v24, main_v25 ]

theorem writes_W8 : (hostOps2_1 : List (HloOp τ sig (Elt F))).Forall fun op =>
    op.writes ⊆ (written_W8.map (Proc.devRef (τ := τ) .tc)).toFinset := by
  simp only [hostOps2_1, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub (by decide)

/-- A buffer the stretch `hostOps2_1` does not write keeps its contents across it. -/
theorem keep_W8 (c : Dev nD) (b : Ref sig .tc) (hb : b ∉ written_W8) :
    W8 m ρ c (Proc.devRef .tc b) = W7 m ρ c (Proc.devRef .tc b) :=
  StableHlo.after_of_writes_sub _ _ writes_W8 hb

/-- Region 2 writes its output array only: every other buffer keeps its contents across it. -/
theorem keep_W9 (c : Dev nD) (b : Ref sig .tc) (hb : b ≠ main_v26) :
    W9 m ρ c (Proc.devRef .tc b) = W8 m ρ c (Proc.devRef .tc b) := by
  by_cases h : ∃ w, Pipeline.arrRef spec2 w = b
  · obtain ⟨w, rfl⟩ := h
    have hin : (cfg2.win w).isOut = false := by
      revert hb; revert w; decide
    exact (W9_arr m ρ c w).trans (((dat2 (V8 m ρ) c).arrAt_in w hin _).trans (A_eq2 (V8 m ρ) c w))
  · exact W9_of_ne m ρ c b fun w e => h ⟨w, e⟩

/-- Every reference the stretch `hostOps3` writes, in order. -/
def written_W10 : List (Ref sig .tc) :=
  [ main_cst_0, main_v27, main_v28, main_v29, main_v30, main_v31, main_v32, main_v33, main_v34 ]

theorem writes_W10 : (hostOps3 : List (HloOp τ sig (Elt F))).Forall fun op =>
    op.writes ⊆ (written_W10.map (Proc.devRef (τ := τ) .tc)).toFinset := by
  simp only [hostOps3, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub (by decide)

/-- A buffer the stretch `hostOps3` does not write keeps its contents across it. -/
theorem keep_W10 (c : Dev nD) (b : Ref sig .tc) (hb : b ∉ written_W10) :
    W10 m ρ c (Proc.devRef .tc b) = W9 m ρ c (Proc.devRef .tc b) :=
  StableHlo.after_of_writes_sub _ _ writes_W10 hb

/-- Region 3 writes its output array only: every other buffer keeps its contents across it. -/
theorem keep_W11 (c : Dev nD) (b : Ref sig .tc) (hb : b ≠ main_v35) :
    W11 m ρ c (Proc.devRef .tc b) = W10 m ρ c (Proc.devRef .tc b) := by
  by_cases h : ∃ w, Pipeline.arrRef spec3 w = b
  · obtain ⟨w, rfl⟩ := h
    have hin : (cfg3.win w).isOut = false := by
      revert hb; revert w; decide
    exact (W11_arr m ρ c w).trans (((dat3 (V10 m ρ) c).arrAt_in w hin _).trans (A_eq3 (V10 m ρ) c w))
  · exact W11_of_ne m ρ c b fun w e => h ⟨w, e⟩

/-- Every reference the stretch `hostOps4` writes, in order. -/
def written_W12 : List (Ref sig .tc) :=
  [ main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v36 ]

theorem writes_W12 : (hostOps4 : List (HloOp τ sig (Elt F))).Forall fun op =>
    op.writes ⊆ (written_W12.map (Proc.devRef (τ := τ) .tc)).toFinset := by
  simp only [hostOps4, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub (by decide)

/-- A buffer the stretch `hostOps4` does not write keeps its contents across it. -/
theorem keep_W12 (c : Dev nD) (b : Ref sig .tc) (hb : b ∉ written_W12) :
    W12 m ρ c (Proc.devRef .tc b) = W11 m ρ c (Proc.devRef .tc b) :=
  StableHlo.after_of_writes_sub _ _ writes_W12 hb

/-- Every reference the stretch `hostOps4_1` writes, in order. -/
def written_W13 : List (Ref sig .tc) :=
  [ main_v37, main_v38, main_v39, main_v40, main_v41 ]

theorem writes_W13 : (hostOps4_1 : List (HloOp τ sig (Elt F))).Forall fun op =>
    op.writes ⊆ (written_W13.map (Proc.devRef (τ := τ) .tc)).toFinset := by
  simp only [hostOps4_1, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub (by decide)

/-- A buffer the stretch `hostOps4_1` does not write keeps its contents across it. -/
theorem keep_W13 (c : Dev nD) (b : Ref sig .tc) (hb : b ∉ written_W13) :
    W13 m ρ c (Proc.devRef .tc b) = W12 m ρ c (Proc.devRef .tc b) :=
  StableHlo.after_of_writes_sub _ _ writes_W13 hb

/-- Region 4 writes its output array only: every other buffer keeps its contents across it. -/
theorem keep_W14 (c : Dev nD) (b : Ref sig .tc) (hb : b ≠ main_v42) :
    W14 m ρ c (Proc.devRef .tc b) = W13 m ρ c (Proc.devRef .tc b) := by
  by_cases h : ∃ w, Pipeline.arrRef spec4 w = b
  · obtain ⟨w, rfl⟩ := h
    have hin : (cfg4.win w).isOut = false := by
      revert hb; revert w; decide
    exact (W14_arr m ρ c w).trans (((dat4 (V13 m ρ) c).arrAt_in w hin _).trans (A_eq4 (V13 m ρ) c w))
  · exact W14_of_ne m ρ c b fun w e => h ⟨w, e⟩

/-- Every reference the stretch `hostOps5` writes, in order. -/
def written_W15 : List (Ref sig .tc) :=
  [ main_cst_1, main_v43, main_v44, main_v45, main_v46, main_v47, main_v48, main_v49, main_v50 ]

theorem writes_W15 : (hostOps5 : List (HloOp τ sig (Elt F))).Forall fun op =>
    op.writes ⊆ (written_W15.map (Proc.devRef (τ := τ) .tc)).toFinset := by
  simp only [hostOps5, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub (by decide)

/-- A buffer the stretch `hostOps5` does not write keeps its contents across it. -/
theorem keep_W15 (c : Dev nD) (b : Ref sig .tc) (hb : b ∉ written_W15) :
    W15 m ρ c (Proc.devRef .tc b) = W14 m ρ c (Proc.devRef .tc b) :=
  StableHlo.after_of_writes_sub _ _ writes_W15 hb

/-- Region 5 writes its output array only: every other buffer keeps its contents across it. -/
theorem keep_W16 (c : Dev nD) (b : Ref sig .tc) (hb : b ≠ main_v51) :
    W16 m ρ c (Proc.devRef .tc b) = W15 m ρ c (Proc.devRef .tc b) := by
  by_cases h : ∃ w, Pipeline.arrRef spec5 w = b
  · obtain ⟨w, rfl⟩ := h
    have hin : (cfg5.win w).isOut = false := by
      revert hb; revert w; decide
    exact (W16_arr m ρ c w).trans (((dat5 (V15 m ρ) c).arrAt_in w hin _).trans (A_eq5 (V15 m ρ) c w))
  · exact W16_of_ne m ρ c b fun w e => h ⟨w, e⟩

/-- Every reference the stretch `hostOps6` writes, in order. -/
def written_W17 : List (Ref sig .tc) :=
  [ main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v52 ]

theorem writes_W17 : (hostOps6 : List (HloOp τ sig (Elt F))).Forall fun op =>
    op.writes ⊆ (written_W17.map (Proc.devRef (τ := τ) .tc)).toFinset := by
  simp only [hostOps6, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub (by decide)

/-- A buffer the stretch `hostOps6` does not write keeps its contents across it. -/
theorem keep_W17 (c : Dev nD) (b : Ref sig .tc) (hb : b ∉ written_W17) :
    W17 m ρ c (Proc.devRef .tc b) = W16 m ρ c (Proc.devRef .tc b) :=
  StableHlo.after_of_writes_sub _ _ writes_W17 hb

/-- Every reference the stretch `hostOps6_1` writes, in order. -/
def written_W18 : List (Ref sig .tc) :=
  [ main_v53, main_v54, main_v55, main_v56, main_v57 ]

theorem writes_W18 : (hostOps6_1 : List (HloOp τ sig (Elt F))).Forall fun op =>
    op.writes ⊆ (written_W18.map (Proc.devRef (τ := τ) .tc)).toFinset := by
  simp only [hostOps6_1, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub (by decide)

/-- A buffer the stretch `hostOps6_1` does not write keeps its contents across it. -/
theorem keep_W18 (c : Dev nD) (b : Ref sig .tc) (hb : b ∉ written_W18) :
    W18 m ρ c (Proc.devRef .tc b) = W17 m ρ c (Proc.devRef .tc b) :=
  StableHlo.after_of_writes_sub _ _ writes_W18 hb

/-- Region 6 writes its output array only: every other buffer keeps its contents across it. -/
theorem keep_W19 (c : Dev nD) (b : Ref sig .tc) (hb : b ≠ main_v58) :
    W19 m ρ c (Proc.devRef .tc b) = W18 m ρ c (Proc.devRef .tc b) := by
  by_cases h : ∃ w, Pipeline.arrRef spec6 w = b
  · obtain ⟨w, rfl⟩ := h
    have hin : (cfg6.win w).isOut = false := by
      revert hb; revert w; decide
    exact (W19_arr m ρ c w).trans (((dat6 (V18 m ρ) c).arrAt_in w hin _).trans (A_eq6 (V18 m ρ) c w))
  · exact W19_of_ne m ρ c b fun w e => h ⟨w, e⟩

/-- Every reference the stretch `hostOps7` writes, in order. -/
def written_W20 : List (Ref sig .tc) :=
  [ main_cst_2, main_v59, main_v60, main_v61, main_v62 ]

theorem writes_W20 : (hostOps7 : List (HloOp τ sig (Elt F))).Forall fun op =>
    op.writes ⊆ (written_W20.map (Proc.devRef (τ := τ) .tc)).toFinset := by
  simp only [hostOps7, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub (by decide)

/-- A buffer the stretch `hostOps7` does not write keeps its contents across it. -/
theorem keep_W20 (c : Dev nD) (b : Ref sig .tc) (hb : b ∉ written_W20) :
    W20 m ρ c (Proc.devRef .tc b) = W19 m ρ c (Proc.devRef .tc b) :=
  StableHlo.after_of_writes_sub _ _ writes_W20 hb

/-- Region 7 writes its output array only: every other buffer keeps its contents across it. -/
theorem keep_W21 (c : Dev nD) (b : Ref sig .tc) (hb : b ≠ main_v63) :
    W21 m ρ c (Proc.devRef .tc b) = W20 m ρ c (Proc.devRef .tc b) := by
  by_cases h : ∃ w, Pipeline.arrRef spec7 w = b
  · obtain ⟨w, rfl⟩ := h
    have hin : (cfg7.win w).isOut = false := by
      revert hb; revert w; decide
    exact (W21_arr m ρ c w).trans (((dat7 (V20 m ρ) c).arrAt_in w hin _).trans (A_eq7 (V20 m ρ) c w))
  · exact W21_of_ne m ρ c b fun w e => h ⟨w, e⟩

/-- Every reference the stretch `hostOps8` writes, in order. -/
def written_W22 : List (Ref sig .tc) :=
  [ main_cst_3, main_v64, main_cst_4, main_v65, main_v66, main_v67, main_cst_5, main_v68, main_v69, main_v70, main_cst_6, main_v71, main_v72, main_v73, main_cst_7, main_v74, main_cst_8, main_v75, main_v76, main_v77, main_v78, main_v79, main_v80, main_cst_9, main_v81, main_cst_10, main_v82, main_v83, main_v84, main_v85, main_v86, main_v87, main_v88, main_v89, main_cst_11, main_v90, main_v91, main_v92, main_v93, main_v94, main_v95, main_v96, main_v97, main_v98, main_v99, main_v100, main_cst_12, main_v101, main_v102, main_cst_13, main_v103, main_v104 ]

theorem writes_W22 : (hostOps8 : List (HloOp τ sig (Elt F))).Forall fun op =>
    op.writes ⊆ (written_W22.map (Proc.devRef (τ := τ) .tc)).toFinset := by
  simp only [hostOps8, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub (by decide)

/-- A buffer the stretch `hostOps8` does not write keeps its contents across it. -/
theorem keep_W22 (c : Dev nD) (b : Ref sig .tc) (hb : b ∉ written_W22) :
    W22 m ρ c (Proc.devRef .tc b) = W21 m ρ c (Proc.devRef .tc b) :=
  StableHlo.after_of_writes_sub _ _ writes_W22 hb

/-! ### Each lemma at a concrete buffer -/
example (c : Dev nD) : W1 m ρ c (Proc.devRef .tc main_arg0) = W0 m ρ c (Proc.devRef .tc main_arg0) := keep_W1 m ρ c main_arg0 (by decide)
example (c : Dev nD) : W2 m ρ c (Proc.devRef .tc main_arg0) = W1 m ρ c (Proc.devRef .tc main_arg0) := keep_W2 m ρ c main_arg0 (by decide)
example (c : Dev nD) : W3 m ρ c (Proc.devRef .tc main_arg0) = W2 m ρ c (Proc.devRef .tc main_arg0) := keep_W3 m ρ c main_arg0 (by decide)
example (c : Dev nD) : W5 m ρ c (Proc.devRef .tc main_arg0) = W4 m ρ c (Proc.devRef .tc main_arg0) := keep_W5 m ρ c main_arg0 (by decide)
example (c : Dev nD) : W7 m ρ c (Proc.devRef .tc main_arg0) = W6 m ρ c (Proc.devRef .tc main_arg0) := keep_W7 m ρ c main_arg0 (by decide)
example (c : Dev nD) : W8 m ρ c (Proc.devRef .tc main_arg0) = W7 m ρ c (Proc.devRef .tc main_arg0) := keep_W8 m ρ c main_arg0 (by decide)
example (c : Dev nD) : W10 m ρ c (Proc.devRef .tc main_arg0) = W9 m ρ c (Proc.devRef .tc main_arg0) := keep_W10 m ρ c main_arg0 (by decide)
example (c : Dev nD) : W12 m ρ c (Proc.devRef .tc main_arg0) = W11 m ρ c (Proc.devRef .tc main_arg0) := keep_W12 m ρ c main_arg0 (by decide)
example (c : Dev nD) : W13 m ρ c (Proc.devRef .tc main_arg0) = W12 m ρ c (Proc.devRef .tc main_arg0) := keep_W13 m ρ c main_arg0 (by decide)
example (c : Dev nD) : W15 m ρ c (Proc.devRef .tc main_arg0) = W14 m ρ c (Proc.devRef .tc main_arg0) := keep_W15 m ρ c main_arg0 (by decide)
example (c : Dev nD) : W17 m ρ c (Proc.devRef .tc main_arg0) = W16 m ρ c (Proc.devRef .tc main_arg0) := keep_W17 m ρ c main_arg0 (by decide)
example (c : Dev nD) : W18 m ρ c (Proc.devRef .tc main_arg0) = W17 m ρ c (Proc.devRef .tc main_arg0) := keep_W18 m ρ c main_arg0 (by decide)
example (c : Dev nD) : W20 m ρ c (Proc.devRef .tc main_arg0) = W19 m ρ c (Proc.devRef .tc main_arg0) := keep_W20 m ρ c main_arg0 (by decide)
example (c : Dev nD) : W22 m ρ c (Proc.devRef .tc main_arg0) = W21 m ρ c (Proc.devRef .tc main_arg0) := keep_W22 m ρ c main_arg0 (by decide)
example (c : Dev nD) : W4 m ρ c (Proc.devRef .tc main_v3) = W3 m ρ c (Proc.devRef .tc main_v3) := keep_W4 m ρ c main_v3 (by decide)
example (c : Dev nD) : W6 m ρ c (Proc.devRef .tc main_v3) = W5 m ρ c (Proc.devRef .tc main_v3) := keep_W6 m ρ c main_v3 (by decide)
example (c : Dev nD) : W9 m ρ c (Proc.devRef .tc main_v3) = W8 m ρ c (Proc.devRef .tc main_v3) := keep_W9 m ρ c main_v3 (by decide)
example (c : Dev nD) : W11 m ρ c (Proc.devRef .tc main_v3) = W10 m ρ c (Proc.devRef .tc main_v3) := keep_W11 m ρ c main_v3 (by decide)
example (c : Dev nD) : W14 m ρ c (Proc.devRef .tc main_v3) = W13 m ρ c (Proc.devRef .tc main_v3) := keep_W14 m ρ c main_v3 (by decide)
example (c : Dev nD) : W16 m ρ c (Proc.devRef .tc main_v3) = W15 m ρ c (Proc.devRef .tc main_v3) := keep_W16 m ρ c main_v3 (by decide)
example (c : Dev nD) : W19 m ρ c (Proc.devRef .tc main_v3) = W18 m ρ c (Proc.devRef .tc main_v3) := keep_W19 m ρ c main_v3 (by decide)
example (c : Dev nD) : W21 m ρ c (Proc.devRef .tc main_v3) = W20 m ρ c (Proc.devRef .tc main_v3) := keep_W21 m ρ c main_v3 (by decide)
example (c : Dev nD) : W5 m ρ c (Proc.devRef .tc main_v10) = W4 m ρ c (Proc.devRef .tc main_v10) := keep_W5 m ρ c main_v10 (by decide)
example (c : Dev nD) : W6 m ρ c (Proc.devRef .tc main_arg0) = W5 m ρ c (Proc.devRef .tc main_arg0) := keep_W6 m ρ c main_arg0 (by decide)
example (c : Dev nD) : W21 m ρ c (Proc.devRef .tc main_arg8) = W20 m ρ c (Proc.devRef .tc main_arg8) := keep_W21 m ρ c main_arg8 (by decide)

end Cert.KernelIdeal.Keep
-- ==== Proof.Stretch.lean ====
/-
  What each short host stretch of the kernel program writes, as a function of the buffer contents at the boundary
  before it: the two rows of the edge list, each layer's slices of the stacked weights and biases (a bias as a
  one-row matrix), the scatter-add of a layer's messages at the destination indices, and the last bias as a
  one-by-one matrix.
-/
import proofs.«413400_j8254927142997_1_alg».proof.Proof.Gen.KernelIdeal.Frame
import proofs.«413400_j8254927142997_1_alg».proof.Proof.Spec
import proofs.«413400_j8254927142997_1_alg».proof.Proof.HostFns
import Idealize.ShloMosaic.Lib.StableHlo.Run
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem

namespace Cert.KernelIdeal.Stretch

open Cert.KernelIdeal Cert.KernelIdeal.Gen Cert.Spec

variable (m : (ℓ : Loc nD τ sig) → Buf (Elt Ideal) ℓ) (ρ : Dev nD → PrngReg)

/-- A length-64 vector reshaped to one row is that vector read along the row. -/
theorem row64_of_cast (v : FVec Ideal S64 .f32) (h : S64.ShapeCasts S1x64) :
    shapeCast S1x64 v h = row64 v := by
  funext i
  obtain ⟨a, b, rfl⟩ : ∃ a b, i = ValueIdx.ix2 a b := ⟨_, _, ValueIdx.eq_ix2 i⟩
  exact ValueIdx.shapeCast_a_1a_apply v h a b

/-- A length-1 vector reshaped to one cell is that vector's entry. -/
theorem cell1_of_cast (v : FVec Ideal S1 .f32) (h : S1.ShapeCasts S1x1) :
    shapeCast S1x1 v h = cell1 v := by
  funext i
  obtain ⟨a, b, rfl⟩ : ∃ a b, i = ValueIdx.ix2 a b := ⟨_, _, ValueIdx.eq_ix2 i⟩
  exact ValueIdx.shapeCast_a_1a_apply v h a b

theorem W1_src (c : Dev nD) :
    W1 m ρ c (Proc.devRef .tc main_v1) = srcN (W0 m ρ c (Proc.devRef .tc main_arg1)) := by
  show StableHlo.after hostOps0 (W0 m ρ c) (Proc.devRef .tc main_v1) = _
  generalize W0 m ρ c = V
  after_results
  rfl

theorem W1_dst (c : Dev nD) :
    W1 m ρ c (Proc.devRef .tc main_v3) = dstN (W0 m ρ c (Proc.devRef .tc main_arg1)) := by
  show StableHlo.after hostOps0 (W0 m ρ c) (Proc.devRef .tc main_v3) = _
  generalize W0 m ρ c = V
  after_results
  rfl

theorem W3_we (c : Dev nD) :
    W3 m ρ c (Proc.devRef .tc main_v6) = weN0 (F := Ideal) (W2 m ρ c (Proc.devRef .tc main_arg6)) := by
  show StableHlo.after hostOps0_2 (W2 m ρ c) (Proc.devRef .tc main_v6) = _
  generalize W2 m ρ c = V
  after_results
  rfl

theorem W3_be (c : Dev nD) :
    W3 m ρ c (Proc.devRef .tc main_v9) = row64 (beN0 (F := Ideal) (W2 m ρ c (Proc.devRef .tc main_arg7))) := by
  show StableHlo.after hostOps0_2 (W2 m ρ c) (Proc.devRef .tc main_v9) = _
  generalize W2 m ρ c = V
  after_results
  exact row64_of_cast _ _

theorem W5_aggr (c : Dev nD) :
    W5 m ρ c (Proc.devRef .tc main_v13) = scatN (F := Ideal) (W4 m ρ c (Proc.devRef .tc main_v3)) (W4 m ρ c (Proc.devRef .tc main_v10)) := by
  show StableHlo.after hostOps1 (W4 m ρ c) (Proc.devRef .tc main_v13) = _
  generalize W4 m ρ c = V
  after_results
  rfl

theorem W5_w (c : Dev nD) :
    W5 m ρ c (Proc.devRef .tc main_v15) = whN0 (F := Ideal) (W4 m ρ c (Proc.devRef .tc main_arg4)) := by
  show StableHlo.after hostOps1 (W4 m ρ c) (Proc.devRef .tc main_v15) = _
  generalize W4 m ρ c = V
  after_results
  rfl

theorem W5_b (c : Dev nD) :
    W5 m ρ c (Proc.devRef .tc main_v18) = row64 (bhN0 (F := Ideal) (W4 m ρ c (Proc.devRef .tc main_arg5))) := by
  show StableHlo.after hostOps1 (W4 m ρ c) (Proc.devRef .tc main_v18) = _
  generalize W4 m ρ c = V
  after_results
  exact row64_of_cast _ _

theorem W8_we (c : Dev nD) :
    W8 m ρ c (Proc.devRef .tc main_v22) = weN1 (F := Ideal) (W7 m ρ c (Proc.devRef .tc main_arg6)) := by
  show StableHlo.after hostOps2_1 (W7 m ρ c) (Proc.devRef .tc main_v22) = _
  generalize W7 m ρ c = V
  after_results
  rfl

theorem W8_be (c : Dev nD) :
    W8 m ρ c (Proc.devRef .tc main_v25) = row64 (beN1 (F := Ideal) (W7 m ρ c (Proc.devRef .tc main_arg7))) := by
  show StableHlo.after hostOps2_1 (W7 m ρ c) (Proc.devRef .tc main_v25) = _
  generalize W7 m ρ c = V
  after_results
  exact row64_of_cast _ _

theorem W10_aggr (c : Dev nD) :
    W10 m ρ c (Proc.devRef .tc main_v29) = scatN (F := Ideal) (W9 m ρ c (Proc.devRef .tc main_v3)) (W9 m ρ c (Proc.devRef .tc main_v26)) := by
  show StableHlo.after hostOps3 (W9 m ρ c) (Proc.devRef .tc main_v29) = _
  generalize W9 m ρ c = V
  after_results
  rfl

theorem W10_w (c : Dev nD) :
    W10 m ρ c (Proc.devRef .tc main_v31) = whN1 (F := Ideal) (W9 m ρ c (Proc.devRef .tc main_arg4)) := by
  show StableHlo.after hostOps3 (W9 m ρ c) (Proc.devRef .tc main_v31) = _
  generalize W9 m ρ c = V
  after_results
  rfl

theorem W10_b (c : Dev nD) :
    W10 m ρ c (Proc.devRef .tc main_v34) = row64 (bhN1 (F := Ideal) (W9 m ρ c (Proc.devRef .tc main_arg5))) := by
  show StableHlo.after hostOps3 (W9 m ρ c) (Proc.devRef .tc main_v34) = _
  generalize W9 m ρ c = V
  after_results
  exact row64_of_cast _ _

theorem W13_we (c : Dev nD) :
    W13 m ρ c (Proc.devRef .tc main_v38) = weN2 (F := Ideal) (W12 m ρ c (Proc.devRef .tc main_arg6)) := by
  show StableHlo.after hostOps4_1 (W12 m ρ c) (Proc.devRef .tc main_v38) = _
  generalize W12 m ρ c = V
  after_results
  rfl

theorem W13_be (c : Dev nD) :
    W13 m ρ c (Proc.devRef .tc main_v41) = row64 (beN2 (F := Ideal) (W12 m ρ c (Proc.devRef .tc main_arg7))) := by
  show StableHlo.after hostOps4_1 (W12 m ρ c) (Proc.devRef .tc main_v41) = _
  generalize W12 m ρ c = V
  after_results
  exact row64_of_cast _ _

theorem W15_aggr (c : Dev nD) :
    W15 m ρ c (Proc.devRef .tc main_v45) = scatN (F := Ideal) (W14 m ρ c (Proc.devRef .tc main_v3)) (W14 m ρ c (Proc.devRef .tc main_v42)) := by
  show StableHlo.after hostOps5 (W14 m ρ c) (Proc.devRef .tc main_v45) = _
  generalize W14 m ρ c = V
  after_results
  rfl

theorem W15_w (c : Dev nD) :
    W15 m ρ c (Proc.devRef .tc main_v47) = whN2 (F := Ideal) (W14 m ρ c (Proc.devRef .tc main_arg4)) := by
  show StableHlo.after hostOps5 (W14 m ρ c) (Proc.devRef .tc main_v47) = _
  generalize W14 m ρ c = V
  after_results
  rfl

theorem W15_b (c : Dev nD) :
    W15 m ρ c (Proc.devRef .tc main_v50) = row64 (bhN2 (F := Ideal) (W14 m ρ c (Proc.devRef .tc main_arg5))) := by
  show StableHlo.after hostOps5 (W14 m ρ c) (Proc.devRef .tc main_v50) = _
  generalize W14 m ρ c = V
  after_results
  exact row64_of_cast _ _

theorem W18_we (c : Dev nD) :
    W18 m ρ c (Proc.devRef .tc main_v54) = weN3 (F := Ideal) (W17 m ρ c (Proc.devRef .tc main_arg6)) := by
  show StableHlo.after hostOps6_1 (W17 m ρ c) (Proc.devRef .tc main_v54) = _
  generalize W17 m ρ c = V
  after_results
  rfl

theorem W18_be (c : Dev nD) :
    W18 m ρ c (Proc.devRef .tc main_v57) = row64 (beN3 (F := Ideal) (W17 m ρ c (Proc.devRef .tc main_arg7))) := by
  show StableHlo.after hostOps6_1 (W17 m ρ c) (Proc.devRef .tc main_v57) = _
  generalize W17 m ρ c = V
  after_results
  exact row64_of_cast _ _

theorem W20_aggr (c : Dev nD) :
    W20 m ρ c (Proc.devRef .tc main_v61) = scatN (F := Ideal) (W19 m ρ c (Proc.devRef .tc main_v3)) (W19 m ρ c (Proc.devRef .tc main_v58)) := by
  show StableHlo.after hostOps7 (W19 m ρ c) (Proc.devRef .tc main_v61) = _
  generalize W19 m ρ c = V
  after_results
  rfl

theorem W20_b (c : Dev nD) :
    W20 m ρ c (Proc.devRef .tc main_v62) = cell1 (W19 m ρ c (Proc.devRef .tc main_arg9)) := by
  show StableHlo.after hostOps7 (W19 m ρ c) (Proc.devRef .tc main_v62) = _
  generalize W19 m ρ c = V
  after_results
  exact cell1_of_cast _ _

end Cert.KernelIdeal.Stretch

end
-- ==== Proof.Take.lean ====
/-
  The row gather of the node features at the edges' source nodes. The kernel takes the rows with numpy's `take` in fill
  mode: a negative index is wrapped once, the rows are gathered, and a row whose wrapped index falls outside
  0 … 49999 is replaced by NaN. The reference gathers at the wrapped indices and fills nothing. When every source index
  is a node number the fill mask is 1 everywhere, and the two agree.
-/
import proofs.«413400_j8254927142997_1_alg».proof.Proof.Gen.KernelIdeal.Frame
import proofs.«413400_j8254927142997_1_alg».proof.Proof.HostFns
import Idealize.ShloMosaic.Lib.StableHlo.Run
import Idealize.ShloMosaic.Lib.StableHlo.Predicate
import Idealize.ShloMosaic.Lib.ValueIdx
import Idealize.ShloMosaic.Lib.ReduceAll

noncomputable section
open Idealize.ShloMosaic Idealize.ShloMosaic.TcCoe Idealize.SL.Sem

namespace Cert.KernelIdeal.TakeVal
open Cert.KernelIdeal Cert.KernelIdeal.Gen Cert.Spec

variable (m : (ℓ : Loc nD τ sig) → Buf (Elt Ideal) ℓ) (ρ : Dev nD → PrngReg)

/-- Every edge's source index is a node number: as a signed word it is at least 0 and below 50000. -/
def InRange (s : IVec S800000 32) : Prop := ∀ e : S800000.Idx, (s e).toNat < 50000

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have h1 : IntOp.andi (1#1) (1#1) = 1#1 := by decide
    rw [List.foldl_cons, h a (List.mem_cons_self ..), h1]
    exact foldl_andi_one f l fun n hn => h n (List.mem_cons_of_mem _ hn)

/-- A reduce by `and` from the constant 1 over an array of 1s is 1 everywhere. -/
theorem reduce_andi_one {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_one x _ fun n _ => hx n

/-- On a word in range the wrap leaves the index alone, and both range tests hold. -/
theorem word_mask (w : BitVec 32) (hw : w.toNat < 50000) :
    IntOp.andi
      (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  have h0 : (0#32 : BitVec 32).toNat = 0 := rfl
  have h9 : (49999#32 : BitVec 32).toNat = 49999 := rfl
  have hlt : IntOp.cmpi .slt w 0#32 ≠ 1#1 := fun h =>
    absurd ((StableHlo.Predicate.slt_iff_toNat (by omega) (by decide)).1 h) (by omega)
  have hsel : Scalar.select (IntOp.cmpi .slt w 0#32) (IntOp.addi w 50000#32) w = w := by
    unfold Scalar.select; exact if_neg hlt
  rw [hsel, IntOp.andi_eq_one]
  exact ⟨(StableHlo.Predicate.sge_iff_toNat (by omega) (by decide)).2 (by omega),
    (StableHlo.Predicate.sle_iff_toNat (by omega) (by decide)).2 (by omega)⟩

/-- `jnp.take` in its fill mode: wrap a negative index once, gather the rows, and put NaN in every row whose wrapped
    index is outside 0 … 49999. -/
def takeN (x : FVec Ideal S50000x64 .f32) (s : IVec S800000 32) : FVec Ideal S800000x64 .f32 :=
  select
    (broadcastInDim S800000x64 ![0] bcast_S800000_S800000x64_0
      (Host.reduce IntOp.andi
        (andi
          (cmpi .sge
            (broadcastInDim S800000x1 ![0] bcast_S800000_S800000x1_0
              (select (cmpi .slt s (broadcastInDim S800000 ![] bcast_S_S800000 (constantI S_ 32 0#32)))
                (addi s (broadcastInDim S800000 ![] bcast_S_S800000 (constantI S_ 32 50000#32))) s))
            (broadcastInDim S800000x1 ![] bcast_S_S800000x1 (constantI S_ 32 0#32)))
          (cmpi .sle
            (broadcastInDim S800000x1 ![0] bcast_S800000_S800000x1_0
              (select (cmpi .slt s (broadcastInDim S800000 ![] bcast_S_S800000 (constantI S_ 32 0#32)))
                (addi s (broadcastInDim S800000 ![] bcast_S_S800000 (constantI S_ 32 50000#32))) s))
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_))
    (Host.gather gather_S50000x64_S800000x1_S800000x64_1_0_n_n_0_1_164 x
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))
    (broadcastInDim S800000x64 ![] bcast_S_S800000x64 (constant (F := Ideal) S_ .f32 0x7FC00000#32))

/-- With every index in range no row is filled: the masked gather is the plain gather at the wrapped indices. -/
theorem take_eq (x : FVec Ideal S50000x64 .f32) (s : IVec S800000 32) (hs : InRange s) :
    takeN x s = gatherN (F := Ideal) x s := by
  funext i
  unfold takeN
  rw [ValueIdx.select_apply]
  have hm : ∀ j, Host.reduce IntOp.andi
        (andi
          (cmpi .sge
            (broadcastInDim S800000x1 ![0] bcast_S800000_S800000x1_0
              (select (cmpi .slt s (broadcastInDim S800000 ![] bcast_S_S800000 (constantI S_ 32 0#32)))
                (addi s (broadcastInDim S800000 ![] bcast_S_S800000 (constantI S_ 32 50000#32))) s))
            (broadcastInDim S800000x1 ![] bcast_S_S800000x1 (constantI S_ 32 0#32)))
          (cmpi .sle
            (broadcastInDim S800000x1 ![0] bcast_S800000_S800000x1_0
              (select (cmpi .slt s (broadcastInDim S800000 ![] bcast_S_S800000 (constantI S_ 32 0#32)))
                (addi s (broadcastInDim S800000 ![] bcast_S_S800000 (constantI S_ 32 50000#32))) s))
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_ j = 1#1 :=
    reduce_andi_one _ _ _ fun k => word_mask _ (hs _)
  have hb : broadcastInDim S800000x64 ![0] bcast_S800000_S800000x64_0
      (Host.reduce IntOp.andi
        (andi
          (cmpi .sge
            (broadcastInDim S800000x1 ![0] bcast_S800000_S800000x1_0
              (select (cmpi .slt s (broadcastInDim S800000 ![] bcast_S_S800000 (constantI S_ 32 0#32)))
                (addi s (broadcastInDim S800000 ![] bcast_S_S800000 (constantI S_ 32 50000#32))) s))
            (broadcastInDim S800000x1 ![] bcast_S_S800000x1 (constantI S_ 32 0#32)))
          (cmpi .sle
            (broadcastInDim S800000x1 ![0] bcast_S800000_S800000x1_0
              (select (cmpi .slt s (broadcastInDim S800000 ![] bcast_S_S800000 (constantI S_ 32 0#32)))
                (addi s (broadcastInDim S800000 ![] bcast_S_S800000 (constantI S_ 32 50000#32))) s))
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_) i = 1#1 := hm _
  rw [hb]
  rfl

/-- Contents moved to a buffer's own type and back are unchanged. -/
theorem ofBuf_toBuf {T : BufTy} {Val : EltTy → Type} (x : StableHlo.TRef sig T) (v : T.Contents Val) :
    x.ofBuf (x.toBuf v) = v := by
  obtain ⟨r, h, _, _⟩ := x
  subst h
  rfl

set_option maxHeartbeats 400000 in
/-- The gather before the edge layer reading `main_arg0`: with the source indices in range it is the plain gather. -/
theorem W2_take (c : Dev nD) (hin : InRange (W1 m ρ c (Proc.devRef .tc main_v1))) :
    (W2 m ρ c (Proc.devRef .tc main_v4) : FVec Ideal S800000x64 .f32)
      = gatherN (F := Ideal) (W1 m ρ c (Proc.devRef .tc main_arg0)) (W1 m ρ c (Proc.devRef .tc main_v1)) := by
  rw [← take_eq _ _ hin]
  show StableHlo.after hostOps0_1 (W1 m ρ c) (Proc.devRef .tc main_v4) = _
  generalize W1 m ρ c = V
  have e1 : ∀ w, (StableHlo.TRef.of (T := ⟨S800000, .i32⟩) main_v1).ofBuf (Val := Elt Ideal) w = w := fun _ => rfl
  have e0 : ∀ w, (StableHlo.TRef.of (T := ⟨S50000x64, .f32⟩) main_arg0).ofBuf (Val := Elt Ideal) w = w := fun _ => rfl
  have e4 : ∀ w, (StableHlo.TRef.of (T := ⟨S800000x64, .f32⟩) main_v4).toBuf (Val := Elt Ideal) w = w := fun _ => rfl
  after_results_simp
  simp only [ofBuf_toBuf, e1, e0, e4]
  rfl

set_option maxHeartbeats 400000 in
/-- The gather before the edge layer reading `main_v19`: with the source indices in range it is the plain gather. -/
theorem W7_take (c : Dev nD) (hin : InRange (W6 m ρ c (Proc.devRef .tc main_v1))) :
    (W7 m ρ c (Proc.devRef .tc main_v20) : FVec Ideal S800000x64 .f32)
      = gatherN (F := Ideal) (W6 m ρ c (Proc.devRef .tc main_v19)) (W6 m ρ c (Proc.devRef .tc main_v1)) := by
  rw [← take_eq _ _ hin]
  show StableHlo.after hostOps2 (W6 m ρ c) (Proc.devRef .tc main_v20) = _
  generalize W6 m ρ c = V
  have e1 : ∀ w, (StableHlo.TRef.of (T := ⟨S800000, .i32⟩) main_v1).ofBuf (Val := Elt Ideal) w = w := fun _ => rfl
  have e0 : ∀ w, (StableHlo.TRef.of (T := ⟨S50000x64, .f32⟩) main_v19).ofBuf (Val := Elt Ideal) w = w := fun _ => rfl
  have e4 : ∀ w, (StableHlo.TRef.of (T := ⟨S800000x64, .f32⟩) main_v20).toBuf (Val := Elt Ideal) w = w := fun _ => rfl
  after_results_simp
  simp only [ofBuf_toBuf, e1, e0, e4]
  rfl

set_option maxHeartbeats 400000 in
/-- The gather before the edge layer reading `main_v35`: with the source indices in range it is the plain gather. -/
theorem W12_take (c : Dev nD) (hin : InRange (W11 m ρ c (Proc.devRef .tc main_v1))) :
    (W12 m ρ c (Proc.devRef .tc main_v36) : FVec Ideal S800000x64 .f32)
      = gatherN (F := Ideal) (W11 m ρ c (Proc.devRef .tc main_v35)) (W11 m ρ c (Proc.devRef .tc main_v1)) := by
  rw [← take_eq _ _ hin]
  show StableHlo.after hostOps4 (W11 m ρ c) (Proc.devRef .tc main_v36) = _
  generalize W11 m ρ c = V
  have e1 : ∀ w, (StableHlo.TRef.of (T := ⟨S800000, .i32⟩) main_v1).ofBuf (Val := Elt Ideal) w = w := fun _ => rfl
  have e0 : ∀ w, (StableHlo.TRef.of (T := ⟨S50000x64, .f32⟩) main_v35).ofBuf (Val := Elt Ideal) w = w := fun _ => rfl
  have e4 : ∀ w, (StableHlo.TRef.of (T := ⟨S800000x64, .f32⟩) main_v36).toBuf (Val := Elt Ideal) w = w := fun _ => rfl
  after_results_simp
  simp only [ofBuf_toBuf, e1, e0, e4]
  rfl

set_option maxHeartbeats 400000 in
/-- The gather before the edge layer reading `main_v51`: with the source indices in range it is the plain gather. -/
theorem W17_take (c : Dev nD) (hin : InRange (W16 m ρ c (Proc.devRef .tc main_v1))) :
    (W17 m ρ c (Proc.devRef .tc main_v52) : FVec Ideal S800000x64 .f32)
      = gatherN (F := Ideal) (W16 m ρ c (Proc.devRef .tc main_v51)) (W16 m ρ c (Proc.devRef .tc main_v1)) := by
  rw [← take_eq _ _ hin]
  show StableHlo.after hostOps6 (W16 m ρ c) (Proc.devRef .tc main_v52) = _
  generalize W16 m ρ c = V
  have e1 : ∀ w, (StableHlo.TRef.of (T := ⟨S800000, .i32⟩) main_v1).ofBuf (Val := Elt Ideal) w = w := fun _ => rfl
  have e0 : ∀ w, (StableHlo.TRef.of (T := ⟨S50000x64, .f32⟩) main_v51).ofBuf (Val := Elt Ideal) w = w := fun _ => rfl
  have e4 : ∀ w, (StableHlo.TRef.of (T := ⟨S800000x64, .f32⟩) main_v52).toBuf (Val := Elt Ideal) w = w := fun _ => rfl
  after_results_simp
  simp only [ofBuf_toBuf, e1, e0, e4]
  rfl

end Cert.KernelIdeal.TakeVal
end
-- ==== Proof.TailK.lean ====
/-
  The kernel program's closing host stretch computes the same function of the last node update's output as the
  reference's: its operations are the reference's, one for one.
-/
import proofs.«413400_j8254927142997_1_alg».proof.Proof.Gen.KernelIdeal.Frame
import proofs.«413400_j8254927142997_1_alg».proof.Proof.TailFn

noncomputable section

namespace Cert.KernelIdeal.Stretch

open Idealize.ShloMosaic Idealize.ShloMosaic.TcCoe Idealize.SL.Sem
open Cert.KernelIdeal Cert.KernelIdeal.Gen
open Idealize.ShloMosaic.StableHlo

/-- What the result buffer holds at the end: the closing stretch of what region 7 left, at the batch ids and the
    normalisation's scale and shift. -/
theorem W22_out (m : (ℓ : Loc nD τ sig) → Buf (Elt Ideal) ℓ) (ρ : Dev nD → PrngReg) (c : Dev nD) :
    Cert.KernelIdeal.Gen.W22 m ρ c (Proc.devRef .tc main_v104)
      = Cert.Spec.tailN (F := Ideal) (Cert.KernelIdeal.Gen.W21 m ρ c (Proc.devRef .tc main_v63))
          (W21 m ρ c (Proc.devRef .tc main_arg3)) (W21 m ρ c (Proc.devRef .tc main_arg10))
          (W21 m ρ c (Proc.devRef .tc main_arg11)) := by
  show StableHlo.after hostOps8 (W21 m ρ c) (Proc.devRef .tc main_v104) = _
  after_results_simp
  rfl

end Cert.KernelIdeal.Stretch
-- ==== Proof.RefMath.lean ====
/-
  The reference program's four message-passing layers, read as the layer maps of the specification: each edge
  message, each hidden node update and the last linear update is, index by index on the extended reals, the
  closed form over the operands the program feeds it; and the shared host-side steps (edge-list rows, weight
  slices, gather at the sources, scatter-add at the destinations) are the named functions of their operands.
-/
import proofs.«413400_j8254927142997_1_alg».proof.Proof.Gen.ReferenceIdeal.Read
import proofs.«413400_j8254927142997_1_alg».proof.Proof.Spec
import proofs.«413400_j8254927142997_1_alg».proof.Proof.HostFns
import Idealize.ShloMosaic.Lib.ValueIdx
import Idealize.ShloMosaic.PureOps.Ideal.Laws

noncomputable section

open Idealize.ShloMosaic Idealize.ShloMosaic.TcCoe Idealize.SL.Sem

namespace Cert.ReferenceIdeal.RefMath

open Cert.ReferenceIdeal Cert.ReferenceIdeal.Gen Cert.ReferenceIdeal.Read Cert.Spec Idealize.ShloMosaic.ValueIdx

/-! ## The layer maps -/

/-- Layer 0's edge messages are the edge map of the input features gathered at the sources. -/
theorem ref_edge0 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x6 : (⟨S4x16x64, .f32⟩ : BufTy).Contents (Elt Ideal)) (x7 : (⟨S4x64, .f32⟩ : BufTy).Contents (Elt Ideal)) :
    val_main_v20 (F := Ideal) x0 x1 x2 x6 x7
      = EdgeG (val_main_v18 x0 x1) x2 (val_main_v5 x6) (row64 (val_main_v7 x7)) := by
  funext i
  obtain ⟨p, q, rfl⟩ : ∃ p q, i = ix2 p q := ⟨i 0, i 1, eq_ix2 i⟩
  rw [val_main_v20_apply, val_main_v19_apply, val_main_v11_apply, val_main_v8_apply, val_main_v10_apply,
    val_main_v9_apply, val_main_call0_v0_apply, val_main_call0_cst_apply]
  have el : ∀ k : Fin 16, lidx_main_v8 (ix2 p q) k = ix2 p k := fun k => funext fun a => Fin.ext (by
    match a with | ⟨0, _⟩ => rfl | ⟨1, _⟩ => rfl)
  have er : ∀ k : Fin 16, ridx_main_v8 (ix2 p q) k = ix2 k q := fun k => funext fun a => Fin.ext (by
    match a with | ⟨0, _⟩ => rfl | ⟨1, _⟩ => rfl)
  have eb : idx_main_v9 (idx_main_v10 (ix2 p q)) = ix1 q := funext fun a => Fin.ext (by
    match a with | ⟨0, _⟩ => rfl)
  have ez : (FloatOps.ofBits .f32 0x00000000#32 : Ideal .f32) = 0 := Ideal.ofBits_zero_f32
  simp only [el, er, eb, ez, Ideal.addf_def, Ideal.mulf_def, Ideal.maximumf_def]
  rfl

/-- Layer 0's node update is the node map of the input features and the layer's aggregate. -/
theorem ref_node0 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x4 : (⟨S3x64x64, .f32⟩ : BufTy).Contents (Elt Ideal)) (x5 : (⟨S3x64, .f32⟩ : BufTy).Contents (Elt Ideal)) (x6 : (⟨S4x16x64, .f32⟩ : BufTy).Contents (Elt Ideal)) (x7 : (⟨S4x64, .f32⟩ : BufTy).Contents (Elt Ideal)) :
    val_main_v33 (F := Ideal) x0 x1 x2 x4 x5 x6 x7
      = NodeG x0 (val_main_v23 x0 x1 x2 x6 x7) (val_main_v26 x4) (row64 (val_main_v29 x5)) := by
  funext i
  obtain ⟨p, q, rfl⟩ : ∃ p q, i = ix2 p q := ⟨i 0, i 1, eq_ix2 i⟩
  rw [val_main_v33_apply, val_main_v32_apply, val_main_v27_apply, val_main_v31_apply, val_main_v30_apply,
    val_main_call1_v0_apply, val_main_call1_cst_apply]
  have el : ∀ k : Fin 64, lidx_main_v27 (ix2 p q) k = ix2 p k := fun k => funext fun a => Fin.ext (by
    match a with | ⟨0, _⟩ => rfl | ⟨1, _⟩ => rfl)
  have er : ∀ k : Fin 64, ridx_main_v27 (ix2 p q) k = ix2 k q := fun k => funext fun a => Fin.ext (by
    match a with | ⟨0, _⟩ => rfl | ⟨1, _⟩ => rfl)
  have eb : idx_main_v30 (idx_main_v31 (ix2 p q)) = ix1 q := funext fun a => Fin.ext (by
    match a with | ⟨0, _⟩ => rfl)
  have ez : (FloatOps.ofBits .f32 0x00000000#32 : Ideal .f32) = 0 := Ideal.ofBits_zero_f32
  simp only [el, er, eb, ez, val_main_v24_apply, Ideal.addf_def, Ideal.mulf_def, Ideal.maximumf_def]
  rfl

/-- Layer 1's edge messages are the edge map of layer 0's features gathered at the sources. -/
theorem ref_edge1 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x4 : (⟨S3x64x64, .f32⟩ : BufTy).Contents (Elt Ideal)) (x5 : (⟨S3x64, .f32⟩ : BufTy).Contents (Elt Ideal)) (x6 : (⟨S4x16x64, .f32⟩ : BufTy).Contents (Elt Ideal)) (x7 : (⟨S4x64, .f32⟩ : BufTy).Contents (Elt Ideal)) :
    val_main_v50 (F := Ideal) x0 x1 x2 x4 x5 x6 x7
      = EdgeG (val_main_v48 x0 x1 x2 x4 x5 x6 x7) x2 (val_main_v35 x6) (row64 (val_main_v37 x7)) := by
  funext i
  obtain ⟨p, q, rfl⟩ : ∃ p q, i = ix2 p q := ⟨i 0, i 1, eq_ix2 i⟩
  rw [val_main_v50_apply, val_main_v49_apply, val_main_v41_apply, val_main_v38_apply, val_main_v40_apply,
    val_main_v39_apply, val_main_call2_v0_apply, val_main_call2_cst_apply]
  have el : ∀ k : Fin 16, lidx_main_v38 (ix2 p q) k = ix2 p k := fun k => funext fun a => Fin.ext (by
    match a with | ⟨0, _⟩ => rfl | ⟨1, _⟩ => rfl)
  have er : ∀ k : Fin 16, ridx_main_v38 (ix2 p q) k = ix2 k q := fun k => funext fun a => Fin.ext (by
    match a with | ⟨0, _⟩ => rfl | ⟨1, _⟩ => rfl)
  have eb : idx_main_v39 (idx_main_v40 (ix2 p q)) = ix1 q := funext fun a => Fin.ext (by
    match a with | ⟨0, _⟩ => rfl)
  have ez : (FloatOps.ofBits .f32 0x00000000#32 : Ideal .f32) = 0 := Ideal.ofBits_zero_f32
  simp only [el, er, eb, ez, Ideal.addf_def, Ideal.mulf_def, Ideal.maximumf_def]
  rfl

/-- Layer 1's node update is the node map of layer 0's features and the layer's aggregate. -/
theorem ref_node1 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x4 : (⟨S3x64x64, .f32⟩ : BufTy).Contents (Elt Ideal)) (x5 : (⟨S3x64, .f32⟩ : BufTy).Contents (Elt Ideal)) (x6 : (⟨S4x16x64, .f32⟩ : BufTy).Contents (Elt Ideal)) (x7 : (⟨S4x64, .f32⟩ : BufTy).Contents (Elt Ideal)) :
    val_main_v63 (F := Ideal) x0 x1 x2 x4 x5 x6 x7
      = NodeG (val_main_v33 x0 x1 x2 x4 x5 x6 x7) (val_main_v53 x0 x1 x2 x4 x5 x6 x7) (val_main_v56 x4) (row64 (val_main_v59 x5)) := by
  funext i
  obtain ⟨p, q, rfl⟩ : ∃ p q, i = ix2 p q := ⟨i 0, i 1, eq_ix2 i⟩
  rw [val_main_v63_apply, val_main_v62_apply, val_main_v57_apply, val_main_v61_apply, val_main_v60_apply,
    val_main_call3_v0_apply, val_main_call3_cst_apply]
  have el : ∀ k : Fin 64, lidx_main_v57 (ix2 p q) k = ix2 p k := fun k => funext fun a => Fin.ext (by
    match a with | ⟨0, _⟩ => rfl | ⟨1, _⟩ => rfl)
  have er : ∀ k : Fin 64, ridx_main_v57 (ix2 p q) k = ix2 k q := fun k => funext fun a => Fin.ext (by
    match a with | ⟨0, _⟩ => rfl | ⟨1, _⟩ => rfl)
  have eb : idx_main_v60 (idx_main_v61 (ix2 p q)) = ix1 q := funext fun a => Fin.ext (by
    match a with | ⟨0, _⟩ => rfl)
  have ez : (FloatOps.ofBits .f32 0x00000000#32 : Ideal .f32) = 0 := Ideal.ofBits_zero_f32
  simp only [el, er, eb, ez, val_main_v54_apply, Ideal.addf_def, Ideal.mulf_def, Ideal.maximumf_def]
  rfl

/-- Layer 2's edge messages are the edge map of layer 1's features gathered at the sources. -/
theorem ref_edge2 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x4 : (⟨S3x64x64, .f32⟩ : BufTy).Contents (Elt Ideal)) (x5 : (⟨S3x64, .f32⟩ : BufTy).Contents (Elt Ideal)) (x6 : (⟨S4x16x64, .f32⟩ : BufTy).Contents (Elt Ideal)) (x7 : (⟨S4x64, .f32⟩ : BufTy).Contents (Elt Ideal)) :
    val_main_v80 (F := Ideal) x0 x1 x2 x4 x5 x6 x7
      = EdgeG (val_main_v78 x0 x1 x2 x4 x5 x6 x7) x2 (val_main_v65 x6) (row64 (val_main_v67 x7)) := by
  funext i
  obtain ⟨p, q, rfl⟩ : ∃ p q, i = ix2 p q := ⟨i 0, i 1, eq_ix2 i⟩
  rw [val_main_v80_apply, val_main_v79_apply, val_main_v71_apply, val_main_v68_apply, val_main_v70_apply,
    val_main_v69_apply, val_main_call4_v0_apply, val_main_call4_cst_apply]
  have el : ∀ k : Fin 16, lidx_main_v68 (ix2 p q) k = ix2 p k := fun k => funext fun a => Fin.ext (by
    match a with | ⟨0, _⟩ => rfl | ⟨1, _⟩ => rfl)
  have er : ∀ k : Fin 16, ridx_main_v68 (ix2 p q) k = ix2 k q := fun k => funext fun a => Fin.ext (by
    match a with | ⟨0, _⟩ => rfl | ⟨1, _⟩ => rfl)
  have eb : idx_main_v69 (idx_main_v70 (ix2 p q)) = ix1 q := funext fun a => Fin.ext (by
    match a with | ⟨0, _⟩ => rfl)
  have ez : (FloatOps.ofBits .f32 0x00000000#32 : Ideal .f32) = 0 := Ideal.ofBits_zero_f32
  simp only [el, er, eb, ez, Ideal.addf_def, Ideal.mulf_def, Ideal.maximumf_def]
  rfl

/-- Layer 2's node update is the node map of layer 1's features and the layer's aggregate. -/
theorem ref_node2 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x4 : (⟨S3x64x64, .f32⟩ : BufTy).Contents (Elt Ideal)) (x5 : (⟨S3x64, .f32⟩ : BufTy).Contents (Elt Ideal)) (x6 : (⟨S4x16x64, .f32⟩ : BufTy).Contents (Elt Ideal)) (x7 : (⟨S4x64, .f32⟩ : BufTy).Contents (Elt Ideal)) :
    val_main_v93 (F := Ideal) x0 x1 x2 x4 x5 x6 x7
      = NodeG (val_main_v63 x0 x1 x2 x4 x5 x6 x7) (val_main_v83 x0 x1 x2 x4 x5 x6 x7) (val_main_v86 x4) (row64 (val_main_v89 x5)) := by
  funext i
  obtain ⟨p, q, rfl⟩ : ∃ p q, i = ix2 p q := ⟨i 0, i 1, eq_ix2 i⟩
  rw [val_main_v93_apply, val_main_v92_apply, val_main_v87_apply, val_main_v91_apply, val_main_v90_apply,
    val_main_call5_v0_apply, val_main_call5_cst_apply]
  have el : ∀ k : Fin 64, lidx_main_v87 (ix2 p q) k = ix2 p k := fun k => funext fun a => Fin.ext (by
    match a with | ⟨0, _⟩ => rfl | ⟨1, _⟩ => rfl)
  have er : ∀ k : Fin 64, ridx_main_v87 (ix2 p q) k = ix2 k q := fun k => funext fun a => Fin.ext (by
    match a with | ⟨0, _⟩ => rfl | ⟨1, _⟩ => rfl)
  have eb : idx_main_v90 (idx_main_v91 (ix2 p q)) = ix1 q := funext fun a => Fin.ext (by
    match a with | ⟨0, _⟩ => rfl)
  have ez : (FloatOps.ofBits .f32 0x00000000#32 : Ideal .f32) = 0 := Ideal.ofBits_zero_f32
  simp only [el, er, eb, ez, val_main_v84_apply, Ideal.addf_def, Ideal.mulf_def, Ideal.maximumf_def]
  rfl

/-- Layer 3's edge messages are the edge map of layer 2's features gathered at the sources. -/
theorem ref_edge3 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x4 : (⟨S3x64x64, .f32⟩ : BufTy).Contents (Elt Ideal)) (x5 : (⟨S3x64, .f32⟩ : BufTy).Contents (Elt Ideal)) (x6 : (⟨S4x16x64, .f32⟩ : BufTy).Contents (Elt Ideal)) (x7 : (⟨S4x64, .f32⟩ : BufTy).Contents (Elt Ideal)) :
    val_main_v110 (F := Ideal) x0 x1 x2 x4 x5 x6 x7
      = EdgeG (val_main_v108 x0 x1 x2 x4 x5 x6 x7) x2 (val_main_v95 x6) (row64 (val_main_v97 x7)) := by
  funext i
  obtain ⟨p, q, rfl⟩ : ∃ p q, i = ix2 p q := ⟨i 0, i 1, eq_ix2 i⟩
  rw [val_main_v110_apply, val_main_v109_apply, val_main_v101_apply, val_main_v98_apply, val_main_v100_apply,
    val_main_v99_apply, val_main_call6_v0_apply, val_main_call6_cst_apply]
  have el : ∀ k : Fin 16, lidx_main_v98 (ix2 p q) k = ix2 p k := fun k => funext fun a => Fin.ext (by
    match a with | ⟨0, _⟩ => rfl | ⟨1, _⟩ => rfl)
  have er : ∀ k : Fin 16, ridx_main_v98 (ix2 p q) k = ix2 k q := fun k => funext fun a => Fin.ext (by
    match a with | ⟨0, _⟩ => rfl | ⟨1, _⟩ => rfl)
  have eb : idx_main_v99 (idx_main_v100 (ix2 p q)) = ix1 q := funext fun a => Fin.ext (by
    match a with | ⟨0, _⟩ => rfl)
  have ez : (FloatOps.ofBits .f32 0x00000000#32 : Ideal .f32) = 0 := Ideal.ofBits_zero_f32
  simp only [el, er, eb, ez, Ideal.addf_def, Ideal.mulf_def, Ideal.maximumf_def]
  rfl

/-- The last node update is the linear map, into one column, of layer 2's features and the last aggregate. -/
theorem ref_lin (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x4 : (⟨S3x64x64, .f32⟩ : BufTy).Contents (Elt Ideal)) (x5 : (⟨S3x64, .f32⟩ : BufTy).Contents (Elt Ideal)) (x6 : (⟨S4x16x64, .f32⟩ : BufTy).Contents (Elt Ideal)) (x7 : (⟨S4x64, .f32⟩ : BufTy).Contents (Elt Ideal)) (x8 : (⟨S64x1, .f32⟩ : BufTy).Contents (Elt Ideal)) (x9 : (⟨S1, .f32⟩ : BufTy).Contents (Elt Ideal)) :
    val_main_v118 (F := Ideal) x0 x1 x2 x4 x5 x6 x7 x8 x9
      = LinG (val_main_v93 x0 x1 x2 x4 x5 x6 x7) (val_main_v113 x0 x1 x2 x4 x5 x6 x7) x8 (cell1 x9) := by
  funext i
  obtain ⟨p, q, rfl⟩ : ∃ p q, i = ix2 p q := ⟨i 0, i 1, eq_ix2 i⟩
  rw [val_main_v118_apply, val_main_v115_apply, val_main_v117_apply, val_main_v116_apply]
  have el : ∀ k : Fin 64, lidx_main_v115 (ix2 p q) k = ix2 p k := fun k => funext fun a => Fin.ext (by
    match a with | ⟨0, _⟩ => rfl | ⟨1, _⟩ => rfl)
  have er : ∀ k : Fin 64, ridx_main_v115 (ix2 p q) k = ix2 k q := fun k => funext fun a => Fin.ext (by
    match a with | ⟨0, _⟩ => rfl | ⟨1, _⟩ => rfl)
  have eb : idx_main_v116 (idx_main_v117 (ix2 p q)) = ix1 q := funext fun a => Fin.ext (by
    match a with | ⟨0, _⟩ => have := q.isLt; show 0 = q.val; omega)
  simp only [el, er, eb, val_main_v114_apply, Ideal.addf_def, Ideal.mulf_def]
  rfl

/-! ## The shared host-side steps, as the named functions of their operands

Each is the same composition of slices, reshapes, the index wrap, the gather and the scatter-add, spelt once. -/

theorem link_v1 (x1 : (⟨S2x800000, .i32⟩ : BufTy).Contents (Elt Ideal)) :
    val_main_v1 (F := Ideal) x1 = srcN x1 := rfl

theorem link_v3 (x1 : (⟨S2x800000, .i32⟩ : BufTy).Contents (Elt Ideal)) :
    val_main_v3 (F := Ideal) x1 = dstN x1 := rfl

theorem link_v18 (x0 : (⟨S50000x64, .f32⟩ : BufTy).Contents (Elt Ideal)) (x1 : (⟨S2x800000, .i32⟩ : BufTy).Contents (Elt Ideal)) :
    val_main_v18 (F := Ideal) x0 x1 = gatherN (F := Ideal) x0 (srcN x1) := rfl

theorem link_v48 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x4 : (⟨S3x64x64, .f32⟩ : BufTy).Contents (Elt Ideal)) (x5 : (⟨S3x64, .f32⟩ : BufTy).Contents (Elt Ideal)) (x6 : (⟨S4x16x64, .f32⟩ : BufTy).Contents (Elt Ideal)) (x7 : (⟨S4x64, .f32⟩ : BufTy).Contents (Elt Ideal)) :
    val_main_v48 (F := Ideal) x0 x1 x2 x4 x5 x6 x7 = gatherN (F := Ideal) (val_main_v33 x0 x1 x2 x4 x5 x6 x7) (srcN x1) := rfl

theorem link_v78 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x4 : (⟨S3x64x64, .f32⟩ : BufTy).Contents (Elt Ideal)) (x5 : (⟨S3x64, .f32⟩ : BufTy).Contents (Elt Ideal)) (x6 : (⟨S4x16x64, .f32⟩ : BufTy).Contents (Elt Ideal)) (x7 : (⟨S4x64, .f32⟩ : BufTy).Contents (Elt Ideal)) :
    val_main_v78 (F := Ideal) x0 x1 x2 x4 x5 x6 x7 = gatherN (F := Ideal) (val_main_v63 x0 x1 x2 x4 x5 x6 x7) (srcN x1) := rfl

theorem link_v108 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x4 : (⟨S3x64x64, .f32⟩ : BufTy).Contents (Elt Ideal)) (x5 : (⟨S3x64, .f32⟩ : BufTy).Contents (Elt Ideal)) (x6 : (⟨S4x16x64, .f32⟩ : BufTy).Contents (Elt Ideal)) (x7 : (⟨S4x64, .f32⟩ : BufTy).Contents (Elt Ideal)) :
    val_main_v108 (F := Ideal) x0 x1 x2 x4 x5 x6 x7 = gatherN (F := Ideal) (val_main_v93 x0 x1 x2 x4 x5 x6 x7) (srcN x1) := rfl

theorem link_v23 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x6 : (⟨S4x16x64, .f32⟩ : BufTy).Contents (Elt Ideal)) (x7 : (⟨S4x64, .f32⟩ : BufTy).Contents (Elt Ideal)) :
    val_main_v23 (F := Ideal) x0 x1 x2 x6 x7 = scatN (F := Ideal) (dstN x1) (val_main_v20 x0 x1 x2 x6 x7) := rfl

theorem link_v53 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x4 : (⟨S3x64x64, .f32⟩ : BufTy).Contents (Elt Ideal)) (x5 : (⟨S3x64, .f32⟩ : BufTy).Contents (Elt Ideal)) (x6 : (⟨S4x16x64, .f32⟩ : BufTy).Contents (Elt Ideal)) (x7 : (⟨S4x64, .f32⟩ : BufTy).Contents (Elt Ideal)) :
    val_main_v53 (F := Ideal) x0 x1 x2 x4 x5 x6 x7 = scatN (F := Ideal) (dstN x1) (val_main_v50 x0 x1 x2 x4 x5 x6 x7) := rfl

theorem link_v83 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x4 : (⟨S3x64x64, .f32⟩ : BufTy).Contents (Elt Ideal)) (x5 : (⟨S3x64, .f32⟩ : BufTy).Contents (Elt Ideal)) (x6 : (⟨S4x16x64, .f32⟩ : BufTy).Contents (Elt Ideal)) (x7 : (⟨S4x64, .f32⟩ : BufTy).Contents (Elt Ideal)) :
    val_main_v83 (F := Ideal) x0 x1 x2 x4 x5 x6 x7 = scatN (F := Ideal) (dstN x1) (val_main_v80 x0 x1 x2 x4 x5 x6 x7) := rfl

theorem link_v113 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x4 : (⟨S3x64x64, .f32⟩ : BufTy).Contents (Elt Ideal)) (x5 : (⟨S3x64, .f32⟩ : BufTy).Contents (Elt Ideal)) (x6 : (⟨S4x16x64, .f32⟩ : BufTy).Contents (Elt Ideal)) (x7 : (⟨S4x64, .f32⟩ : BufTy).Contents (Elt Ideal)) :
    val_main_v113 (F := Ideal) x0 x1 x2 x4 x5 x6 x7 = scatN (F := Ideal) (dstN x1) (val_main_v110 x0 x1 x2 x4 x5 x6 x7) := rfl

theorem link_v5 (x6 : (⟨S4x16x64, .f32⟩ : BufTy).Contents (Elt Ideal)) :
    val_main_v5 (F := Ideal) x6 = weN0 (F := Ideal) x6 := rfl

theorem link_v35 (x6 : (⟨S4x16x64, .f32⟩ : BufTy).Contents (Elt Ideal)) :
    val_main_v35 (F := Ideal) x6 = weN1 (F := Ideal) x6 := rfl

theorem link_v65 (x6 : (⟨S4x16x64, .f32⟩ : BufTy).Contents (Elt Ideal)) :
    val_main_v65 (F := Ideal) x6 = weN2 (F := Ideal) x6 := rfl

theorem link_v95 (x6 : (⟨S4x16x64, .f32⟩ : BufTy).Contents (Elt Ideal)) :
    val_main_v95 (F := Ideal) x6 = weN3 (F := Ideal) x6 := rfl

theorem link_v7 (x7 : (⟨S4x64, .f32⟩ : BufTy).Contents (Elt Ideal)) :
    val_main_v7 (F := Ideal) x7 = beN0 (F := Ideal) x7 := rfl

theorem link_v37 (x7 : (⟨S4x64, .f32⟩ : BufTy).Contents (Elt Ideal)) :
    val_main_v37 (F := Ideal) x7 = beN1 (F := Ideal) x7 := rfl

theorem link_v67 (x7 : (⟨S4x64, .f32⟩ : BufTy).Contents (Elt Ideal)) :
    val_main_v67 (F := Ideal) x7 = beN2 (F := Ideal) x7 := rfl

theorem link_v97 (x7 : (⟨S4x64, .f32⟩ : BufTy).Contents (Elt Ideal)) :
    val_main_v97 (F := Ideal) x7 = beN3 (F := Ideal) x7 := rfl

theorem link_v26 (x4 : (⟨S3x64x64, .f32⟩ : BufTy).Contents (Elt Ideal)) :
    val_main_v26 (F := Ideal) x4 = whN0 (F := Ideal) x4 := rfl

theorem link_v56 (x4 : (⟨S3x64x64, .f32⟩ : BufTy).Contents (Elt Ideal)) :
    val_main_v56 (F := Ideal) x4 = whN1 (F := Ideal) x4 := rfl

theorem link_v86 (x4 : (⟨S3x64x64, .f32⟩ : BufTy).Contents (Elt Ideal)) :
    val_main_v86 (F := Ideal) x4 = whN2 (F := Ideal) x4 := rfl

theorem link_v29 (x5 : (⟨S3x64, .f32⟩ : BufTy).Contents (Elt Ideal)) :
    val_main_v29 (F := Ideal) x5 = bhN0 (F := Ideal) x5 := rfl

theorem link_v59 (x5 : (⟨S3x64, .f32⟩ : BufTy).Contents (Elt Ideal)) :
    val_main_v59 (F := Ideal) x5 = bhN1 (F := Ideal) x5 := rfl

theorem link_v89 (x5 : (⟨S3x64, .f32⟩ : BufTy).Contents (Elt Ideal)) :
    val_main_v89 (F := Ideal) x5 = bhN2 (F := Ideal) x5 := rfl

end Cert.ReferenceIdeal.RefMath

end
-- ==== Proof.Region0.lean ====
/-
  Region 0, the edge message: what the blocked kernel leaves in its output array.

  Each of the 200 grid points reads rows 4000·t … 4000·t+3999 of the source features and of the edge attributes,
  the whole weight matrix and the bias row, and writes the same rows of the output: entry (p, q) of the block is
  max (hs(p,q) + (Σ_k ea(p,k)·we(k,q) + b(0,q))) 0. A row of the result depends only on the same row of the
  row-indexed operands, so the blocks together are the whole-array map EdgeG.
-/
import proofs.«413400_j8254927142997_1_alg».proof.Proof.Gen.KernelIdeal.Frame
import proofs.«413400_j8254927142997_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Idealize.ShloMosaic Idealize.ShloMosaic.TcCoe Idealize.SL.Sem
open Cert.KernelIdeal Cert.KernelIdeal.Gen Cert.Spec Idealize.ShloMosaic.ValueIdx
open Idealize.ShloMosaic.Pipeline (Dat)

/-! ## The block's matrix product, entry by entry -/

/-- The left operand of the block's product is read at the output's row … -/
theorem mmLhsRow0 (i : S4000x64.Idx) (q : dot_S4000x16_S16x64_S4000x64_1_0_0_1_n_n.contr.Idx) :
    (dot_S4000x16_S16x64_S4000x64_1_0_0_1_n_n.lhsIdx i q 0).val = (i 0).val := by
  unfold DotDims.lhsIdx
  rw [dif_neg (show ¬(0 : Fin S4000x16.rank) ∈ dot_S4000x16_S16x64_S4000x64_1_0_0_1_n_n.lhsBatch by decide), dif_pos (show (0 : Fin S4000x16.rank) ∈ dot_S4000x16_S16x64_S4000x64_1_0_0_1_n_n.lhsNonContracting by decide)]
  rfl
/-- … and the contraction coordinate, -/
theorem mmLhsCol0 (i : S4000x64.Idx) (q : dot_S4000x16_S16x64_S4000x64_1_0_0_1_n_n.contr.Idx) :
    (dot_S4000x16_S16x64_S4000x64_1_0_0_1_n_n.lhsIdx i q 1).val = (q ⟨0, by decide⟩).val :=
  dot_S4000x16_S16x64_S4000x64_1_0_0_1_n_n.lhsIdx_val_of_single rfl i q
/-- the right operand at the contraction coordinate … -/
theorem mmRhsRow0 (i : S4000x64.Idx) (q : dot_S4000x16_S16x64_S4000x64_1_0_0_1_n_n.contr.Idx) :
    (dot_S4000x16_S16x64_S4000x64_1_0_0_1_n_n.rhsIdx i q 0).val = (q ⟨0, by decide⟩).val :=
  dot_S4000x16_S16x64_S4000x64_1_0_0_1_n_n.rhsIdx_val_of_single rfl i q
/-- … and the output's column. -/
theorem mmRhsCol0 (i : S4000x64.Idx) (q : dot_S4000x16_S16x64_S4000x64_1_0_0_1_n_n.contr.Idx) :
    (dot_S4000x16_S16x64_S4000x64_1_0_0_1_n_n.rhsIdx i q 1).val = (i 1).val := by
  unfold DotDims.rhsIdx
  rw [dif_neg (show ¬(1 : Fin S16x64.rank) ∈ dot_S4000x16_S16x64_S4000x64_1_0_0_1_n_n.rhsBatch by decide), dif_pos (show (1 : Fin S16x64.rank) ∈ dot_S4000x16_S16x64_S4000x64_1_0_0_1_n_n.rhsNonContracting by decide)]
  rfl

/-- A 4000×16 block times the 16×64 matrix into a zero accumulator: entry (p, q) is the sum over k of the products. -/
theorem mmBlock0 {φ₁ φ₂ : FTy} (x : FVec Ideal S4000x16 φ₁) (y : FVec Ideal S16x64 φ₂) (p : Fin 4000) (q : Fin 64) :
    FloatOps.matmul dot_S4000x16_S16x64_S4000x64_1_0_0_1_n_n none x y (constant (F := Ideal) S4000x64 .f32 0x00000000#32) (ix2 p q)
      = ∑ k : Fin 16, x (ix2 p k) * y (ix2 k q) := by
  rw [Ideal.matmul_constant_zero_apply, ← Equiv.sum_comp (contrEquiv1 dot_S4000x16_S16x64_S4000x64_1_0_0_1_n_n 16 rfl rfl).symm]
  refine Finset.sum_congr rfl fun k _ => ?_
  have hk := contrEquiv1_symm_val dot_S4000x16_S16x64_S4000x64_1_0_0_1_n_n 16 rfl rfl k
  have el : dot_S4000x16_S16x64_S4000x64_1_0_0_1_n_n.lhsIdx (ix2 p q) ((contrEquiv1 dot_S4000x16_S16x64_S4000x64_1_0_0_1_n_n 16 rfl rfl).symm k) = ix2 p k := funext fun a => Fin.ext (by
    match a with
    | ⟨0, _⟩ => exact mmLhsRow0 _ _
    | ⟨1, _⟩ => exact (mmLhsCol0 _ _).trans hk)
  have er : dot_S4000x16_S16x64_S4000x64_1_0_0_1_n_n.rhsIdx (ix2 p q) ((contrEquiv1 dot_S4000x16_S16x64_S4000x64_1_0_0_1_n_n 16 rfl rfl).symm k) = ix2 k q := funext fun a => Fin.ext (by
    match a with
    | ⟨0, _⟩ => exact (mmRhsRow0 _ _).trans hk
    | ⟨1, _⟩ => exact mmRhsCol0 _ _)
  rw [el, er]

/-! ## The payload at an entry -/

/-- The body's stored value at entry (p, q) of its block. -/
theorem pay0 (ea : Vec Ideal S4000x16 .f32) (we : Vec Ideal S16x64 .f32) (b : Vec Ideal S1x64 .f32) (hs : Vec Ideal S4000x64 .f32)
    (p : Fin 4000) (q : Fin 64) :
    k0_pay1 (F := Ideal) ea we b hs (ix2 p q)
      = max (hs (ix2 p q) + ((∑ k : Fin 16, ea (ix2 p k) * we (ix2 k q)) + b (ix2 0 q))) 0 := by
  unfold k0_pay1
  simp only [shapeCast_self]
  rw [maximumf_apply, addf_apply, addf_apply, broadcast_apply, broadcastTo_1b_ab_apply]
  simp only [matmul]
  rw [mmBlock0]
  simp only [truncf_apply]
  show max _ (Ideal.ofBits .f32 0x00000000#32) = _
  rw [Ideal.ofBits_zero_f32]

/-! ## The windows' index maps over the grid -/

theorem hz0 : (![0, 0] : Fin 2 → Nat) = fun _ => 0 := funext fun a => by fin_cases a <;> rfl

/-- The printed index maps, decided over the grid: the three row-blocked windows are at block (t, 0), the weight
    matrix and the bias row at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section Point

variable (V : (c : Dev nD) → (b : Ref sig .tc) → Buf (Elt Ideal) ((c : Thread nD τ).loc b)) (c : Dev nD)

/-! ## The blocks, read where the arrays hold them -/

/-- Block t of the source features is rows 4000·t … of the array. -/
theorem blk0_0_apply (t : Fin cfg0.N) (p : Fin 4000) (q : Fin 64) (r : Fin 800000) (hr : r.val = t.val * 4000 + p.val) :
    (iblk0 (F := Ideal) V c 0 t : Vec Ideal S4000x64 .f32) (ix2 p q) = (V c main_v4 : SE64.Idx → EReal) (ix2 r q) := by
  obtain ⟨e0, e1, -⟩ := idx_facts0 t
  show (V c main_v4 : SE64.Idx → EReal) (((cfg0.win 0).blk t).view.emb (ix2 p q)) = _
  refine congrArg _ (funext fun a => Fin.ext ?_)
  match a with
  | ⟨0, _⟩ => show win0_0.index t (0 : Fin 2) * 4000 + 1 * p.val = r.val; omega
  | ⟨1, _⟩ => show win0_0.index t (1 : Fin 2) * 64 + 1 * q.val = q.val; omega

/-- Block t of the edge attributes is rows 4000·t … of the array. -/
theorem blk0_1_apply (t : Fin cfg0.N) (p : Fin 4000) (k : Fin 16) (r : Fin 800000) (hr : r.val = t.val * 4000 + p.val) :
    (iblk0 (F := Ideal) V c 1 t : Vec Ideal S4000x16 .f32) (ix2 p k) = (V c main_arg2 : SE16.Idx → EReal) (ix2 r k) := by
  obtain ⟨-, -, e0, e1, -⟩ := idx_facts0 t
  show (V c main_arg2 : SE16.Idx → EReal) (((cfg0.win 1).blk t).view.emb (ix2 p k)) = _
  refine congrArg _ (funext fun a => Fin.ext ?_)
  match a with
  | ⟨0, _⟩ => show win0_1.index t (0 : Fin 2) * 4000 + 1 * p.val = r.val; omega
  | ⟨1, _⟩ => show win0_1.index t (1 : Fin 2) * 16 + 1 * k.val = k.val; omega

/-- The weight matrix's one block is the array. -/
theorem blk0_2_apply (t : Fin cfg0.N) (k : Fin 16) (q : Fin 64) :
    (iblk0 (F := Ideal) V c 2 t : Vec Ideal S16x64 .f32) (ix2 k q) = (V c main_v6 : S16x64.Idx → EReal) (ix2 k q) := by
  obtain ⟨-, -, -, -, e0, e1, -⟩ := idx_facts0 t
  show (V c main_v6 : S16x64.Idx → EReal) (((cfg0.win 2).blk t).view.emb (ix2 k q)) = _
  refine congrArg _ (funext fun a => Fin.ext ?_)
  match a with
  | ⟨0, _⟩ => show win0_2.index t (0 : Fin 2) * 16 + 1 * k.val = k.val; omega
  | ⟨1, _⟩ => show win0_2.index t (1 : Fin 2) * 64 + 1 * q.val = q.val; omega

/-- The bias row's one block is the array. -/
theorem blk0_3_apply (t : Fin cfg0.N) (z : Fin 1) (q : Fin 64) :
    (iblk0 (F := Ideal) V c 3 t : Vec Ideal S1x64 .f32) (ix2 z q) = (V c main_v9 : S1x64.Idx → EReal) (ix2 z q) := by
  obtain ⟨-, -, -, -, -, -, e0, e1, -⟩ := idx_facts0 t
  show (V c main_v9 : S1x64.Idx → EReal) (((cfg0.win 3).blk t).view.emb (ix2 z q)) = _
  refine congrArg _ (funext fun a => Fin.ext ?_)
  match a with
  | ⟨0, _⟩ => show win0_3.index t (0 : Fin 2) * 1 + 1 * z.val = z.val; omega
  | ⟨1, _⟩ => show win0_3.index t (1 : Fin 2) * 64 + 1 * q.val = q.val; omega

/-- Entry (p, q) of the output's block t sits at row 4000·t + p of the array. -/
theorem emb0_4 (t : Fin cfg0.N) (p : Fin 4000) (q : Fin 64) (r : Fin 800000) (hr : r.val = t.val * 4000 + p.val) :
    (((cfg0.win 4).blk t).view.emb (ix2 p q) : SE64.Idx) = ix2 r q := by
  obtain ⟨-, -, -, -, -, -, -, -, e0, e1⟩ := idx_facts0 t
  refine funext fun a => Fin.ext ?_
  match a with
  | ⟨0, _⟩ => show win0_4.index t (0 : Fin 2) * 4000 + 1 * p.val = r.val; omega
  | ⟨1, _⟩ => show win0_4.index t (1 : Fin 2) * 64 + 1 * q.val = q.val; omega

/-! ## What a point writes -/

/-- The body's stored value at entry (p, q) of point t's block is the edge message at row 4000·t + p. -/
theorem point0 (t : Fin cfg0.N) (p : Fin 4000) (q : Fin 64) (r : Fin 800000) (hr : r.val = t.val * 4000 + p.val) :
    k0_pay1 (F := Ideal) (iblk0 V c 1 t) (iblk0 V c 2 t) (iblk0 V c 3 t) (iblk0 V c 0 t) (ix2 p q)
      = EdgeG (V c main_v4) (V c main_arg2) (V c main_v6) (V c main_v9) (ix2 r q) := by
  refine (pay0 (iblk0 V c 1 t) (iblk0 V c 2 t) (iblk0 V c 3 t) (iblk0 V c 0 t) p q).trans ?_
  rw [EdgeG_ix2]
  unfold edgeAt
  rw [blk0_0_apply V c t p q r hr, blk0_3_apply V c t 0 q]
  refine congrArg (fun s : EReal => max (_ + (s + _)) 0) (Finset.sum_congr rfl fun k _ => ?_)
  rw [blk0_1_apply V c t p k r hr, blk0_2_apply V c t k q]

/-- The same at any entry of the block, read where the output's block sits in the array. -/
theorem point0_emb (t : Fin cfg0.N) (j : S4000x64.Idx) :
    k0_pay1 (F := Ideal) (iblk0 V c 1 t) (iblk0 V c 2 t) (iblk0 V c 3 t) (iblk0 V c 0 t) j
      = EdgeG (V c main_v4) (V c main_arg2) (V c main_v6) (V c main_v9) (((cfg0.win 4).blk t).view.emb j) := by
  have hj : (j 0).val < 4000 := idx2_lt0 j
  have ht : t.val < 200 := N_0 ▸ t.isLt
  rw [eq_ix2 j]
  exact (point0 V c t (j 0) (j 1) ⟨t.val * 4000 + (j 0).val, by omega⟩ rfl).trans
    (congrArg _ (emb0_4 t (j 0) (j 1) ⟨t.val * 4000 + (j 0).val, by omega⟩ rfl).symm)

/-- WHAT POINT t WRITES BACK is block t of the edge messages of the arrays as the region finds them. -/
theorem flushed0 (t : Fin cfg0.N) :
    (dat0 (F := Ideal) V c).flushed 4 t
      = ((cfg0.win 4).blk t).view.read (Elt Ideal) (EdgeG (V c main_v4) (V c main_arg2) (V c main_v6) (V c main_v9)) := by
  show (cfg0.win 4).cut (grid0.coords t) ((dat0 V c).after 4 t) = _
  rw [after0_4]
  unfold out0_4
  rw [View.canon_unit_zero hz0]
  simp only [View.ld_unit_zero (S := S4000x16) hz0, View.ld_unit_zero (S := S16x64) hz0, View.ld_unit_zero (S := S1x64) hz0,
    View.ld_unit_zero (S := S4000x64) hz0]
  funext j
  exact point0_emb V c t j

/-! ## The blocks cover the array -/

/-- An index of the array is in point t's block iff each coordinate is in the block's range on its axis. -/
theorem mem_blk0 (t : Fin cfg0.N) (i : SE64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole main_v10).slice (win0_4.rect t)).set ↔ _
  rw [View.set_slice_whole, Rect.mem_set_unit]
  exact Iff.rfl

/-- Row r of the array is in the block of point r / 4000. -/
theorem cover0 (i : SE64.Idx) : ∃ t : Fin cfg0.N, (cfg0.win 4).flush t = true ∧ i ∈ ((cfg0.win 4).blk t).view.set := by
  have hi0 : (i 0).val < 800000 := idx2_lt0 i
  have hi1 : (i 1).val < 64 := idx2_lt1 i
  have hN : (i 0).val / 4000 < cfg0.N := by rw [show cfg0.N = 200 from N_0]; omega
  refine ⟨⟨(i 0).val / 4000, hN⟩, flush0_4 _, ?_⟩
  obtain ⟨-, -, -, -, -, -, -, -, e0, e1⟩ := idx_facts0 ⟨(i 0).val / 4000, hN⟩
  rw [mem_blk0]
  intro a
  match a with
  | ⟨0, _⟩ => show win0_4.index ⟨(i 0).val / 4000, hN⟩ (0 : Fin 2) * 4000 ≤ (i 0).val ∧ (i 0).val < win0_4.index ⟨(i 0).val / 4000, hN⟩ (0 : Fin 2) * 4000 + 4000; rw [e0]; show (i 0).val / 4000 * 4000 ≤ (i 0).val ∧ (i 0).val < (i 0).val / 4000 * 4000 + 4000; omega
  | ⟨1, _⟩ => show win0_4.index ⟨(i 0).val / 4000, hN⟩ (1 : Fin 2) * 64 ≤ (i 1).val ∧ (i 1).val < win0_4.index ⟨(i 0).val / 4000, hN⟩ (1 : Fin 2) * 64 + 64; rw [e1]; omega

/-! ## The array after the region -/

/-- THE OUTPUT ARRAY after the region: the edge messages of the arrays as the region finds them. -/
theorem final0 : (dat0 (F := Ideal) V c).arrAt 4 cfg0.N = EdgeG (V c main_v4) (V c main_arg2) (V c main_v6) (V c main_v9) :=
  (dat0 (F := Ideal) V c).arrAt_eq_of_cover 4 (EdgeG (V c main_v4) (V c main_arg2) (V c main_v6) (V c main_v9))
    (fun t _ => flushed0 V c t) cover0

end Point

end Cert.KernelIdeal.RegionVal

end
-- ==== Proof.Region1.lean ====
/-
  Region 1 of the kernel (a node update with clipping at 0), read as one array: the 25 blocks of 2000 rows the
  grid's points write back are, together, the node-update map of the four arrays the region reads.
-/
import proofs.«413400_j8254927142997_1_alg».proof.Proof.Gen.KernelIdeal.Frame
import proofs.«413400_j8254927142997_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.RegionVal

open Cert.KernelIdeal Cert.KernelIdeal.Gen Idealize.ShloMosaic.ValueIdx
open Cert.Spec (NodeG nodeAt NodeG_ix2)

/-! ## The block product's index maps, axis by axis -/

theorem lhs1_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs1_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs1_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs1_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The block product into a zero accumulator, at an entry: the sum over the 64 contracted positions. -/
theorem mm1 (x : FVec Ideal S2000x64 .bf16) (y : FVec Ideal S64x64 .bf16) (p : Fin 2000) (q : Fin 64) :
    matmul (F := Ideal) dot_S2000x64_S64x64_S2000x64_1_0_0_1_n_n none x y (constant (F := Ideal) S2000x64 .f32 0x00000000#32) (ix2 p q)
      = ∑ k : Fin 64, x (ix2 p k) * y (ix2 k q) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhs1_0 _ _
    | ⟨1, _⟩ => exact (lhs1_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhs1_0 _ _).trans hk
    | ⟨1, _⟩ => exact rhs1_1 _ _)
  rw [el, er]

/-- The body's payload at an entry of the block. -/
theorem pay1 (h aggr : Vec Ideal S2000x64 .f32) (w : Vec Ideal S64x64 .f32) (b : Vec Ideal S1x64 .f32) (p : Fin 2000) (q : Fin 64) :
    k1_pay1 (F := Ideal) h aggr w b (ix2 p q) = max ((∑ k : Fin 64, (h (ix2 p k) + aggr (ix2 p k)) * w (ix2 k q)) + b (ix2 0 q)) 0 := by
  unfold k1_pay1
  simp only [shapeCast_self]
  rw [maximumf_apply, addf_apply, mm1, broadcastTo_1b_ab_apply, broadcast_apply]
  simp only [truncf_apply, addf_apply]
  show max _ (Ideal.ofBits .f32 0x00000000#32) = _
  rw [Ideal.ofBits_zero_f32]

/-! ## The windows' blocks as rows of the arrays -/

variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: the row-blocked windows sit at block (t, 0), the whole ones at (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of point t's block of the first operand is row 2000·t + p of its array. -/
theorem blk1_0 (c : Dev nD) (t : Fin cfg1.N) (p : Fin 2000) (k : Fin 64) (P : Fin 50000) (hP : P.val = 2000 * t.val + p.val) :
    (iblk1 (F := Ideal) V c 0 t : Vec Ideal S2000x64 .f32) (ix2 p k) = (V c main_arg0 : S50000x64.Idx → EReal) (ix2 P k) := by
  have hi := idx_facts1 t
  unfold iblk1
  rw [View.read_apply]
  show V c main_arg0 _ = V c main_arg0 _
  congr 1
  funext a
  apply Fin.ext
  match a with
  | ⟨0, _⟩ => show win1_0.index t (0 : Fin 2) * 2000 + 1 * p.val = P.val; rw [hi.1, hP]; omega
  | ⟨1, _⟩ => show win1_0.index t (1 : Fin 2) * 64 + 1 * k.val = k.val; rw [hi.2.1]; omega

/-- The same for the second operand. -/
theorem blk1_1 (c : Dev nD) (t : Fin cfg1.N) (p : Fin 2000) (k : Fin 64) (P : Fin 50000) (hP : P.val = 2000 * t.val + p.val) :
    (iblk1 (F := Ideal) V c 1 t : Vec Ideal S2000x64 .f32) (ix2 p k) = (V c main_v13 : S50000x64.Idx → EReal) (ix2 P k) := by
  have hi := idx_facts1 t
  unfold iblk1
  rw [View.read_apply]
  show V c main_v13 _ = V c main_v13 _
  congr 1
  funext a
  apply Fin.ext
  match a with
  | ⟨0, _⟩ => show win1_1.index t (0 : Fin 2) * 2000 + 1 * p.val = P.val; rw [hi.2.2.1, hP]; omega
  | ⟨1, _⟩ => show win1_1.index t (1 : Fin 2) * 64 + 1 * k.val = k.val; rw [hi.2.2.2.1]; omega

/-- The weight window's block is the whole weight array at every point. -/
theorem blk1_2 (c : Dev nD) (t : Fin cfg1.N) (k q : Fin 64) :
    (iblk1 (F := Ideal) V c 2 t : Vec Ideal S64x64 .f32) (ix2 k q) = (V c main_v15 : S64x64.Idx → EReal) (ix2 k q) := by
  have hi := idx_facts1 t
  unfold iblk1
  rw [View.read_apply]
  show V c main_v15 _ = V c main_v15 _
  congr 1
  funext a
  apply Fin.ext
  match a with
  | ⟨0, _⟩ => show win1_2.index t (0 : Fin 2) * 64 + 1 * k.val = k.val; rw [hi.2.2.2.2.1]; omega
  | ⟨1, _⟩ => show win1_2.index t (1 : Fin 2) * 64 + 1 * q.val = q.val; rw [hi.2.2.2.2.2.1]; omega

/-- The bias window's block is the whole bias row at every point. -/
theorem blk1_3 (c : Dev nD) (t : Fin cfg1.N) (z : Fin 1) (q : Fin 64) :
    (iblk1 (F := Ideal) V c 3 t : Vec Ideal S1x64 .f32) (ix2 z q) = (V c main_v18 : S1x64.Idx → EReal) (ix2 z q) := by
  have hi := idx_facts1 t
  unfold iblk1
  rw [View.read_apply]
  show V c main_v18 _ = V c main_v18 _
  congr 1
  funext a
  apply Fin.ext
  match a with
  | ⟨0, _⟩ => show win1_3.index t (0 : Fin 2) * 1 + 1 * z.val = z.val; rw [hi.2.2.2.2.2.2.1]; omega
  | ⟨1, _⟩ => show win1_3.index t (1 : Fin 2) * 64 + 1 * q.val = q.val; rw [hi.2.2.2.2.2.2.2.1]; omega

/-! ## What a point writes back, and the cover -/

/-- WHAT POINT t WRITES BACK is block t of the node-update map of the four arrays the region reads. -/
theorem flushed1 (c : Dev nD) (t : Fin cfg1.N) :
    (dat1 (F := Ideal) V c).flushed 4 t = ((cfg1.win 4).blk t).view.read (Elt Ideal)
      (NodeG (V c main_arg0) (V c main_v13) (V c main_v15) (V c main_v18)) := by
  show (cfg1.win 4).cut (grid1.coords t) ((dat1 (F := Ideal) V c).after 4 t) = _
  rw [after1_4]
  unfold out1_4
  rw [View.canon_unit_zero hz1]
  simp only [View.ld_unit_zero (S := S2000x64) hz1, View.ld_unit_zero (S := S64x64) hz1, View.ld_unit_zero (S := S1x64) hz1]
  funext j
  obtain ⟨p, q, rfl⟩ : ∃ (p : Fin 2000) (q : Fin 64), j = ix2 p q := ⟨j 0, j 1, eq_ix2 j⟩
  have ht : t.val < 25 := lt_of_lt_of_eq t.isLt N_1
  have hi := idx_facts1 t
  let P : Fin 50000 := ⟨2000 * t.val + p.val, by have := p.isLt; omega⟩
  have hemb : ((cfg1.win 4).blk t).view.emb (ix2 p q) = (ix2 P q : S50000x64.Idx) := by
    funext a
    apply Fin.ext
    match a with
    | ⟨0, _⟩ => show win1_4.index t (0 : Fin 2) * 2000 + 1 * p.val = 2000 * t.val + p.val; rw [hi.2.2.2.2.2.2.2.2.1]; omega
    | ⟨1, _⟩ => show win1_4.index t (1 : Fin 2) * 64 + 1 * q.val = q.val; rw [hi.2.2.2.2.2.2.2.2.2]; omega
  rw [View.read_apply, hemb, NodeG_ix2]
  unfold nodeAt
  show k1_pay1 (F := Ideal) (iblk1 V c 0 t) (iblk1 V c 1 t) (iblk1 V c 2 t) (iblk1 V c 3 t) (ix2 p q) = _
  rw [pay1]
  simp only [blk1_0 V c t p _ P rfl, blk1_1 V c t p _ P rfl, blk1_2 V c t, blk1_3 V c t]
  rfl

/-- An index of the array is in point t's block iff each coordinate is in the block's range on its axis. -/
theorem mem_blk1 (t : Fin cfg1.N) (i : S50000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v19).slice (win1_4.rect t)).set ↔ _
  rw [View.set_slice_whole, Rect.mem_set_unit]
  exact Iff.rfl

/-- Row r of the array is in the block of point r / 2000. -/
theorem cover1 (i : S50000x64.Idx) : ∃ t : Fin cfg1.N, (cfg1.win 4).flush t = true ∧ i ∈ ((cfg1.win 4).blk t).view.set := by
  have h0 : (i 0).val < 50000 := (i 0).isLt
  have h1 : (i 1).val < 64 := (i 1).isLt
  let t : Fin cfg1.N := ⟨(i 0).val / 2000, lt_of_lt_of_eq (by omega : (i 0).val / 2000 < 25) N_1.symm⟩
  have hi := idx_facts1 t
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000
              rw [hi.2.2.2.2.2.2.2.2.1]; show (i 0).val / 2000 * 2000 ≤ (i 0).val ∧ (i 0).val < (i 0).val / 2000 * 2000 + 2000; omega
  | ⟨1, _⟩ => show win1_4.index t (1 : Fin 2) * 64 ≤ (i 1).val ∧ (i 1).val < win1_4.index t (1 : Fin 2) * 64 + 64
              rw [hi.2.2.2.2.2.2.2.2.2]; omega

/-- THE ARRAY after the region: the node-update map of the four arrays as the region finds them. -/
theorem final1 (c : Dev nD) :
    (dat1 (F := Ideal) V c).arrAt 4 cfg1.N = NodeG (V c main_arg0) (V c main_v13) (V c main_v15) (V c main_v18) :=
  (dat1 (F := Ideal) V c).arrAt_eq_of_cover 4 (NodeG (V c main_arg0) (V c main_v13) (V c main_v15) (V c main_v18))
    (fun t _ => flushed1 V c t) cover1

end Cert.KernelIdeal.RegionVal

end
-- ==== Proof.Region2.lean ====
/-
  Region 0, the edge message: what the blocked kernel leaves in its output array.

  Each of the 200 grid points reads rows 4000·t … 4000·t+3999 of the source features and of the edge attributes,
  the whole weight matrix and the bias row, and writes the same rows of the output: entry (p, q) of the block is
  max (hs(p,q) + (Σ_k ea(p,k)·we(k,q) + b(0,q))) 0. A row of the result depends only on the same row of the
  row-indexed operands, so the blocks together are the whole-array map EdgeG.
-/
import proofs.«413400_j8254927142997_1_alg».proof.Proof.Gen.KernelIdeal.Frame
import proofs.«413400_j8254927142997_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Idealize.ShloMosaic Idealize.ShloMosaic.TcCoe Idealize.SL.Sem
open Cert.KernelIdeal Cert.KernelIdeal.Gen Cert.Spec Idealize.ShloMosaic.ValueIdx
open Idealize.ShloMosaic.Pipeline (Dat)

/-! ## The block's matrix product, entry by entry -/

/-- The left operand of the block's product is read at the output's row … -/
theorem mmLhsRow2 (i : S4000x64.Idx) (q : dot_S4000x16_S16x64_S4000x64_1_0_0_1_n_n.contr.Idx) :
    (dot_S4000x16_S16x64_S4000x64_1_0_0_1_n_n.lhsIdx i q 0).val = (i 0).val := by
  unfold DotDims.lhsIdx
  rw [dif_neg (show ¬(0 : Fin S4000x16.rank) ∈ dot_S4000x16_S16x64_S4000x64_1_0_0_1_n_n.lhsBatch by decide), dif_pos (show (0 : Fin S4000x16.rank) ∈ dot_S4000x16_S16x64_S4000x64_1_0_0_1_n_n.lhsNonContracting by decide)]
  rfl
/-- … and the contraction coordinate, -/
theorem mmLhsCol2 (i : S4000x64.Idx) (q : dot_S4000x16_S16x64_S4000x64_1_0_0_1_n_n.contr.Idx) :
    (dot_S4000x16_S16x64_S4000x64_1_0_0_1_n_n.lhsIdx i q 1).val = (q ⟨0, by decide⟩).val :=
  dot_S4000x16_S16x64_S4000x64_1_0_0_1_n_n.lhsIdx_val_of_single rfl i q
/-- the right operand at the contraction coordinate … -/
theorem mmRhsRow2 (i : S4000x64.Idx) (q : dot_S4000x16_S16x64_S4000x64_1_0_0_1_n_n.contr.Idx) :
    (dot_S4000x16_S16x64_S4000x64_1_0_0_1_n_n.rhsIdx i q 0).val = (q ⟨0, by decide⟩).val :=
  dot_S4000x16_S16x64_S4000x64_1_0_0_1_n_n.rhsIdx_val_of_single rfl i q
/-- … and the output's column. -/
theorem mmRhsCol2 (i : S4000x64.Idx) (q : dot_S4000x16_S16x64_S4000x64_1_0_0_1_n_n.contr.Idx) :
    (dot_S4000x16_S16x64_S4000x64_1_0_0_1_n_n.rhsIdx i q 1).val = (i 1).val := by
  unfold DotDims.rhsIdx
  rw [dif_neg (show ¬(1 : Fin S16x64.rank) ∈ dot_S4000x16_S16x64_S4000x64_1_0_0_1_n_n.rhsBatch by decide), dif_pos (show (1 : Fin S16x64.rank) ∈ dot_S4000x16_S16x64_S4000x64_1_0_0_1_n_n.rhsNonContracting by decide)]
  rfl

/-- A 4000×16 block times the 16×64 matrix into a zero accumulator: entry (p, q) is the sum over k of the products. -/
theorem mmBlock2 {φ₁ φ₂ : FTy} (x : FVec Ideal S4000x16 φ₁) (y : FVec Ideal S16x64 φ₂) (p : Fin 4000) (q : Fin 64) :
    FloatOps.matmul dot_S4000x16_S16x64_S4000x64_1_0_0_1_n_n none x y (constant (F := Ideal) S4000x64 .f32 0x00000000#32) (ix2 p q)
      = ∑ k : Fin 16, x (ix2 p k) * y (ix2 k q) := by
  rw [Ideal.matmul_constant_zero_apply, ← Equiv.sum_comp (contrEquiv1 dot_S4000x16_S16x64_S4000x64_1_0_0_1_n_n 16 rfl rfl).symm]
  refine Finset.sum_congr rfl fun k _ => ?_
  have hk := contrEquiv1_symm_val dot_S4000x16_S16x64_S4000x64_1_0_0_1_n_n 16 rfl rfl k
  have el : dot_S4000x16_S16x64_S4000x64_1_0_0_1_n_n.lhsIdx (ix2 p q) ((contrEquiv1 dot_S4000x16_S16x64_S4000x64_1_0_0_1_n_n 16 rfl rfl).symm k) = ix2 p k := funext fun a => Fin.ext (by
    match a with
    | ⟨0, _⟩ => exact mmLhsRow2 _ _
    | ⟨1, _⟩ => exact (mmLhsCol2 _ _).trans hk)
  have er : dot_S4000x16_S16x64_S4000x64_1_0_0_1_n_n.rhsIdx (ix2 p q) ((contrEquiv1 dot_S4000x16_S16x64_S4000x64_1_0_0_1_n_n 16 rfl rfl).symm k) = ix2 k q := funext fun a => Fin.ext (by
    match a with
    | ⟨0, _⟩ => exact (mmRhsRow2 _ _).trans hk
    | ⟨1, _⟩ => exact mmRhsCol2 _ _)
  rw [el, er]

/-! ## The payload at an entry -/

/-- The body's stored value at entry (p, q) of its block. -/
theorem pay2 (ea : Vec Ideal S4000x16 .f32) (we : Vec Ideal S16x64 .f32) (b : Vec Ideal S1x64 .f32) (hs : Vec Ideal S4000x64 .f32)
    (p : Fin 4000) (q : Fin 64) :
    k2_pay1 (F := Ideal) ea we b hs (ix2 p q)
      = max (hs (ix2 p q) + ((∑ k : Fin 16, ea (ix2 p k) * we (ix2 k q)) + b (ix2 0 q))) 0 := by
  unfold k2_pay1
  simp only [shapeCast_self]
  rw [maximumf_apply, addf_apply, addf_apply, broadcast_apply, broadcastTo_1b_ab_apply]
  simp only [matmul]
  rw [mmBlock2]
  simp only [truncf_apply]
  show max _ (Ideal.ofBits .f32 0x00000000#32) = _
  rw [Ideal.ofBits_zero_f32]

/-! ## The windows' index maps over the grid -/

theorem hz2 : (![0, 0] : Fin 2 → Nat) = fun _ => 0 := funext fun a => by fin_cases a <;> rfl

/-- The printed index maps, decided over the grid: the three row-blocked windows are at block (t, 0), the weight
    matrix and the bias row at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

section Point

variable (V : (c : Dev nD) → (b : Ref sig .tc) → Buf (Elt Ideal) ((c : Thread nD τ).loc b)) (c : Dev nD)

/-! ## The blocks, read where the arrays hold them -/

/-- Block t of the source features is rows 4000·t … of the array. -/
theorem blk2_0_apply (t : Fin cfg2.N) (p : Fin 4000) (q : Fin 64) (r : Fin 800000) (hr : r.val = t.val * 4000 + p.val) :
    (iblk2 (F := Ideal) V c 0 t : Vec Ideal S4000x64 .f32) (ix2 p q) = (V c main_v20 : SE64.Idx → EReal) (ix2 r q) := by
  obtain ⟨e0, e1, -⟩ := idx_facts2 t
  show (V c main_v20 : SE64.Idx → EReal) (((cfg2.win 0).blk t).view.emb (ix2 p q)) = _
  refine congrArg _ (funext fun a => Fin.ext ?_)
  match a with
  | ⟨0, _⟩ => show win2_0.index t (0 : Fin 2) * 4000 + 1 * p.val = r.val; omega
  | ⟨1, _⟩ => show win2_0.index t (1 : Fin 2) * 64 + 1 * q.val = q.val; omega

/-- Block t of the edge attributes is rows 4000·t … of the array. -/
theorem blk2_1_apply (t : Fin cfg2.N) (p : Fin 4000) (k : Fin 16) (r : Fin 800000) (hr : r.val = t.val * 4000 + p.val) :
    (iblk2 (F := Ideal) V c 1 t : Vec Ideal S4000x16 .f32) (ix2 p k) = (V c main_arg2 : SE16.Idx → EReal) (ix2 r k) := by
  obtain ⟨-, -, e0, e1, -⟩ := idx_facts2 t
  show (V c main_arg2 : SE16.Idx → EReal) (((cfg2.win 1).blk t).view.emb (ix2 p k)) = _
  refine congrArg _ (funext fun a => Fin.ext ?_)
  match a with
  | ⟨0, _⟩ => show win2_1.index t (0 : Fin 2) * 4000 + 1 * p.val = r.val; omega
  | ⟨1, _⟩ => show win2_1.index t (1 : Fin 2) * 16 + 1 * k.val = k.val; omega

/-- The weight matrix's one block is the array. -/
theorem blk2_2_apply (t : Fin cfg2.N) (k : Fin 16) (q : Fin 64) :
    (iblk2 (F := Ideal) V c 2 t : Vec Ideal S16x64 .f32) (ix2 k q) = (V c main_v22 : S16x64.Idx → EReal) (ix2 k q) := by
  obtain ⟨-, -, -, -, e0, e1, -⟩ := idx_facts2 t
  show (V c main_v22 : S16x64.Idx → EReal) (((cfg2.win 2).blk t).view.emb (ix2 k q)) = _
  refine congrArg _ (funext fun a => Fin.ext ?_)
  match a with
  | ⟨0, _⟩ => show win2_2.index t (0 : Fin 2) * 16 + 1 * k.val = k.val; omega
  | ⟨1, _⟩ => show win2_2.index t (1 : Fin 2) * 64 + 1 * q.val = q.val; omega

/-- The bias row's one block is the array. -/
theorem blk2_3_apply (t : Fin cfg2.N) (z : Fin 1) (q : Fin 64) :
    (iblk2 (F := Ideal) V c 3 t : Vec Ideal S1x64 .f32) (ix2 z q) = (V c main_v25 : S1x64.Idx → EReal) (ix2 z q) := by
  obtain ⟨-, -, -, -, -, -, e0, e1, -⟩ := idx_facts2 t
  show (V c main_v25 : S1x64.Idx → EReal) (((cfg2.win 3).blk t).view.emb (ix2 z q)) = _
  refine congrArg _ (funext fun a => Fin.ext ?_)
  match a with
  | ⟨0, _⟩ => show win2_3.index t (0 : Fin 2) * 1 + 1 * z.val = z.val; omega
  | ⟨1, _⟩ => show win2_3.index t (1 : Fin 2) * 64 + 1 * q.val = q.val; omega

/-- Entry (p, q) of the output's block t sits at row 4000·t + p of the array. -/
theorem emb2_4 (t : Fin cfg2.N) (p : Fin 4000) (q : Fin 64) (r : Fin 800000) (hr : r.val = t.val * 4000 + p.val) :
    (((cfg2.win 4).blk t).view.emb (ix2 p q) : SE64.Idx) = ix2 r q := by
  obtain ⟨-, -, -, -, -, -, -, -, e0, e1⟩ := idx_facts2 t
  refine funext fun a => Fin.ext ?_
  match a with
  | ⟨0, _⟩ => show win2_4.index t (0 : Fin 2) * 4000 + 1 * p.val = r.val; omega
  | ⟨1, _⟩ => show win2_4.index t (1 : Fin 2) * 64 + 1 * q.val = q.val; omega

/-! ## What a point writes -/

/-- The body's stored value at entry (p, q) of point t's block is the edge message at row 4000·t + p. -/
theorem point2 (t : Fin cfg2.N) (p : Fin 4000) (q : Fin 64) (r : Fin 800000) (hr : r.val = t.val * 4000 + p.val) :
    k2_pay1 (F := Ideal) (iblk2 V c 1 t) (iblk2 V c 2 t) (iblk2 V c 3 t) (iblk2 V c 0 t) (ix2 p q)
      = EdgeG (V c main_v20) (V c main_arg2) (V c main_v22) (V c main_v25) (ix2 r q) := by
  refine (pay2 (iblk2 V c 1 t) (iblk2 V c 2 t) (iblk2 V c 3 t) (iblk2 V c 0 t) p q).trans ?_
  rw [EdgeG_ix2]
  unfold edgeAt
  rw [blk2_0_apply V c t p q r hr, blk2_3_apply V c t 0 q]
  refine congrArg (fun s : EReal => max (_ + (s + _)) 0) (Finset.sum_congr rfl fun k _ => ?_)
  rw [blk2_1_apply V c t p k r hr, blk2_2_apply V c t k q]

/-- The same at any entry of the block, read where the output's block sits in the array. -/
theorem point2_emb (t : Fin cfg2.N) (j : S4000x64.Idx) :
    k2_pay1 (F := Ideal) (iblk2 V c 1 t) (iblk2 V c 2 t) (iblk2 V c 3 t) (iblk2 V c 0 t) j
      = EdgeG (V c main_v20) (V c main_arg2) (V c main_v22) (V c main_v25) (((cfg2.win 4).blk t).view.emb j) := by
  have hj : (j 0).val < 4000 := idx2_lt0 j
  have ht : t.val < 200 := N_2 ▸ t.isLt
  rw [eq_ix2 j]
  exact (point2 V c t (j 0) (j 1) ⟨t.val * 4000 + (j 0).val, by omega⟩ rfl).trans
    (congrArg _ (emb2_4 t (j 0) (j 1) ⟨t.val * 4000 + (j 0).val, by omega⟩ rfl).symm)

/-- WHAT POINT t WRITES BACK is block t of the edge messages of the arrays as the region finds them. -/
theorem flushed2 (t : Fin cfg2.N) :
    (dat2 (F := Ideal) V c).flushed 4 t
      = ((cfg2.win 4).blk t).view.read (Elt Ideal) (EdgeG (V c main_v20) (V c main_arg2) (V c main_v22) (V c main_v25)) := by
  show (cfg2.win 4).cut (grid2.coords t) ((dat2 V c).after 4 t) = _
  rw [after2_4]
  unfold out2_4
  rw [View.canon_unit_zero hz2]
  simp only [View.ld_unit_zero (S := S4000x16) hz2, View.ld_unit_zero (S := S16x64) hz2, View.ld_unit_zero (S := S1x64) hz2,
    View.ld_unit_zero (S := S4000x64) hz2]
  funext j
  exact point2_emb V c t j

/-! ## The blocks cover the array -/

/-- An index of the array is in point t's block iff each coordinate is in the block's range on its axis. -/
theorem mem_blk2 (t : Fin cfg2.N) (i : SE64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v26).slice (win2_4.rect t)).set ↔ _
  rw [View.set_slice_whole, Rect.mem_set_unit]
  exact Iff.rfl

/-- Row r of the array is in the block of point r / 4000. -/
theorem cover2 (i : SE64.Idx) : ∃ t : Fin cfg2.N, (cfg2.win 4).flush t = true ∧ i ∈ ((cfg2.win 4).blk t).view.set := by
  have hi0 : (i 0).val < 800000 := idx2_lt0 i
  have hi1 : (i 1).val < 64 := idx2_lt1 i
  have hN : (i 0).val / 4000 < cfg2.N := by rw [show cfg2.N = 200 from N_2]; omega
  refine ⟨⟨(i 0).val / 4000, hN⟩, flush2_4 _, ?_⟩
  obtain ⟨-, -, -, -, -, -, -, -, e0, e1⟩ := idx_facts2 ⟨(i 0).val / 4000, hN⟩
  rw [mem_blk2]
  intro a
  match a with
  | ⟨0, _⟩ => show win2_4.index ⟨(i 0).val / 4000, hN⟩ (0 : Fin 2) * 4000 ≤ (i 0).val ∧ (i 0).val < win2_4.index ⟨(i 0).val / 4000, hN⟩ (0 : Fin 2) * 4000 + 4000; rw [e0]; show (i 0).val / 4000 * 4000 ≤ (i 0).val ∧ (i 0).val < (i 0).val / 4000 * 4000 + 4000; omega
  | ⟨1, _⟩ => show win2_4.index ⟨(i 0).val / 4000, hN⟩ (1 : Fin 2) * 64 ≤ (i 1).val ∧ (i 1).val < win2_4.index ⟨(i 0).val / 4000, hN⟩ (1 : Fin 2) * 64 + 64; rw [e1]; omega

/-! ## The array after the region -/

/-- THE OUTPUT ARRAY after the region: the edge messages of the arrays as the region finds them. -/
theorem final2 : (dat2 (F := Ideal) V c).arrAt 4 cfg2.N = EdgeG (V c main_v20) (V c main_arg2) (V c main_v22) (V c main_v25) :=
  (dat2 (F := Ideal) V c).arrAt_eq_of_cover 4 (EdgeG (V c main_v20) (V c main_arg2) (V c main_v22) (V c main_v25))
    (fun t _ => flushed2 V c t) cover2

end Point

end Cert.KernelIdeal.RegionVal

end
-- ==== Proof.Region3.lean ====
/-
  A node-update region of the kernel (clipped at 0), read as one array: the 25 blocks of 2000 rows the grid's points
  write back are, together, the node-update map of the four arrays the region reads.
-/
import proofs.«413400_j8254927142997_1_alg».proof.Proof.Gen.KernelIdeal.Frame
import proofs.«413400_j8254927142997_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.RegionVal

open Cert.KernelIdeal Cert.KernelIdeal.Gen Idealize.ShloMosaic.ValueIdx
open Cert.Spec (NodeG nodeAt NodeG_ix2)

/-! ## The block product's index maps, axis by axis -/

theorem lhs3_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs3_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs3_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs3_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The block product into a zero accumulator, at an entry: the sum over the 64 contracted positions. -/
theorem mm3 (x : FVec Ideal S2000x64 .bf16) (y : FVec Ideal S64x64 .bf16) (p : Fin 2000) (q : Fin 64) :
    matmul (F := Ideal) dot_S2000x64_S64x64_S2000x64_1_0_0_1_n_n none x y (constant (F := Ideal) S2000x64 .f32 0x00000000#32) (ix2 p q)
      = ∑ k : Fin 64, x (ix2 p k) * y (ix2 k q) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhs3_0 _ _
    | ⟨1, _⟩ => exact (lhs3_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhs3_0 _ _).trans hk
    | ⟨1, _⟩ => exact rhs3_1 _ _)
  rw [el, er]

/-- The body's payload at an entry of the block. -/
theorem pay3 (h aggr : Vec Ideal S2000x64 .f32) (w : Vec Ideal S64x64 .f32) (b : Vec Ideal S1x64 .f32) (p : Fin 2000) (q : Fin 64) :
    k3_pay1 (F := Ideal) h aggr w b (ix2 p q) = max ((∑ k : Fin 64, (h (ix2 p k) + aggr (ix2 p k)) * w (ix2 k q)) + b (ix2 0 q)) 0 := by
  unfold k3_pay1
  simp only [shapeCast_self]
  rw [maximumf_apply, addf_apply, mm3, broadcastTo_1b_ab_apply, broadcast_apply]
  simp only [truncf_apply, addf_apply]
  show max _ (Ideal.ofBits .f32 0x00000000#32) = _
  rw [Ideal.ofBits_zero_f32]

/-! ## The windows' blocks as rows of the arrays -/

variable (V : (c : Dev nD) → (b : Ref sig .tc) → Buf (Elt Ideal) ((c : Thread nD τ).loc b))

theorem hz3 : (![0, 0] : Fin 2 → Nat) = fun _ => 0 := funext fun a => by fin_cases a <;> rfl

/-- The grid has 25 points. -/
theorem npts3 : cfg3.N = 25 := (by decide : grid3.N = 25)

/-- The printed index maps, decided over the grid: the row-blocked windows sit at block (t, 0), the whole ones at (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of point t's block of the first operand is row 2000·t + p of its array. -/
theorem blk3_0 (c : Dev nD) (t : Fin cfg3.N) (p : Fin 2000) (k : Fin 64) (P : Fin 50000) (hP : P.val = 2000 * t.val + p.val) :
    (iblk3 (F := Ideal) V c 0 t : Vec Ideal S2000x64 .f32) (ix2 p k) = (V c main_v19 : S50000x64.Idx → EReal) (ix2 P k) := by
  have hi := idx_facts3 t
  unfold iblk3
  rw [View.read_apply]
  show V c main_v19 _ = V c main_v19 _
  congr 1
  funext a
  apply Fin.ext
  match a with
  | ⟨0, _⟩ => show win3_0.index t (0 : Fin 2) * 2000 + 1 * p.val = P.val; rw [hi.1, hP]; omega
  | ⟨1, _⟩ => show win3_0.index t (1 : Fin 2) * 64 + 1 * k.val = k.val; rw [hi.2.1]; omega

/-- The same for the second operand. -/
theorem blk3_1 (c : Dev nD) (t : Fin cfg3.N) (p : Fin 2000) (k : Fin 64) (P : Fin 50000) (hP : P.val = 2000 * t.val + p.val) :
    (iblk3 (F := Ideal) V c 1 t : Vec Ideal S2000x64 .f32) (ix2 p k) = (V c main_v29 : S50000x64.Idx → EReal) (ix2 P k) := by
  have hi := idx_facts3 t
  unfold iblk3
  rw [View.read_apply]
  show V c main_v29 _ = V c main_v29 _
  congr 1
  funext a
  apply Fin.ext
  match a with
  | ⟨0, _⟩ => show win3_1.index t (0 : Fin 2) * 2000 + 1 * p.val = P.val; rw [hi.2.2.1, hP]; omega
  | ⟨1, _⟩ => show win3_1.index t (1 : Fin 2) * 64 + 1 * k.val = k.val; rw [hi.2.2.2.1]; omega

/-- The weight window's block is the whole weight array at every point. -/
theorem blk3_2 (c : Dev nD) (t : Fin cfg3.N) (k q : Fin 64) :
    (iblk3 (F := Ideal) V c 2 t : Vec Ideal S64x64 .f32) (ix2 k q) = (V c main_v31 : S64x64.Idx → EReal) (ix2 k q) := by
  have hi := idx_facts3 t
  unfold iblk3
  rw [View.read_apply]
  show V c main_v31 _ = V c main_v31 _
  congr 1
  funext a
  apply Fin.ext
  match a with
  | ⟨0, _⟩ => show win3_2.index t (0 : Fin 2) * 64 + 1 * k.val = k.val; rw [hi.2.2.2.2.1]; omega
  | ⟨1, _⟩ => show win3_2.index t (1 : Fin 2) * 64 + 1 * q.val = q.val; rw [hi.2.2.2.2.2.1]; omega

/-- The bias window's block is the whole bias row at every point. -/
theorem blk3_3 (c : Dev nD) (t : Fin cfg3.N) (z : Fin 1) (q : Fin 64) :
    (iblk3 (F := Ideal) V c 3 t : Vec Ideal S1x64 .f32) (ix2 z q) = (V c main_v34 : S1x64.Idx → EReal) (ix2 z q) := by
  have hi := idx_facts3 t
  unfold iblk3
  rw [View.read_apply]
  show V c main_v34 _ = V c main_v34 _
  congr 1
  funext a
  apply Fin.ext
  match a with
  | ⟨0, _⟩ => show win3_3.index t (0 : Fin 2) * 1 + 1 * z.val = z.val; rw [hi.2.2.2.2.2.2.1]; omega
  | ⟨1, _⟩ => show win3_3.index t (1 : Fin 2) * 64 + 1 * q.val = q.val; rw [hi.2.2.2.2.2.2.2.1]; omega

/-! ## What a point writes back, and the cover -/

/-- WHAT POINT t WRITES BACK is block t of the node-update map of the four arrays the region reads. -/
theorem flushed3 (c : Dev nD) (t : Fin cfg3.N) :
    (dat3 (F := Ideal) V c).flushed 4 t = ((cfg3.win 4).blk t).view.read (Elt Ideal)
      (NodeG (V c main_v19) (V c main_v29) (V c main_v31) (V c main_v34)) := by
  show (cfg3.win 4).cut (grid3.coords t) ((dat3 (F := Ideal) V c).after 4 t) = _
  rw [after3_4]
  unfold out3_4
  rw [View.canon_unit_zero hz3]
  simp only [View.ld_unit_zero (S := S2000x64) hz3, View.ld_unit_zero (S := S64x64) hz3, View.ld_unit_zero (S := S1x64) hz3]
  funext j
  obtain ⟨p, q, rfl⟩ : ∃ (p : Fin 2000) (q : Fin 64), j = ix2 p q := ⟨j 0, j 1, eq_ix2 j⟩
  have ht : t.val < 25 := lt_of_lt_of_eq t.isLt npts3
  have hi := idx_facts3 t
  let P : Fin 50000 := ⟨2000 * t.val + p.val, by have := p.isLt; omega⟩
  have hemb : ((cfg3.win 4).blk t).view.emb (ix2 p q) = (ix2 P q : S50000x64.Idx) := by
    funext a
    apply Fin.ext
    match a with
    | ⟨0, _⟩ => show win3_4.index t (0 : Fin 2) * 2000 + 1 * p.val = 2000 * t.val + p.val; rw [hi.2.2.2.2.2.2.2.2.1]; omega
    | ⟨1, _⟩ => show win3_4.index t (1 : Fin 2) * 64 + 1 * q.val = q.val; rw [hi.2.2.2.2.2.2.2.2.2]; omega
  rw [View.read_apply, hemb, NodeG_ix2]
  unfold nodeAt
  show k3_pay1 (F := Ideal) (iblk3 V c 0 t) (iblk3 V c 1 t) (iblk3 V c 2 t) (iblk3 V c 3 t) (ix2 p q) = _
  rw [pay3]
  simp only [blk3_0 V c t p _ P rfl, blk3_1 V c t p _ P rfl, blk3_2 V c t, blk3_3 V c t]
  rfl

/-- An index of the array is in point t's block iff each coordinate is in the block's range on its axis. -/
theorem mem_blk3 (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole (Pipeline.arrRef spec3 4)).slice (win3_4.rect t)).set ↔ _
  rw [View.set_slice_whole, Rect.mem_set_unit]
  exact Iff.rfl

/-- Row r of the array is in the block of point r / 2000. -/
theorem cover3 (i : S50000x64.Idx) : ∃ t : Fin cfg3.N, (cfg3.win 4).flush t = true ∧ i ∈ ((cfg3.win 4).blk t).view.set := by
  have h0 : (i 0).val < 50000 := (i 0).isLt
  have h1 : (i 1).val < 64 := (i 1).isLt
  let t : Fin cfg3.N := ⟨(i 0).val / 2000, lt_of_lt_of_eq (by omega : (i 0).val / 2000 < 25) npts3.symm⟩
  have hi := idx_facts3 t
  refine ⟨t, flush3_4 t, ?_⟩
  rw [mem_blk3]
  intro a
  match a with
  | ⟨0, _⟩ => show win3_4.index t (0 : Fin 2) * 2000 ≤ (i 0).val ∧ (i 0).val < win3_4.index t (0 : Fin 2) * 2000 + 2000
              rw [hi.2.2.2.2.2.2.2.2.1]; show (i 0).val / 2000 * 2000 ≤ (i 0).val ∧ (i 0).val < (i 0).val / 2000 * 2000 + 2000; omega
  | ⟨1, _⟩ => show win3_4.index t (1 : Fin 2) * 64 ≤ (i 1).val ∧ (i 1).val < win3_4.index t (1 : Fin 2) * 64 + 64
              rw [hi.2.2.2.2.2.2.2.2.2]; omega

/-- THE ARRAY after the region: the node-update map of the four arrays as the region finds them. -/
theorem final3 (c : Dev nD) :
    (dat3 (F := Ideal) V c).arrAt 4 cfg3.N = NodeG (V c main_v19) (V c main_v29) (V c main_v31) (V c main_v34) :=
  (dat3 (F := Ideal) V c).arrAt_eq_of_cover 4 (NodeG (V c main_v19) (V c main_v29) (V c main_v31) (V c main_v34))
    (fun t _ => flushed3 V c t) cover3

end Cert.KernelIdeal.RegionVal

end
-- ==== Proof.Region4.lean ====
/-
  Region 0, the edge message: what the blocked kernel leaves in its output array.

  Each of the 200 grid points reads rows 4000·t … 4000·t+3999 of the source features and of the edge attributes,
  the whole weight matrix and the bias row, and writes the same rows of the output: entry (p, q) of the block is
  max (hs(p,q) + (Σ_k ea(p,k)·we(k,q) + b(0,q))) 0. A row of the result depends only on the same row of the
  row-indexed operands, so the blocks together are the whole-array map EdgeG.
-/
import proofs.«413400_j8254927142997_1_alg».proof.Proof.Gen.KernelIdeal.Frame
import proofs.«413400_j8254927142997_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Idealize.ShloMosaic Idealize.ShloMosaic.TcCoe Idealize.SL.Sem
open Cert.KernelIdeal Cert.KernelIdeal.Gen Cert.Spec Idealize.ShloMosaic.ValueIdx
open Idealize.ShloMosaic.Pipeline (Dat)

/-! ## The block's matrix product, entry by entry -/

/-- The left operand of the block's product is read at the output's row … -/
theorem mmLhsRow4 (i : S4000x64.Idx) (q : dot_S4000x16_S16x64_S4000x64_1_0_0_1_n_n.contr.Idx) :
    (dot_S4000x16_S16x64_S4000x64_1_0_0_1_n_n.lhsIdx i q 0).val = (i 0).val := by
  unfold DotDims.lhsIdx
  rw [dif_neg (show ¬(0 : Fin S4000x16.rank) ∈ dot_S4000x16_S16x64_S4000x64_1_0_0_1_n_n.lhsBatch by decide), dif_pos (show (0 : Fin S4000x16.rank) ∈ dot_S4000x16_S16x64_S4000x64_1_0_0_1_n_n.lhsNonContracting by decide)]
  rfl
/-- … and the contraction coordinate, -/
theorem mmLhsCol4 (i : S4000x64.Idx) (q : dot_S4000x16_S16x64_S4000x64_1_0_0_1_n_n.contr.Idx) :
    (dot_S4000x16_S16x64_S4000x64_1_0_0_1_n_n.lhsIdx i q 1).val = (q ⟨0, by decide⟩).val :=
  dot_S4000x16_S16x64_S4000x64_1_0_0_1_n_n.lhsIdx_val_of_single rfl i q
/-- the right operand at the contraction coordinate … -/
theorem mmRhsRow4 (i : S4000x64.Idx) (q : dot_S4000x16_S16x64_S4000x64_1_0_0_1_n_n.contr.Idx) :
    (dot_S4000x16_S16x64_S4000x64_1_0_0_1_n_n.rhsIdx i q 0).val = (q ⟨0, by decide⟩).val :=
  dot_S4000x16_S16x64_S4000x64_1_0_0_1_n_n.rhsIdx_val_of_single rfl i q
/-- … and the output's column. -/
theorem mmRhsCol4 (i : S4000x64.Idx) (q : dot_S4000x16_S16x64_S4000x64_1_0_0_1_n_n.contr.Idx) :
    (dot_S4000x16_S16x64_S4000x64_1_0_0_1_n_n.rhsIdx i q 1).val = (i 1).val := by
  unfold DotDims.rhsIdx
  rw [dif_neg (show ¬(1 : Fin S16x64.rank) ∈ dot_S4000x16_S16x64_S4000x64_1_0_0_1_n_n.rhsBatch by decide), dif_pos (show (1 : Fin S16x64.rank) ∈ dot_S4000x16_S16x64_S4000x64_1_0_0_1_n_n.rhsNonContracting by decide)]
  rfl

/-- A 4000×16 block times the 16×64 matrix into a zero accumulator: entry (p, q) is the sum over k of the products. -/
theorem mmBlock4 {φ₁ φ₂ : FTy} (x : FVec Ideal S4000x16 φ₁) (y : FVec Ideal S16x64 φ₂) (p : Fin 4000) (q : Fin 64) :
    FloatOps.matmul dot_S4000x16_S16x64_S4000x64_1_0_0_1_n_n none x y (constant (F := Ideal) S4000x64 .f32 0x00000000#32) (ix2 p q)
      = ∑ k : Fin 16, x (ix2 p k) * y (ix2 k q) := by
  rw [Ideal.matmul_constant_zero_apply, ← Equiv.sum_comp (contrEquiv1 dot_S4000x16_S16x64_S4000x64_1_0_0_1_n_n 16 rfl rfl).symm]
  refine Finset.sum_congr rfl fun k _ => ?_
  have hk := contrEquiv1_symm_val dot_S4000x16_S16x64_S4000x64_1_0_0_1_n_n 16 rfl rfl k
  have el : dot_S4000x16_S16x64_S4000x64_1_0_0_1_n_n.lhsIdx (ix2 p q) ((contrEquiv1 dot_S4000x16_S16x64_S4000x64_1_0_0_1_n_n 16 rfl rfl).symm k) = ix2 p k := funext fun a => Fin.ext (by
    match a with
    | ⟨0, _⟩ => exact mmLhsRow4 _ _
    | ⟨1, _⟩ => exact (mmLhsCol4 _ _).trans hk)
  have er : dot_S4000x16_S16x64_S4000x64_1_0_0_1_n_n.rhsIdx (ix2 p q) ((contrEquiv1 dot_S4000x16_S16x64_S4000x64_1_0_0_1_n_n 16 rfl rfl).symm k) = ix2 k q := funext fun a => Fin.ext (by
    match a with
    | ⟨0, _⟩ => exact (mmRhsRow4 _ _).trans hk
    | ⟨1, _⟩ => exact mmRhsCol4 _ _)
  rw [el, er]

/-! ## The payload at an entry -/

/-- The body's stored value at entry (p, q) of its block. -/
theorem pay4 (ea : Vec Ideal S4000x16 .f32) (we : Vec Ideal S16x64 .f32) (b : Vec Ideal S1x64 .f32) (hs : Vec Ideal S4000x64 .f32)
    (p : Fin 4000) (q : Fin 64) :
    k4_pay1 (F := Ideal) ea we b hs (ix2 p q)
      = max (hs (ix2 p q) + ((∑ k : Fin 16, ea (ix2 p k) * we (ix2 k q)) + b (ix2 0 q))) 0 := by
  unfold k4_pay1
  simp only [shapeCast_self]
  rw [maximumf_apply, addf_apply, addf_apply, broadcast_apply, broadcastTo_1b_ab_apply]
  simp only [matmul]
  rw [mmBlock4]
  simp only [truncf_apply]
  show max _ (Ideal.ofBits .f32 0x00000000#32) = _
  rw [Ideal.ofBits_zero_f32]

/-! ## The windows' index maps over the grid -/

theorem hz4 : (![0, 0] : Fin 2 → Nat) = fun _ => 0 := funext fun a => by fin_cases a <;> rfl

/-- The printed index maps, decided over the grid: the three row-blocked windows are at block (t, 0), the weight
    matrix and the bias row at block (0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

section Point

variable (V : (c : Dev nD) → (b : Ref sig .tc) → Buf (Elt Ideal) ((c : Thread nD τ).loc b)) (c : Dev nD)

/-! ## The blocks, read where the arrays hold them -/

/-- Block t of the source features is rows 4000·t … of the array. -/
theorem blk4_0_apply (t : Fin cfg4.N) (p : Fin 4000) (q : Fin 64) (r : Fin 800000) (hr : r.val = t.val * 4000 + p.val) :
    (iblk4 (F := Ideal) V c 0 t : Vec Ideal S4000x64 .f32) (ix2 p q) = (V c main_v36 : SE64.Idx → EReal) (ix2 r q) := by
  obtain ⟨e0, e1, -⟩ := idx_facts4 t
  show (V c main_v36 : SE64.Idx → EReal) (((cfg4.win 0).blk t).view.emb (ix2 p q)) = _
  refine congrArg _ (funext fun a => Fin.ext ?_)
  match a with
  | ⟨0, _⟩ => show win4_0.index t (0 : Fin 2) * 4000 + 1 * p.val = r.val; omega
  | ⟨1, _⟩ => show win4_0.index t (1 : Fin 2) * 64 + 1 * q.val = q.val; omega

/-- Block t of the edge attributes is rows 4000·t … of the array. -/
theorem blk4_1_apply (t : Fin cfg4.N) (p : Fin 4000) (k : Fin 16) (r : Fin 800000) (hr : r.val = t.val * 4000 + p.val) :
    (iblk4 (F := Ideal) V c 1 t : Vec Ideal S4000x16 .f32) (ix2 p k) = (V c main_arg2 : SE16.Idx → EReal) (ix2 r k) := by
  obtain ⟨-, -, e0, e1, -⟩ := idx_facts4 t
  show (V c main_arg2 : SE16.Idx → EReal) (((cfg4.win 1).blk t).view.emb (ix2 p k)) = _
  refine congrArg _ (funext fun a => Fin.ext ?_)
  match a with
  | ⟨0, _⟩ => show win4_1.index t (0 : Fin 2) * 4000 + 1 * p.val = r.val; omega
  | ⟨1, _⟩ => show win4_1.index t (1 : Fin 2) * 16 + 1 * k.val = k.val; omega

/-- The weight matrix's one block is the array. -/
theorem blk4_2_apply (t : Fin cfg4.N) (k : Fin 16) (q : Fin 64) :
    (iblk4 (F := Ideal) V c 2 t : Vec Ideal S16x64 .f32) (ix2 k q) = (V c main_v38 : S16x64.Idx → EReal) (ix2 k q) := by
  obtain ⟨-, -, -, -, e0, e1, -⟩ := idx_facts4 t
  show (V c main_v38 : S16x64.Idx → EReal) (((cfg4.win 2).blk t).view.emb (ix2 k q)) = _
  refine congrArg _ (funext fun a => Fin.ext ?_)
  match a with
  | ⟨0, _⟩ => show win4_2.index t (0 : Fin 2) * 16 + 1 * k.val = k.val; omega
  | ⟨1, _⟩ => show win4_2.index t (1 : Fin 2) * 64 + 1 * q.val = q.val; omega

/-- The bias row's one block is the array. -/
theorem blk4_3_apply (t : Fin cfg4.N) (z : Fin 1) (q : Fin 64) :
    (iblk4 (F := Ideal) V c 3 t : Vec Ideal S1x64 .f32) (ix2 z q) = (V c main_v41 : S1x64.Idx → EReal) (ix2 z q) := by
  obtain ⟨-, -, -, -, -, -, e0, e1, -⟩ := idx_facts4 t
  show (V c main_v41 : S1x64.Idx → EReal) (((cfg4.win 3).blk t).view.emb (ix2 z q)) = _
  refine congrArg _ (funext fun a => Fin.ext ?_)
  match a with
  | ⟨0, _⟩ => show win4_3.index t (0 : Fin 2) * 1 + 1 * z.val = z.val; omega
  | ⟨1, _⟩ => show win4_3.index t (1 : Fin 2) * 64 + 1 * q.val = q.val; omega

/-- Entry (p, q) of the output's block t sits at row 4000·t + p of the array. -/
theorem emb4_4 (t : Fin cfg4.N) (p : Fin 4000) (q : Fin 64) (r : Fin 800000) (hr : r.val = t.val * 4000 + p.val) :
    (((cfg4.win 4).blk t).view.emb (ix2 p q) : SE64.Idx) = ix2 r q := by
  obtain ⟨-, -, -, -, -, -, -, -, e0, e1⟩ := idx_facts4 t
  refine funext fun a => Fin.ext ?_
  match a with
  | ⟨0, _⟩ => show win4_4.index t (0 : Fin 2) * 4000 + 1 * p.val = r.val; omega
  | ⟨1, _⟩ => show win4_4.index t (1 : Fin 2) * 64 + 1 * q.val = q.val; omega

/-! ## What a point writes -/

/-- The body's stored value at entry (p, q) of point t's block is the edge message at row 4000·t + p. -/
theorem point4 (t : Fin cfg4.N) (p : Fin 4000) (q : Fin 64) (r : Fin 800000) (hr : r.val = t.val * 4000 + p.val) :
    k4_pay1 (F := Ideal) (iblk4 V c 1 t) (iblk4 V c 2 t) (iblk4 V c 3 t) (iblk4 V c 0 t) (ix2 p q)
      = EdgeG (V c main_v36) (V c main_arg2) (V c main_v38) (V c main_v41) (ix2 r q) := by
  refine (pay4 (iblk4 V c 1 t) (iblk4 V c 2 t) (iblk4 V c 3 t) (iblk4 V c 0 t) p q).trans ?_
  rw [EdgeG_ix2]
  unfold edgeAt
  rw [blk4_0_apply V c t p q r hr, blk4_3_apply V c t 0 q]
  refine congrArg (fun s : EReal => max (_ + (s + _)) 0) (Finset.sum_congr rfl fun k _ => ?_)
  rw [blk4_1_apply V c t p k r hr, blk4_2_apply V c t k q]

/-- The same at any entry of the block, read where the output's block sits in the array. -/
theorem point4_emb (t : Fin cfg4.N) (j : S4000x64.Idx) :
    k4_pay1 (F := Ideal) (iblk4 V c 1 t) (iblk4 V c 2 t) (iblk4 V c 3 t) (iblk4 V c 0 t) j
      = EdgeG (V c main_v36) (V c main_arg2) (V c main_v38) (V c main_v41) (((cfg4.win 4).blk t).view.emb j) := by
  have hj : (j 0).val < 4000 := idx2_lt0 j
  have ht : t.val < 200 := N_4 ▸ t.isLt
  rw [eq_ix2 j]
  exact (point4 V c t (j 0) (j 1) ⟨t.val * 4000 + (j 0).val, by omega⟩ rfl).trans
    (congrArg _ (emb4_4 t (j 0) (j 1) ⟨t.val * 4000 + (j 0).val, by omega⟩ rfl).symm)

/-- WHAT POINT t WRITES BACK is block t of the edge messages of the arrays as the region finds them. -/
theorem flushed4 (t : Fin cfg4.N) :
    (dat4 (F := Ideal) V c).flushed 4 t
      = ((cfg4.win 4).blk t).view.read (Elt Ideal) (EdgeG (V c main_v36) (V c main_arg2) (V c main_v38) (V c main_v41)) := by
  show (cfg4.win 4).cut (grid4.coords t) ((dat4 V c).after 4 t) = _
  rw [after4_4]
  unfold out4_4
  rw [View.canon_unit_zero hz4]
  simp only [View.ld_unit_zero (S := S4000x16) hz4, View.ld_unit_zero (S := S16x64) hz4, View.ld_unit_zero (S := S1x64) hz4,
    View.ld_unit_zero (S := S4000x64) hz4]
  funext j
  exact point4_emb V c t j

/-! ## The blocks cover the array -/

/-- An index of the array is in point t's block iff each coordinate is in the block's range on its axis. -/
theorem mem_blk4 (t : Fin cfg4.N) (i : SE64.Idx) :
    i ∈ ((cfg4.win 4).blk t).view.set ↔ ∀ a : Fin 2, win4_4.index t a * S4000x64.size a ≤ (i a).val ∧ (i a).val < win4_4.index t a * S4000x64.size a + S4000x64.size a := by
  show i ∈ ((View.whole main_v42).slice (win4_4.rect t)).set ↔ _
  rw [View.set_slice_whole, Rect.mem_set_unit]
  exact Iff.rfl

/-- Row r of the array is in the block of point r / 4000. -/
theorem cover4 (i : SE64.Idx) : ∃ t : Fin cfg4.N, (cfg4.win 4).flush t = true ∧ i ∈ ((cfg4.win 4).blk t).view.set := by
  have hi0 : (i 0).val < 800000 := idx2_lt0 i
  have hi1 : (i 1).val < 64 := idx2_lt1 i
  have hN : (i 0).val / 4000 < cfg4.N := by rw [show cfg4.N = 200 from N_4]; omega
  refine ⟨⟨(i 0).val / 4000, hN⟩, flush4_4 _, ?_⟩
  obtain ⟨-, -, -, -, -, -, -, -, e0, e1⟩ := idx_facts4 ⟨(i 0).val / 4000, hN⟩
  rw [mem_blk4]
  intro a
  match a with
  | ⟨0, _⟩ => show win4_4.index ⟨(i 0).val / 4000, hN⟩ (0 : Fin 2) * 4000 ≤ (i 0).val ∧ (i 0).val < win4_4.index ⟨(i 0).val / 4000, hN⟩ (0 : Fin 2) * 4000 + 4000; rw [e0]; show (i 0).val / 4000 * 4000 ≤ (i 0).val ∧ (i 0).val < (i 0).val / 4000 * 4000 + 4000; omega
  | ⟨1, _⟩ => show win4_4.index ⟨(i 0).val / 4000, hN⟩ (1 : Fin 2) * 64 ≤ (i 1).val ∧ (i 1).val < win4_4.index ⟨(i 0).val / 4000, hN⟩ (1 : Fin 2) * 64 + 64; rw [e1]; omega

/-! ## The array after the region -/

/-- THE OUTPUT ARRAY after the region: the edge messages of the arrays as the region finds them. -/
theorem final4 : (dat4 (F := Ideal) V c).arrAt 4 cfg4.N = EdgeG (V c main_v36) (V c main_arg2) (V c main_v38) (V c main_v41) :=
  (dat4 (F := Ideal) V c).arrAt_eq_of_cover 4 (EdgeG (V c main_v36) (V c main_arg2) (V c main_v38) (V c main_v41))
    (fun t _ => flushed4 V c t) cover4

end Point

end Cert.KernelIdeal.RegionVal

end
-- ==== Proof.Region5.lean ====
/-
  A node-update region of the kernel (clipped at 0), read as one array: the 25 blocks of 2000 rows the grid's points
  write back are, together, the node-update map of the four arrays the region reads.
-/
import proofs.«413400_j8254927142997_1_alg».proof.Proof.Gen.KernelIdeal.Frame
import proofs.«413400_j8254927142997_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.RegionVal

open Cert.KernelIdeal Cert.KernelIdeal.Gen Idealize.ShloMosaic.ValueIdx
open Cert.Spec (NodeG nodeAt NodeG_ix2)

/-! ## The block product's index maps, axis by axis -/

theorem lhs5_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs5_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs5_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs5_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The block product into a zero accumulator, at an entry: the sum over the 64 contracted positions. -/
theorem mm5 (x : FVec Ideal S2000x64 .bf16) (y : FVec Ideal S64x64 .bf16) (p : Fin 2000) (q : Fin 64) :
    matmul (F := Ideal) dot_S2000x64_S64x64_S2000x64_1_0_0_1_n_n none x y (constant (F := Ideal) S2000x64 .f32 0x00000000#32) (ix2 p q)
      = ∑ k : Fin 64, x (ix2 p k) * y (ix2 k q) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhs5_0 _ _
    | ⟨1, _⟩ => exact (lhs5_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhs5_0 _ _).trans hk
    | ⟨1, _⟩ => exact rhs5_1 _ _)
  rw [el, er]

/-- The body's payload at an entry of the block. -/
theorem pay5 (h aggr : Vec Ideal S2000x64 .f32) (w : Vec Ideal S64x64 .f32) (b : Vec Ideal S1x64 .f32) (p : Fin 2000) (q : Fin 64) :
    k5_pay1 (F := Ideal) h aggr w b (ix2 p q) = max ((∑ k : Fin 64, (h (ix2 p k) + aggr (ix2 p k)) * w (ix2 k q)) + b (ix2 0 q)) 0 := by
  unfold k5_pay1
  simp only [shapeCast_self]
  rw [maximumf_apply, addf_apply, mm5, broadcastTo_1b_ab_apply, broadcast_apply]
  simp only [truncf_apply, addf_apply]
  show max _ (Ideal.ofBits .f32 0x00000000#32) = _
  rw [Ideal.ofBits_zero_f32]

/-! ## The windows' blocks as rows of the arrays -/

variable (V : (c : Dev nD) → (b : Ref sig .tc) → Buf (Elt Ideal) ((c : Thread nD τ).loc b))

theorem hz5 : (![0, 0] : Fin 2 → Nat) = fun _ => 0 := funext fun a => by fin_cases a <;> rfl

/-- The grid has 25 points. -/
theorem npts5 : cfg5.N = 25 := (by decide : grid5.N = 25)

/-- The printed index maps, decided over the grid: the row-blocked windows sit at block (t, 0), the whole ones at (0, 0). -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row p of point t's block of the first operand is row 2000·t + p of its array. -/
theorem blk5_0 (c : Dev nD) (t : Fin cfg5.N) (p : Fin 2000) (k : Fin 64) (P : Fin 50000) (hP : P.val = 2000 * t.val + p.val) :
    (iblk5 (F := Ideal) V c 0 t : Vec Ideal S2000x64 .f32) (ix2 p k) = (V c main_v35 : S50000x64.Idx → EReal) (ix2 P k) := by
  have hi := idx_facts5 t
  unfold iblk5
  rw [View.read_apply]
  show V c main_v35 _ = V c main_v35 _
  congr 1
  funext a
  apply Fin.ext
  match a with
  | ⟨0, _⟩ => show win5_0.index t (0 : Fin 2) * 2000 + 1 * p.val = P.val; rw [hi.1, hP]; omega
  | ⟨1, _⟩ => show win5_0.index t (1 : Fin 2) * 64 + 1 * k.val = k.val; rw [hi.2.1]; omega

/-- The same for the second operand. -/
theorem blk5_1 (c : Dev nD) (t : Fin cfg5.N) (p : Fin 2000) (k : Fin 64) (P : Fin 50000) (hP : P.val = 2000 * t.val + p.val) :
    (iblk5 (F := Ideal) V c 1 t : Vec Ideal S2000x64 .f32) (ix2 p k) = (V c main_v45 : S50000x64.Idx → EReal) (ix2 P k) := by
  have hi := idx_facts5 t
  unfold iblk5
  rw [View.read_apply]
  show V c main_v45 _ = V c main_v45 _
  congr 1
  funext a
  apply Fin.ext
  match a with
  | ⟨0, _⟩ => show win5_1.index t (0 : Fin 2) * 2000 + 1 * p.val = P.val; rw [hi.2.2.1, hP]; omega
  | ⟨1, _⟩ => show win5_1.index t (1 : Fin 2) * 64 + 1 * k.val = k.val; rw [hi.2.2.2.1]; omega

/-- The weight window's block is the whole weight array at every point. -/
theorem blk5_2 (c : Dev nD) (t : Fin cfg5.N) (k q : Fin 64) :
    (iblk5 (F := Ideal) V c 2 t : Vec Ideal S64x64 .f32) (ix2 k q) = (V c main_v47 : S64x64.Idx → EReal) (ix2 k q) := by
  have hi := idx_facts5 t
  unfold iblk5
  rw [View.read_apply]
  show V c main_v47 _ = V c main_v47 _
  congr 1
  funext a
  apply Fin.ext
  match a with
  | ⟨0, _⟩ => show win5_2.index t (0 : Fin 2) * 64 + 1 * k.val = k.val; rw [hi.2.2.2.2.1]; omega
  | ⟨1, _⟩ => show win5_2.index t (1 : Fin 2) * 64 + 1 * q.val = q.val; rw [hi.2.2.2.2.2.1]; omega

/-- The bias window's block is the whole bias row at every point. -/
theorem blk5_3 (c : Dev nD) (t : Fin cfg5.N) (z : Fin 1) (q : Fin 64) :
    (iblk5 (F := Ideal) V c 3 t : Vec Ideal S1x64 .f32) (ix2 z q) = (V c main_v50 : S1x64.Idx → EReal) (ix2 z q) := by
  have hi := idx_facts5 t
  unfold iblk5
  rw [View.read_apply]
  show V c main_v50 _ = V c main_v50 _
  congr 1
  funext a
  apply Fin.ext
  match a with
  | ⟨0, _⟩ => show win5_3.index t (0 : Fin 2) * 1 + 1 * z.val = z.val; rw [hi.2.2.2.2.2.2.1]; omega
  | ⟨1, _⟩ => show win5_3.index t (1 : Fin 2) * 64 + 1 * q.val = q.val; rw [hi.2.2.2.2.2.2.2.1]; omega

/-! ## What a point writes back, and the cover -/

/-- WHAT POINT t WRITES BACK is block t of the node-update map of the four arrays the region reads. -/
theorem flushed5 (c : Dev nD) (t : Fin cfg5.N) :
    (dat5 (F := Ideal) V c).flushed 4 t = ((cfg5.win 4).blk t).view.read (Elt Ideal)
      (NodeG (V c main_v35) (V c main_v45) (V c main_v47) (V c main_v50)) := by
  show (cfg5.win 4).cut (grid5.coords t) ((dat5 (F := Ideal) V c).after 4 t) = _
  rw [after5_4]
  unfold out5_4
  rw [View.canon_unit_zero hz5]
  simp only [View.ld_unit_zero (S := S2000x64) hz5, View.ld_unit_zero (S := S64x64) hz5, View.ld_unit_zero (S := S1x64) hz5]
  funext j
  obtain ⟨p, q, rfl⟩ : ∃ (p : Fin 2000) (q : Fin 64), j = ix2 p q := ⟨j 0, j 1, eq_ix2 j⟩
  have ht : t.val < 25 := lt_of_lt_of_eq t.isLt npts5
  have hi := idx_facts5 t
  let P : Fin 50000 := ⟨2000 * t.val + p.val, by have := p.isLt; omega⟩
  have hemb : ((cfg5.win 4).blk t).view.emb (ix2 p q) = (ix2 P q : S50000x64.Idx) := by
    funext a
    apply Fin.ext
    match a with
    | ⟨0, _⟩ => show win5_4.index t (0 : Fin 2) * 2000 + 1 * p.val = 2000 * t.val + p.val; rw [hi.2.2.2.2.2.2.2.2.1]; omega
    | ⟨1, _⟩ => show win5_4.index t (1 : Fin 2) * 64 + 1 * q.val = q.val; rw [hi.2.2.2.2.2.2.2.2.2]; omega
  rw [View.read_apply, hemb, NodeG_ix2]
  unfold nodeAt
  show k5_pay1 (F := Ideal) (iblk5 V c 0 t) (iblk5 V c 1 t) (iblk5 V c 2 t) (iblk5 V c 3 t) (ix2 p q) = _
  rw [pay5]
  simp only [blk5_0 V c t p _ P rfl, blk5_1 V c t p _ P rfl, blk5_2 V c t, blk5_3 V c t]
  rfl

/-- An index of the array is in point t's block iff each coordinate is in the block's range on its axis. -/
theorem mem_blk5 (t : Fin cfg5.N) (i : S50000x64.Idx) :
    i ∈ ((cfg5.win 4).blk t).view.set ↔ ∀ a : Fin 2, win5_4.index t a * S2000x64.size a ≤ (i a).val ∧ (i a).val < win5_4.index t a * S2000x64.size a + S2000x64.size a := by
  show i ∈ ((View.whole (Pipeline.arrRef spec5 4)).slice (win5_4.rect t)).set ↔ _
  rw [View.set_slice_whole, Rect.mem_set_unit]
  exact Iff.rfl

/-- Row r of the array is in the block of point r / 2000. -/
theorem cover5 (i : S50000x64.Idx) : ∃ t : Fin cfg5.N, (cfg5.win 4).flush t = true ∧ i ∈ ((cfg5.win 4).blk t).view.set := by
  have h0 : (i 0).val < 50000 := (i 0).isLt
  have h1 : (i 1).val < 64 := (i 1).isLt
  let t : Fin cfg5.N := ⟨(i 0).val / 2000, lt_of_lt_of_eq (by omega : (i 0).val / 2000 < 25) npts5.symm⟩
  have hi := idx_facts5 t
  refine ⟨t, flush5_4 t, ?_⟩
  rw [mem_blk5]
  intro a
  match a with
  | ⟨0, _⟩ => show win5_4.index t (0 : Fin 2) * 2000 ≤ (i 0).val ∧ (i 0).val < win5_4.index t (0 : Fin 2) * 2000 + 2000
              rw [hi.2.2.2.2.2.2.2.2.1]; show (i 0).val / 2000 * 2000 ≤ (i 0).val ∧ (i 0).val < (i 0).val / 2000 * 2000 + 2000; omega
  | ⟨1, _⟩ => show win5_4.index t (1 : Fin 2) * 64 ≤ (i 1).val ∧ (i 1).val < win5_4.index t (1 : Fin 2) * 64 + 64
              rw [hi.2.2.2.2.2.2.2.2.2]; omega

/-- THE ARRAY after the region: the node-update map of the four arrays as the region finds them. -/
theorem final5 (c : Dev nD) :
    (dat5 (F := Ideal) V c).arrAt 4 cfg5.N = NodeG (V c main_v35) (V c main_v45) (V c main_v47) (V c main_v50) :=
  (dat5 (F := Ideal) V c).arrAt_eq_of_cover 4 (NodeG (V c main_v35) (V c main_v45) (V c main_v47) (V c main_v50))
    (fun t _ => flushed5 V c t) cover5

end Cert.KernelIdeal.RegionVal

end
-- ==== Proof.Region6.lean ====
/-
  Region 0, the edge message: what the blocked kernel leaves in its output array.

  Each of the 200 grid points reads rows 4000·t … 4000·t+3999 of the source features and of the edge attributes,
  the whole weight matrix and the bias row, and writes the same rows of the output: entry (p, q) of the block is
  max (hs(p,q) + (Σ_k ea(p,k)·we(k,q) + b(0,q))) 0. A row of the result depends only on the same row of the
  row-indexed operands, so the blocks together are the whole-array map EdgeG.
-/
import proofs.«413400_j8254927142997_1_alg».proof.Proof.Gen.KernelIdeal.Frame
import proofs.«413400_j8254927142997_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Idealize.ShloMosaic Idealize.ShloMosaic.TcCoe Idealize.SL.Sem
open Cert.KernelIdeal Cert.KernelIdeal.Gen Cert.Spec Idealize.ShloMosaic.ValueIdx
open Idealize.ShloMosaic.Pipeline (Dat)

/-! ## The block's matrix product, entry by entry -/

/-- The left operand of the block's product is read at the output's row … -/
theorem mmLhsRow6 (i : S4000x64.Idx) (q : dot_S4000x16_S16x64_S4000x64_1_0_0_1_n_n.contr.Idx) :
    (dot_S4000x16_S16x64_S4000x64_1_0_0_1_n_n.lhsIdx i q 0).val = (i 0).val := by
  unfold DotDims.lhsIdx
  rw [dif_neg (show ¬(0 : Fin S4000x16.rank) ∈ dot_S4000x16_S16x64_S4000x64_1_0_0_1_n_n.lhsBatch by decide), dif_pos (show (0 : Fin S4000x16.rank) ∈ dot_S4000x16_S16x64_S4000x64_1_0_0_1_n_n.lhsNonContracting by decide)]
  rfl
/-- … and the contraction coordinate, -/
theorem mmLhsCol6 (i : S4000x64.Idx) (q : dot_S4000x16_S16x64_S4000x64_1_0_0_1_n_n.contr.Idx) :
    (dot_S4000x16_S16x64_S4000x64_1_0_0_1_n_n.lhsIdx i q 1).val = (q ⟨0, by decide⟩).val :=
  dot_S4000x16_S16x64_S4000x64_1_0_0_1_n_n.lhsIdx_val_of_single rfl i q
/-- the right operand at the contraction coordinate … -/
theorem mmRhsRow6 (i : S4000x64.Idx) (q : dot_S4000x16_S16x64_S4000x64_1_0_0_1_n_n.contr.Idx) :
    (dot_S4000x16_S16x64_S4000x64_1_0_0_1_n_n.rhsIdx i q 0).val = (q ⟨0, by decide⟩).val :=
  dot_S4000x16_S16x64_S4000x64_1_0_0_1_n_n.rhsIdx_val_of_single rfl i q
/-- … and the output's column. -/
theorem mmRhsCol6 (i : S4000x64.Idx) (q : dot_S4000x16_S16x64_S4000x64_1_0_0_1_n_n.contr.Idx) :
    (dot_S4000x16_S16x64_S4000x64_1_0_0_1_n_n.rhsIdx i q 1).val = (i 1).val := by
  unfold DotDims.rhsIdx
  rw [dif_neg (show ¬(1 : Fin S16x64.rank) ∈ dot_S4000x16_S16x64_S4000x64_1_0_0_1_n_n.rhsBatch by decide), dif_pos (show (1 : Fin S16x64.rank) ∈ dot_S4000x16_S16x64_S4000x64_1_0_0_1_n_n.rhsNonContracting by decide)]
  rfl

/-- A 4000×16 block times the 16×64 matrix into a zero accumulator: entry (p, q) is the sum over k of the products. -/
theorem mmBlock6 {φ₁ φ₂ : FTy} (x : FVec Ideal S4000x16 φ₁) (y : FVec Ideal S16x64 φ₂) (p : Fin 4000) (q : Fin 64) :
    FloatOps.matmul dot_S4000x16_S16x64_S4000x64_1_0_0_1_n_n none x y (constant (F := Ideal) S4000x64 .f32 0x00000000#32) (ix2 p q)
      = ∑ k : Fin 16, x (ix2 p k) * y (ix2 k q) := by
  rw [Ideal.matmul_constant_zero_apply, ← Equiv.sum_comp (contrEquiv1 dot_S4000x16_S16x64_S4000x64_1_0_0_1_n_n 16 rfl rfl).symm]
  refine Finset.sum_congr rfl fun k _ => ?_
  have hk := contrEquiv1_symm_val dot_S4000x16_S16x64_S4000x64_1_0_0_1_n_n 16 rfl rfl k
  have el : dot_S4000x16_S16x64_S4000x64_1_0_0_1_n_n.lhsIdx (ix2 p q) ((contrEquiv1 dot_S4000x16_S16x64_S4000x64_1_0_0_1_n_n 16 rfl rfl).symm k) = ix2 p k := funext fun a => Fin.ext (by
    match a with
    | ⟨0, _⟩ => exact mmLhsRow6 _ _
    | ⟨1, _⟩ => exact (mmLhsCol6 _ _).trans hk)
  have er : dot_S4000x16_S16x64_S4000x64_1_0_0_1_n_n.rhsIdx (ix2 p q) ((contrEquiv1 dot_S4000x16_S16x64_S4000x64_1_0_0_1_n_n 16 rfl rfl).symm k) = ix2 k q := funext fun a => Fin.ext (by
    match a with
    | ⟨0, _⟩ => exact (mmRhsRow6 _ _).trans hk
    | ⟨1, _⟩ => exact mmRhsCol6 _ _)
  rw [el, er]

/-! ## The payload at an entry -/

/-- The body's stored value at entry (p, q) of its block. -/
theorem pay6 (ea : Vec Ideal S4000x16 .f32) (we : Vec Ideal S16x64 .f32) (b : Vec Ideal S1x64 .f32) (hs : Vec Ideal S4000x64 .f32)
    (p : Fin 4000) (q : Fin 64) :
    k6_pay1 (F := Ideal) ea we b hs (ix2 p q)
      = max (hs (ix2 p q) + ((∑ k : Fin 16, ea (ix2 p k) * we (ix2 k q)) + b (ix2 0 q))) 0 := by
  unfold k6_pay1
  simp only [shapeCast_self]
  rw [maximumf_apply, addf_apply, addf_apply, broadcast_apply, broadcastTo_1b_ab_apply]
  simp only [matmul]
  rw [mmBlock6]
  simp only [truncf_apply]
  show max _ (Ideal.ofBits .f32 0x00000000#32) = _
  rw [Ideal.ofBits_zero_f32]

/-! ## The windows' index maps over the grid -/

theorem hz6 : (![0, 0] : Fin 2 → Nat) = fun _ => 0 := funext fun a => by fin_cases a <;> rfl

/-- The printed index maps, decided over the grid: the three row-blocked windows are at block (t, 0), the weight
    matrix and the bias row at block (0, 0). -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

section Point

variable (V : (c : Dev nD) → (b : Ref sig .tc) → Buf (Elt Ideal) ((c : Thread nD τ).loc b)) (c : Dev nD)

/-! ## The blocks, read where the arrays hold them -/

/-- Block t of the source features is rows 4000·t … of the array. -/
theorem blk6_0_apply (t : Fin cfg6.N) (p : Fin 4000) (q : Fin 64) (r : Fin 800000) (hr : r.val = t.val * 4000 + p.val) :
    (iblk6 (F := Ideal) V c 0 t : Vec Ideal S4000x64 .f32) (ix2 p q) = (V c main_v52 : SE64.Idx → EReal) (ix2 r q) := by
  obtain ⟨e0, e1, -⟩ := idx_facts6 t
  show (V c main_v52 : SE64.Idx → EReal) (((cfg6.win 0).blk t).view.emb (ix2 p q)) = _
  refine congrArg _ (funext fun a => Fin.ext ?_)
  match a with
  | ⟨0, _⟩ => show win6_0.index t (0 : Fin 2) * 4000 + 1 * p.val = r.val; omega
  | ⟨1, _⟩ => show win6_0.index t (1 : Fin 2) * 64 + 1 * q.val = q.val; omega

/-- Block t of the edge attributes is rows 4000·t … of the array. -/
theorem blk6_1_apply (t : Fin cfg6.N) (p : Fin 4000) (k : Fin 16) (r : Fin 800000) (hr : r.val = t.val * 4000 + p.val) :
    (iblk6 (F := Ideal) V c 1 t : Vec Ideal S4000x16 .f32) (ix2 p k) = (V c main_arg2 : SE16.Idx → EReal) (ix2 r k) := by
  obtain ⟨-, -, e0, e1, -⟩ := idx_facts6 t
  show (V c main_arg2 : SE16.Idx → EReal) (((cfg6.win 1).blk t).view.emb (ix2 p k)) = _
  refine congrArg _ (funext fun a => Fin.ext ?_)
  match a with
  | ⟨0, _⟩ => show win6_1.index t (0 : Fin 2) * 4000 + 1 * p.val = r.val; omega
  | ⟨1, _⟩ => show win6_1.index t (1 : Fin 2) * 16 + 1 * k.val = k.val; omega

/-- The weight matrix's one block is the array. -/
theorem blk6_2_apply (t : Fin cfg6.N) (k : Fin 16) (q : Fin 64) :
    (iblk6 (F := Ideal) V c 2 t : Vec Ideal S16x64 .f32) (ix2 k q) = (V c main_v54 : S16x64.Idx → EReal) (ix2 k q) := by
  obtain ⟨-, -, -, -, e0, e1, -⟩ := idx_facts6 t
  show (V c main_v54 : S16x64.Idx → EReal) (((cfg6.win 2).blk t).view.emb (ix2 k q)) = _
  refine congrArg _ (funext fun a => Fin.ext ?_)
  match a with
  | ⟨0, _⟩ => show win6_2.index t (0 : Fin 2) * 16 + 1 * k.val = k.val; omega
  | ⟨1, _⟩ => show win6_2.index t (1 : Fin 2) * 64 + 1 * q.val = q.val; omega

/-- The bias row's one block is the array. -/
theorem blk6_3_apply (t : Fin cfg6.N) (z : Fin 1) (q : Fin 64) :
    (iblk6 (F := Ideal) V c 3 t : Vec Ideal S1x64 .f32) (ix2 z q) = (V c main_v57 : S1x64.Idx → EReal) (ix2 z q) := by
  obtain ⟨-, -, -, -, -, -, e0, e1, -⟩ := idx_facts6 t
  show (V c main_v57 : S1x64.Idx → EReal) (((cfg6.win 3).blk t).view.emb (ix2 z q)) = _
  refine congrArg _ (funext fun a => Fin.ext ?_)
  match a with
  | ⟨0, _⟩ => show win6_3.index t (0 : Fin 2) * 1 + 1 * z.val = z.val; omega
  | ⟨1, _⟩ => show win6_3.index t (1 : Fin 2) * 64 + 1 * q.val = q.val; omega

/-- Entry (p, q) of the output's block t sits at row 4000·t + p of the array. -/
theorem emb6_4 (t : Fin cfg6.N) (p : Fin 4000) (q : Fin 64) (r : Fin 800000) (hr : r.val = t.val * 4000 + p.val) :
    (((cfg6.win 4).blk t).view.emb (ix2 p q) : SE64.Idx) = ix2 r q := by
  obtain ⟨-, -, -, -, -, -, -, -, e0, e1⟩ := idx_facts6 t
  refine funext fun a => Fin.ext ?_
  match a with
  | ⟨0, _⟩ => show win6_4.index t (0 : Fin 2) * 4000 + 1 * p.val = r.val; omega
  | ⟨1, _⟩ => show win6_4.index t (1 : Fin 2) * 64 + 1 * q.val = q.val; omega

/-! ## What a point writes -/

/-- The body's stored value at entry (p, q) of point t's block is the edge message at row 4000·t + p. -/
theorem point6 (t : Fin cfg6.N) (p : Fin 4000) (q : Fin 64) (r : Fin 800000) (hr : r.val = t.val * 4000 + p.val) :
    k6_pay1 (F := Ideal) (iblk6 V c 1 t) (iblk6 V c 2 t) (iblk6 V c 3 t) (iblk6 V c 0 t) (ix2 p q)
      = EdgeG (V c main_v52) (V c main_arg2) (V c main_v54) (V c main_v57) (ix2 r q) := by
  refine (pay6 (iblk6 V c 1 t) (iblk6 V c 2 t) (iblk6 V c 3 t) (iblk6 V c 0 t) p q).trans ?_
  rw [EdgeG_ix2]
  unfold edgeAt
  rw [blk6_0_apply V c t p q r hr, blk6_3_apply V c t 0 q]
  refine congrArg (fun s : EReal => max (_ + (s + _)) 0) (Finset.sum_congr rfl fun k _ => ?_)
  rw [blk6_1_apply V c t p k r hr, blk6_2_apply V c t k q]

/-- The same at any entry of the block, read where the output's block sits in the array. -/
theorem point6_emb (t : Fin cfg6.N) (j : S4000x64.Idx) :
    k6_pay1 (F := Ideal) (iblk6 V c 1 t) (iblk6 V c 2 t) (iblk6 V c 3 t) (iblk6 V c 0 t) j
      = EdgeG (V c main_v52) (V c main_arg2) (V c main_v54) (V c main_v57) (((cfg6.win 4).blk t).view.emb j) := by
  have hj : (j 0).val < 4000 := idx2_lt0 j
  have ht : t.val < 200 := N_6 ▸ t.isLt
  rw [eq_ix2 j]
  exact (point6 V c t (j 0) (j 1) ⟨t.val * 4000 + (j 0).val, by omega⟩ rfl).trans
    (congrArg _ (emb6_4 t (j 0) (j 1) ⟨t.val * 4000 + (j 0).val, by omega⟩ rfl).symm)

/-- WHAT POINT t WRITES BACK is block t of the edge messages of the arrays as the region finds them. -/
theorem flushed6 (t : Fin cfg6.N) :
    (dat6 (F := Ideal) V c).flushed 4 t
      = ((cfg6.win 4).blk t).view.read (Elt Ideal) (EdgeG (V c main_v52) (V c main_arg2) (V c main_v54) (V c main_v57)) := by
  show (cfg6.win 4).cut (grid6.coords t) ((dat6 V c).after 4 t) = _
  rw [after6_4]
  unfold out6_4
  rw [View.canon_unit_zero hz6]
  simp only [View.ld_unit_zero (S := S4000x16) hz6, View.ld_unit_zero (S := S16x64) hz6, View.ld_unit_zero (S := S1x64) hz6,
    View.ld_unit_zero (S := S4000x64) hz6]
  funext j
  exact point6_emb V c t j

/-! ## The blocks cover the array -/

/-- An index of the array is in point t's block iff each coordinate is in the block's range on its axis. -/
theorem mem_blk6 (t : Fin cfg6.N) (i : SE64.Idx) :
    i ∈ ((cfg6.win 4).blk t).view.set ↔ ∀ a : Fin 2, win6_4.index t a * S4000x64.size a ≤ (i a).val ∧ (i a).val < win6_4.index t a * S4000x64.size a + S4000x64.size a := by
  show i ∈ ((View.whole main_v58).slice (win6_4.rect t)).set ↔ _
  rw [View.set_slice_whole, Rect.mem_set_unit]
  exact Iff.rfl

/-- Row r of the array is in the block of point r / 4000. -/
theorem cover6 (i : SE64.Idx) : ∃ t : Fin cfg6.N, (cfg6.win 4).flush t = true ∧ i ∈ ((cfg6.win 4).blk t).view.set := by
  have hi0 : (i 0).val < 800000 := idx2_lt0 i
  have hi1 : (i 1).val < 64 := idx2_lt1 i
  have hN : (i 0).val / 4000 < cfg6.N := by rw [show cfg6.N = 200 from N_6]; omega
  refine ⟨⟨(i 0).val / 4000, hN⟩, flush6_4 _, ?_⟩
  obtain ⟨-, -, -, -, -, -, -, -, e0, e1⟩ := idx_facts6 ⟨(i 0).val / 4000, hN⟩
  rw [mem_blk6]
  intro a
  match a with
  | ⟨0, _⟩ => show win6_4.index ⟨(i 0).val / 4000, hN⟩ (0 : Fin 2) * 4000 ≤ (i 0).val ∧ (i 0).val < win6_4.index ⟨(i 0).val / 4000, hN⟩ (0 : Fin 2) * 4000 + 4000; rw [e0]; show (i 0).val / 4000 * 4000 ≤ (i 0).val ∧ (i 0).val < (i 0).val / 4000 * 4000 + 4000; omega
  | ⟨1, _⟩ => show win6_4.index ⟨(i 0).val / 4000, hN⟩ (1 : Fin 2) * 64 ≤ (i 1).val ∧ (i 1).val < win6_4.index ⟨(i 0).val / 4000, hN⟩ (1 : Fin 2) * 64 + 64; rw [e1]; omega

/-! ## The array after the region -/

/-- THE OUTPUT ARRAY after the region: the edge messages of the arrays as the region finds them. -/
theorem final6 : (dat6 (F := Ideal) V c).arrAt 4 cfg6.N = EdgeG (V c main_v52) (V c main_arg2) (V c main_v54) (V c main_v57) :=
  (dat6 (F := Ideal) V c).arrAt_eq_of_cover 4 (EdgeG (V c main_v52) (V c main_arg2) (V c main_v54) (V c main_v57))
    (fun t _ => flushed6 V c t) cover6

end Point

end Cert.KernelIdeal.RegionVal

end
-- ==== Proof.Region7.lean ====
/-
  The last node update (one output column) as the pipeline computes it: each grid point takes a block of 2000 rows of
  the feature array and of the aggregate, multiplies the row sums `h + aggr` against the whole 64×1 weight and adds the
  1×1 bias; the 25 blocks tile the 50000 rows, so the output array ends holding
  `out[n, 0] = Σ_k (h[n, k] + aggr[n, k]) · W[k, 0] + b[0, 0]` at every row.
-/
import proofs.«413400_j8254927142997_1_alg».proof.Proof.Gen.KernelIdeal.Frame
import proofs.«413400_j8254927142997_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.RegionVal

open Cert.KernelIdeal Cert.KernelIdeal.Gen Cert.Spec Idealize.ShloMosaic.ValueIdx
open Idealize.ShloMosaic.Pipeline (Dat)

/-! ## The block's payload at an entry -/

/-- Row axis of the left operand of the block's matrix product. -/
theorem lhs7_0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
/-- Contracted axis of the left operand. -/
theorem lhs7_1 (i : S2000x1.Idx) (q : dot_S2000x64_S64x1_S2000x1_1_0_0_1_n_n.contr.Idx) :
    (dot_S2000x64_S64x1_S2000x1_1_0_0_1_n_n.lhsIdx i q 1).val = (q ⟨0, by decide⟩).val :=
  dot_S2000x64_S64x1_S2000x1_1_0_0_1_n_n.lhsIdx_val_of_single rfl i q
/-- Contracted axis of the right operand. -/
theorem rhs7_0 (i : S2000x1.Idx) (q : dot_S2000x64_S64x1_S2000x1_1_0_0_1_n_n.contr.Idx) :
    (dot_S2000x64_S64x1_S2000x1_1_0_0_1_n_n.rhsIdx i q 0).val = (q ⟨0, by decide⟩).val :=
  dot_S2000x64_S64x1_S2000x1_1_0_0_1_n_n.rhsIdx_val_of_single rfl i q
/-- Column axis of the right operand. -/
theorem rhs7_1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl

/-- The block's matrix product into a zero accumulator, at an entry, is the sum over the contracted axis. -/
theorem mm7 (x : FVec Ideal S2000x64 .bf16) (y : FVec Ideal S64x1 .bf16) (p : Fin 2000) (q : Fin 1) :
    matmul (F := Ideal) dot_S2000x64_S64x1_S2000x1_1_0_0_1_n_n none x y (constant S2000x1 .f32 0x00000000#32) (ix2 p q)
      = ∑ k : Fin 64, x (ix2 p k) * y (ix2 k q) := by
  show FloatOps.matmul dot_S2000x64_S64x1_S2000x1_1_0_0_1_n_n none x y (constant S2000x1 .f32 0x00000000#32) (ix2 p q) = _
  rw [Ideal.matmul_constant_zero_apply, ← Equiv.sum_comp (ValueIdx.contrEquiv1 dot_S2000x64_S64x1_S2000x1_1_0_0_1_n_n 64 rfl rfl).symm]
  refine Finset.sum_congr rfl fun k _ => ?_
  have hk := ValueIdx.contrEquiv1_symm_val dot_S2000x64_S64x1_S2000x1_1_0_0_1_n_n 64 rfl rfl k
  have el : dot_S2000x64_S64x1_S2000x1_1_0_0_1_n_n.lhsIdx (ix2 p q) ((ValueIdx.contrEquiv1 dot_S2000x64_S64x1_S2000x1_1_0_0_1_n_n 64 rfl rfl).symm k) = ix2 p k := funext fun a => Fin.ext (by
    match a with
    | ⟨0, _⟩ => exact lhs7_0 _ _
    | ⟨1, _⟩ => exact (lhs7_1 _ _).trans hk)
  have er : dot_S2000x64_S64x1_S2000x1_1_0_0_1_n_n.rhsIdx (ix2 p q) ((ValueIdx.contrEquiv1 dot_S2000x64_S64x1_S2000x1_1_0_0_1_n_n 64 rfl rfl).symm k) = ix2 k q := funext fun a => Fin.ext (by
    match a with
    | ⟨0, _⟩ => exact (rhs7_0 _ _).trans hk
    | ⟨1, _⟩ => exact rhs7_1 _ _)
  rw [el, er]

/-- The body's payload at an entry: the row of `h + aggr` against the column of the weight, plus the bias. -/
theorem pay7 (h aggr : Vec Ideal S2000x64 .f32) (w : Vec Ideal S64x1 .f32) (b : Vec Ideal S1x1 .f32)
    (p : Fin 2000) (q : Fin 1) :
    k7_pay1 (F := Ideal) h aggr w b (ix2 p q)
      = (∑ k : Fin 64, (h (ix2 p k) + aggr (ix2 p k)) * w (ix2 k q)) + b (ix2 0 q) := by
  unfold k7_pay1
  simp only [shapeCast_self]
  show matmul (F := Ideal) dot_S2000x64_S64x1_S2000x1_1_0_0_1_n_n none _ _ (constant S2000x1 .f32 0x00000000#32) (ix2 p q)
      + broadcastTo S2000x1 b broadcasts_S1x1_S2000x1 (ix2 p q) = _
  rw [mm7, broadcastTo_apply b broadcasts_S1x1_S2000x1 (ix2 p q) (ix2 0 q) (fun a => by
    match a with
    | ⟨0, _⟩ => rfl
    | ⟨1, _⟩ => show q.val = if (1 : Nat) = 1 then 0 else q.val; rw [if_pos rfl]; exact Fin.val_eq_zero q)]
  rfl

/-! ## The blocks, read off the arrays -/

theorem hz7 : (![0, 0] : Fin 2 → Nat) = fun _ => 0 := funext fun a => by fin_cases a <;> rfl

/-- The printed index maps, decided over the grid: the row-blocked windows sit at block `(t, 0)`, the whole ones at `(0, 0)`. -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- Row `p` of block `t` is row `2000 t + p` of the array. -/
def row7 (t : Fin cfg7.N) (p : Fin 2000) : Fin 50000 :=
  ⟨t.val * 2000 + p.val, by have ht : t.val < 25 := lt_of_lt_of_eq t.isLt N_7; have hp := p.isLt; omega⟩

variable (V : (c : Dev nD) → (b : Ref sig .tc) → Buf (Elt Ideal) ((c : Thread nD τ).loc b))

theorem blk7_0 (c : Dev nD) (t : Fin cfg7.N) (p : Fin 2000) (k : Fin 64) :
    iblk7 (F := Ideal) V c 0 t (ix2 p k) = V c main_v51 (ix2 (row7 t p) k) := by
  obtain ⟨e0, e1, -⟩ := idx_facts7 t
  show V c main_v51 (((cfg7.win 0).blk t).view.emb (ix2 p k)) = _
  refine congrArg (V c main_v51) (funext fun a => Fin.ext ?_)
  match a with
  | ⟨0, _⟩ => show win7_0.index t (0 : Fin 2) * 2000 + 1 * p.val = t.val * 2000 + p.val; rw [e0]; omega
  | ⟨1, _⟩ => show win7_0.index t (1 : Fin 2) * 64 + 1 * k.val = k.val; rw [e1]; omega

theorem blk7_1 (c : Dev nD) (t : Fin cfg7.N) (p : Fin 2000) (k : Fin 64) :
    iblk7 (F := Ideal) V c 1 t (ix2 p k) = V c main_v61 (ix2 (row7 t p) k) := by
  obtain ⟨-, -, e0, e1, -⟩ := idx_facts7 t
  show V c main_v61 (((cfg7.win 1).blk t).view.emb (ix2 p k)) = _
  refine congrArg (V c main_v61) (funext fun a => Fin.ext ?_)
  match a with
  | ⟨0, _⟩ => show win7_1.index t (0 : Fin 2) * 2000 + 1 * p.val = t.val * 2000 + p.val; rw [e0]; omega
  | ⟨1, _⟩ => show win7_1.index t (1 : Fin 2) * 64 + 1 * k.val = k.val; rw [e1]; omega

theorem blk7_2 (c : Dev nD) (t : Fin cfg7.N) (k : Fin 64) (q : Fin 1) :
    iblk7 (F := Ideal) V c 2 t (ix2 k q) = V c main_arg8 (ix2 k q) := by
  obtain ⟨-, -, -, -, e0, e1, -⟩ := idx_facts7 t
  show V c main_arg8 (((cfg7.win 2).blk t).view.emb (ix2 k q)) = _
  refine congrArg (V c main_arg8) (funext fun a => Fin.ext ?_)
  match a with
  | ⟨0, _⟩ => show win7_2.index t (0 : Fin 2) * 64 + 1 * k.val = k.val; rw [e0]; omega
  | ⟨1, _⟩ => show win7_2.index t (1 : Fin 2) * 1 + 1 * q.val = q.val; rw [e1]; omega

theorem blk7_3 (c : Dev nD) (t : Fin cfg7.N) (q : Fin 1) :
    iblk7 (F := Ideal) V c 3 t (ix2 0 q) = V c main_v62 (ix2 0 q) := by
  obtain ⟨-, -, -, -, -, -, e0, e1, -⟩ := idx_facts7 t
  show V c main_v62 (((cfg7.win 3).blk t).view.emb (ix2 0 q)) = _
  refine congrArg (V c main_v62) (funext fun a => Fin.ext ?_)
  match a with
  | ⟨0, _⟩ => show win7_3.index t (0 : Fin 2) * 1 + 1 * 0 = 0; rw [e0]
  | ⟨1, _⟩ => show win7_3.index t (1 : Fin 2) * 1 + 1 * q.val = q.val; rw [e1]; omega

/-- Where the output's block `t` sits in its array. -/
theorem emb7_4 (t : Fin cfg7.N) (p : Fin 2000) (q : Fin 1) :
    ((cfg7.win 4).blk t).view.emb (ix2 p q) = (ix2 (row7 t p) q : S50000x1.Idx) := by
  obtain ⟨-, -, -, -, -, -, -, -, e0, e1⟩ := idx_facts7 t
  refine funext fun a => Fin.ext ?_
  match a with
  | ⟨0, _⟩ => show win7_4.index t (0 : Fin 2) * 2000 + 1 * p.val = t.val * 2000 + p.val; rw [e0]; omega
  | ⟨1, _⟩ => show win7_4.index t (1 : Fin 2) * 1 + 1 * q.val = q.val; rw [e1]; omega

/-! ## What a point writes back, and the array after the run -/

/-- Point `t` writes back block `t` of the last node update of the arrays the region finds. -/
theorem flushed7_eq (c : Dev nD) (t : Fin cfg7.N) :
    (dat7 (F := Ideal) V c).flushed 4 t
      = ((cfg7.win 4).blk t).view.read (Elt Ideal) (LinG (V c main_v51) (V c main_v61) (V c main_arg8) (V c main_v62)) := by
  show (cfg7.win 4).cut (grid7.coords t) ((dat7 (F := Ideal) V c).after 4 t) = _
  rw [after7_4]
  unfold out7_4
  rw [View.canon_unit_zero hz7]
  simp only [View.ld_unit_zero (S := S2000x64) hz7, View.ld_unit_zero (S := S64x1) hz7, View.ld_unit_zero (S := S1x1) hz7]
  funext j
  obtain ⟨p, q, rfl⟩ : ∃ (p : Fin 2000) (q : Fin 1), j = ix2 p q := ⟨j 0, j 1, eq_ix2 j⟩
  show k7_pay1 (F := Ideal) (iblk7 V c 0 t) (iblk7 V c 1 t) (iblk7 V c 2 t) (iblk7 V c 3 t) (ix2 p q)
    = LinG (V c main_v51) (V c main_v61) (V c main_arg8) (V c main_v62) (((cfg7.win 4).blk t).view.emb (ix2 p q))
  rw [pay7, emb7_4, LinG_ix2, blk7_3]
  unfold linAt
  simp only [blk7_0, blk7_1, blk7_2]

/-- An index of the array is in point `t`'s block iff each coordinate is in the block's range on its axis. -/
theorem mem_blk7 (t : Fin cfg7.N) (i : S50000x1.Idx) :
    i ∈ ((cfg7.win 4).blk t).view.set ↔ ∀ a : Fin 2, win7_4.index t a * S2000x1.size a ≤ (i a).val ∧ (i a).val < win7_4.index t a * S2000x1.size a + S2000x1.size a := by
  show i ∈ ((View.whole main_v63).slice (win7_4.rect t)).set ↔ _
  rw [View.set_slice_whole, Rect.mem_set_unit]
  exact Iff.rfl

/-- Row `r` lies in the block of point `r / 2000`. -/
theorem cover7 (i : S50000x1.Idx) :
    ∃ t : Fin cfg7.N, (cfg7.win 4).flush t = true ∧ i ∈ ((cfg7.win 4).blk t).view.set := by
  have hi0 : (i 0).val < 50000 := (i 0).isLt
  have hi1 : (i 1).val < 1 := (i 1).isLt
  let t : Fin cfg7.N := ⟨(i 0).val / 2000, lt_of_lt_of_eq (by omega) N_7.symm⟩
  obtain ⟨-, -, -, -, -, -, -, -, e0, e1⟩ := idx_facts7 t
  have ht : t.val = (i 0).val / 2000 := rfl
  refine ⟨t, flush7_4 t, ?_⟩
  rw [mem_blk7]
  intro a
  match a with
  | ⟨0, _⟩ => show win7_4.index t (0 : Fin 2) * 2000 ≤ (i 0).val ∧ (i 0).val < win7_4.index t (0 : Fin 2) * 2000 + 2000; rw [e0, ht]; omega
  | ⟨1, _⟩ => show win7_4.index t (1 : Fin 2) * 1 ≤ (i 1).val ∧ (i 1).val < win7_4.index t (1 : Fin 2) * 1 + 1; rw [e1]; omega

/-- The output array after the region: the last node update of the arrays the region finds, entry by entry. -/
theorem final7 (c : Dev nD) :
    (dat7 (F := Ideal) V c).arrAt 4 cfg7.N = LinG (V c main_v51) (V c main_v61) (V c main_arg8) (V c main_v62) :=
  (dat7 (F := Ideal) V c).arrAt_eq_of_cover 4 (LinG (V c main_v51) (V c main_v61) (V c main_arg8) (V c main_v62))
    (fun t _ => flushed7_eq V c t) cover7

end Cert.KernelIdeal.RegionVal

end
-- ==== Proof.Chain.lean ====
/-
  The kernel program's result as a function of its arguments: the contents of the buffers that matter, boundary by
  boundary through @main's 22 segments, each identified with the reference's own intermediate value.

  Layer l of the network is: gather the node features at the edges' source nodes; add the edge's linear map of its
  attributes and clip at 0 (the edge message); sum the messages at their destination nodes; add the node's own
  feature, apply the layer's linear map and bias (and clip at 0, except in the last layer). The kernel runs the two
  dense steps as blocked matrix products and the two irregular steps on the host; the reference runs everything on the
  host. With every source index in range the kernel's masked gather is the reference's plain gather, so the two
  programs compute the same arrays stage by stage, and the pooling / normalisation / sigmoid tail is the same function
  of the last layer's output on both sides.
-/
import proofs.«413400_j8254927142997_1_alg».proof.Proof.Gen.KernelIdeal.Frame
import proofs.«413400_j8254927142997_1_alg».proof.Proof.Gen.ReferenceIdeal.Read
import proofs.«413400_j8254927142997_1_alg».proof.Proof.Spec
import proofs.«413400_j8254927142997_1_alg».proof.Proof.HostFns
import proofs.«413400_j8254927142997_1_alg».proof.Proof.TailFn
import proofs.«413400_j8254927142997_1_alg».proof.Proof.Keep
import proofs.«413400_j8254927142997_1_alg».proof.Proof.Stretch
import proofs.«413400_j8254927142997_1_alg».proof.Proof.Take
import proofs.«413400_j8254927142997_1_alg».proof.Proof.TailK
import proofs.«413400_j8254927142997_1_alg».proof.Proof.RefMath
import proofs.«413400_j8254927142997_1_alg».proof.Proof.Region0
import proofs.«413400_j8254927142997_1_alg».proof.Proof.Region1
import proofs.«413400_j8254927142997_1_alg».proof.Proof.Region2
import proofs.«413400_j8254927142997_1_alg».proof.Proof.Region3
import proofs.«413400_j8254927142997_1_alg».proof.Proof.Region4
import proofs.«413400_j8254927142997_1_alg».proof.Proof.Region5
import proofs.«413400_j8254927142997_1_alg».proof.Proof.Region6
import proofs.«413400_j8254927142997_1_alg».proof.Proof.Region7

noncomputable section

open Idealize.ShloMosaic Idealize.ShloMosaic.TcCoe Idealize.SL.Sem

namespace Cert.KernelIdeal.Chain

open Cert.KernelIdeal Cert.KernelIdeal.Gen Cert.KernelIdeal.Keep Cert.KernelIdeal.Stretch Cert.KernelIdeal.TakeVal
open Cert.KernelIdeal.RegionVal Cert.ReferenceIdeal.RefMath
open Cert.Spec (srcN dstN gatherN scatN weN0 weN1 weN2 weN3 beN0 beN1 beN2 beN3 whN0 whN1 whN2 bhN0 bhN1 bhN2 row64 cell1 EdgeG NodeG LinG tailN tail_ref)
open Cert.ReferenceIdeal.Read

variable (m : (ℓ : Loc nD τ sig) → Buf (Elt Ideal) ℓ) (ρ : Dev nD → PrngReg) (c : Dev nD)

/-! ## The arguments, as launched -/

abbrev X0 : (⟨Cert.ReferenceIdeal.S50000x64, .f32⟩ : BufTy).Contents (Elt Ideal) := m ((c : Thread nD τ).loc main_arg0)
abbrev X1 : (⟨Cert.ReferenceIdeal.S2x800000, .i32⟩ : BufTy).Contents (Elt Ideal) := m ((c : Thread nD τ).loc main_arg1)
abbrev X2 : (⟨Cert.ReferenceIdeal.S800000x16, .f32⟩ : BufTy).Contents (Elt Ideal) := m ((c : Thread nD τ).loc main_arg2)
abbrev X3 : (⟨Cert.ReferenceIdeal.S50000, .i32⟩ : BufTy).Contents (Elt Ideal) := m ((c : Thread nD τ).loc main_arg3)
abbrev X4 : (⟨Cert.ReferenceIdeal.S3x64x64, .f32⟩ : BufTy).Contents (Elt Ideal) := m ((c : Thread nD τ).loc main_arg4)
abbrev X5 : (⟨Cert.ReferenceIdeal.S3x64, .f32⟩ : BufTy).Contents (Elt Ideal) := m ((c : Thread nD τ).loc main_arg5)
abbrev X6 : (⟨Cert.ReferenceIdeal.S4x16x64, .f32⟩ : BufTy).Contents (Elt Ideal) := m ((c : Thread nD τ).loc main_arg6)
abbrev X7 : (⟨Cert.ReferenceIdeal.S4x64, .f32⟩ : BufTy).Contents (Elt Ideal) := m ((c : Thread nD τ).loc main_arg7)
abbrev X8 : (⟨Cert.ReferenceIdeal.S64x1, .f32⟩ : BufTy).Contents (Elt Ideal) := m ((c : Thread nD τ).loc main_arg8)
abbrev X9 : (⟨Cert.ReferenceIdeal.S1, .f32⟩ : BufTy).Contents (Elt Ideal) := m ((c : Thread nD τ).loc main_arg9)
abbrev X10 : (⟨Cert.ReferenceIdeal.S1, .f32⟩ : BufTy).Contents (Elt Ideal) := m ((c : Thread nD τ).loc main_arg10)
abbrev X11 : (⟨Cert.ReferenceIdeal.S1, .f32⟩ : BufTy).Contents (Elt Ideal) := m ((c : Thread nD τ).loc main_arg11)

/-- The twelve argument references: no segment writes any of them. -/
def argRefs : List (Ref sig .tc) :=
  [main_arg0, main_arg1, main_arg2, main_arg3, main_arg4, main_arg5, main_arg6, main_arg7, main_arg8, main_arg9, main_arg10, main_arg11]

/-- An argument's buffer holds its launch contents at every boundary. -/
theorem arg_W0 (b : Ref sig .tc) (hb : b ∈ argRefs) : W0 m ρ c (Proc.devRef .tc b) = W0 m ρ c (Proc.devRef .tc b) := rfl
theorem arg_W1 (b : Ref sig .tc) (hb : b ∈ argRefs) : W1 m ρ c (Proc.devRef .tc b) = W0 m ρ c (Proc.devRef .tc b) :=
  (keep_W1 m ρ c b ((by decide : ∀ b ∈ argRefs, b ∉ written_W1) b hb)).trans (arg_W0 m ρ c b hb)
theorem arg_W2 (b : Ref sig .tc) (hb : b ∈ argRefs) : W2 m ρ c (Proc.devRef .tc b) = W0 m ρ c (Proc.devRef .tc b) :=
  (keep_W2 m ρ c b ((by decide : ∀ b ∈ argRefs, b ∉ written_W2) b hb)).trans (arg_W1 m ρ c b hb)
theorem arg_W3 (b : Ref sig .tc) (hb : b ∈ argRefs) : W3 m ρ c (Proc.devRef .tc b) = W0 m ρ c (Proc.devRef .tc b) :=
  (keep_W3 m ρ c b ((by decide : ∀ b ∈ argRefs, b ∉ written_W3) b hb)).trans (arg_W2 m ρ c b hb)
theorem arg_W4 (b : Ref sig .tc) (hb : b ∈ argRefs) : W4 m ρ c (Proc.devRef .tc b) = W0 m ρ c (Proc.devRef .tc b) :=
  (keep_W4 m ρ c b ((by decide : ∀ b ∈ argRefs, b ≠ main_v10) b hb)).trans (arg_W3 m ρ c b hb)
theorem arg_W5 (b : Ref sig .tc) (hb : b ∈ argRefs) : W5 m ρ c (Proc.devRef .tc b) = W0 m ρ c (Proc.devRef .tc b) :=
  (keep_W5 m ρ c b ((by decide : ∀ b ∈ argRefs, b ∉ written_W5) b hb)).trans (arg_W4 m ρ c b hb)
theorem arg_W6 (b : Ref sig .tc) (hb : b ∈ argRefs) : W6 m ρ c (Proc.devRef .tc b) = W0 m ρ c (Proc.devRef .tc b) :=
  (keep_W6 m ρ c b ((by decide : ∀ b ∈ argRefs, b ≠ main_v19) b hb)).trans (arg_W5 m ρ c b hb)
theorem arg_W7 (b : Ref sig .tc) (hb : b ∈ argRefs) : W7 m ρ c (Proc.devRef .tc b) = W0 m ρ c (Proc.devRef .tc b) :=
  (keep_W7 m ρ c b ((by decide : ∀ b ∈ argRefs, b ∉ written_W7) b hb)).trans (arg_W6 m ρ c b hb)
theorem arg_W8 (b : Ref sig .tc) (hb : b ∈ argRefs) : W8 m ρ c (Proc.devRef .tc b) = W0 m ρ c (Proc.devRef .tc b) :=
  (keep_W8 m ρ c b ((by decide : ∀ b ∈ argRefs, b ∉ written_W8) b hb)).trans (arg_W7 m ρ c b hb)
theorem arg_W9 (b : Ref sig .tc) (hb : b ∈ argRefs) : W9 m ρ c (Proc.devRef .tc b) = W0 m ρ c (Proc.devRef .tc b) :=
  (keep_W9 m ρ c b ((by decide : ∀ b ∈ argRefs, b ≠ main_v26) b hb)).trans (arg_W8 m ρ c b hb)
theorem arg_W10 (b : Ref sig .tc) (hb : b ∈ argRefs) : W10 m ρ c (Proc.devRef .tc b) = W0 m ρ c (Proc.devRef .tc b) :=
  (keep_W10 m ρ c b ((by decide : ∀ b ∈ argRefs, b ∉ written_W10) b hb)).trans (arg_W9 m ρ c b hb)
theorem arg_W11 (b : Ref sig .tc) (hb : b ∈ argRefs) : W11 m ρ c (Proc.devRef .tc b) = W0 m ρ c (Proc.devRef .tc b) :=
  (keep_W11 m ρ c b ((by decide : ∀ b ∈ argRefs, b ≠ main_v35) b hb)).trans (arg_W10 m ρ c b hb)
theorem arg_W12 (b : Ref sig .tc) (hb : b ∈ argRefs) : W12 m ρ c (Proc.devRef .tc b) = W0 m ρ c (Proc.devRef .tc b) :=
  (keep_W12 m ρ c b ((by decide : ∀ b ∈ argRefs, b ∉ written_W12) b hb)).trans (arg_W11 m ρ c b hb)
theorem arg_W13 (b : Ref sig .tc) (hb : b ∈ argRefs) : W13 m ρ c (Proc.devRef .tc b) = W0 m ρ c (Proc.devRef .tc b) :=
  (keep_W13 m ρ c b ((by decide : ∀ b ∈ argRefs, b ∉ written_W13) b hb)).trans (arg_W12 m ρ c b hb)
theorem arg_W14 (b : Ref sig .tc) (hb : b ∈ argRefs) : W14 m ρ c (Proc.devRef .tc b) = W0 m ρ c (Proc.devRef .tc b) :=
  (keep_W14 m ρ c b ((by decide : ∀ b ∈ argRefs, b ≠ main_v42) b hb)).trans (arg_W13 m ρ c b hb)
theorem arg_W15 (b : Ref sig .tc) (hb : b ∈ argRefs) : W15 m ρ c (Proc.devRef .tc b) = W0 m ρ c (Proc.devRef .tc b) :=
  (keep_W15 m ρ c b ((by decide : ∀ b ∈ argRefs, b ∉ written_W15) b hb)).trans (arg_W14 m ρ c b hb)
theorem arg_W16 (b : Ref sig .tc) (hb : b ∈ argRefs) : W16 m ρ c (Proc.devRef .tc b) = W0 m ρ c (Proc.devRef .tc b) :=
  (keep_W16 m ρ c b ((by decide : ∀ b ∈ argRefs, b ≠ main_v51) b hb)).trans (arg_W15 m ρ c b hb)
theorem arg_W17 (b : Ref sig .tc) (hb : b ∈ argRefs) : W17 m ρ c (Proc.devRef .tc b) = W0 m ρ c (Proc.devRef .tc b) :=
  (keep_W17 m ρ c b ((by decide : ∀ b ∈ argRefs, b ∉ written_W17) b hb)).trans (arg_W16 m ρ c b hb)
theorem arg_W18 (b : Ref sig .tc) (hb : b ∈ argRefs) : W18 m ρ c (Proc.devRef .tc b) = W0 m ρ c (Proc.devRef .tc b) :=
  (keep_W18 m ρ c b ((by decide : ∀ b ∈ argRefs, b ∉ written_W18) b hb)).trans (arg_W17 m ρ c b hb)
theorem arg_W19 (b : Ref sig .tc) (hb : b ∈ argRefs) : W19 m ρ c (Proc.devRef .tc b) = W0 m ρ c (Proc.devRef .tc b) :=
  (keep_W19 m ρ c b ((by decide : ∀ b ∈ argRefs, b ≠ main_v58) b hb)).trans (arg_W18 m ρ c b hb)
theorem arg_W20 (b : Ref sig .tc) (hb : b ∈ argRefs) : W20 m ρ c (Proc.devRef .tc b) = W0 m ρ c (Proc.devRef .tc b) :=
  (keep_W20 m ρ c b ((by decide : ∀ b ∈ argRefs, b ∉ written_W20) b hb)).trans (arg_W19 m ρ c b hb)
theorem arg_W21 (b : Ref sig .tc) (hb : b ∈ argRefs) : W21 m ρ c (Proc.devRef .tc b) = W0 m ρ c (Proc.devRef .tc b) :=
  (keep_W21 m ρ c b ((by decide : ∀ b ∈ argRefs, b ≠ main_v63) b hb)).trans (arg_W20 m ρ c b hb)

/-! ## The edge list's two rows, wherever they are read -/

theorem src_W1 : W1 m ρ c (Proc.devRef .tc main_v1) = srcN (X1 m c) := W1_src m ρ c
theorem dst_W1 : W1 m ρ c (Proc.devRef .tc main_v3) = dstN (X1 m c) := W1_dst m ρ c
theorem src_W6 : W6 m ρ c (Proc.devRef .tc main_v1) = srcN (X1 m c) := ((keep_W6 m ρ c main_v1 (by decide)).trans ((keep_W5 m ρ c main_v1 (by decide)).trans ((keep_W4 m ρ c main_v1 (by decide)).trans ((keep_W3 m ρ c main_v1 (by decide)).trans (keep_W2 m ρ c main_v1 (by decide)))))).trans (src_W1 m ρ c)
theorem src_W11 : W11 m ρ c (Proc.devRef .tc main_v1) = srcN (X1 m c) := ((keep_W11 m ρ c main_v1 (by decide)).trans ((keep_W10 m ρ c main_v1 (by decide)).trans ((keep_W9 m ρ c main_v1 (by decide)).trans ((keep_W8 m ρ c main_v1 (by decide)).trans (keep_W7 m ρ c main_v1 (by decide)))))).trans (src_W6 m ρ c)
theorem src_W16 : W16 m ρ c (Proc.devRef .tc main_v1) = srcN (X1 m c) := ((keep_W16 m ρ c main_v1 (by decide)).trans ((keep_W15 m ρ c main_v1 (by decide)).trans ((keep_W14 m ρ c main_v1 (by decide)).trans ((keep_W13 m ρ c main_v1 (by decide)).trans (keep_W12 m ρ c main_v1 (by decide)))))).trans (src_W11 m ρ c)
theorem dst_W4 : W4 m ρ c (Proc.devRef .tc main_v3) = dstN (X1 m c) := ((keep_W4 m ρ c main_v3 (by decide)).trans ((keep_W3 m ρ c main_v3 (by decide)).trans (keep_W2 m ρ c main_v3 (by decide)))).trans (dst_W1 m ρ c)
theorem dst_W9 : W9 m ρ c (Proc.devRef .tc main_v3) = dstN (X1 m c) := ((keep_W9 m ρ c main_v3 (by decide)).trans ((keep_W8 m ρ c main_v3 (by decide)).trans ((keep_W7 m ρ c main_v3 (by decide)).trans ((keep_W6 m ρ c main_v3 (by decide)).trans (keep_W5 m ρ c main_v3 (by decide)))))).trans (dst_W4 m ρ c)
theorem dst_W14 : W14 m ρ c (Proc.devRef .tc main_v3) = dstN (X1 m c) := ((keep_W14 m ρ c main_v3 (by decide)).trans ((keep_W13 m ρ c main_v3 (by decide)).trans ((keep_W12 m ρ c main_v3 (by decide)).trans ((keep_W11 m ρ c main_v3 (by decide)).trans (keep_W10 m ρ c main_v3 (by decide)))))).trans (dst_W9 m ρ c)
theorem dst_W19 : W19 m ρ c (Proc.devRef .tc main_v3) = dstN (X1 m c) := ((keep_W19 m ρ c main_v3 (by decide)).trans ((keep_W18 m ρ c main_v3 (by decide)).trans ((keep_W17 m ρ c main_v3 (by decide)).trans ((keep_W16 m ρ c main_v3 (by decide)).trans (keep_W15 m ρ c main_v3 (by decide)))))).trans (dst_W14 m ρ c)

/-! ## The per-layer weight slices -/

theorem we0 : W3 m ρ c (Proc.devRef .tc main_v6) = weN0 (F := Ideal) (X6 m c) := by rw [W3_we m ρ c, (arg_W2 m ρ c main_arg6 (by decide) : W2 m ρ c (Proc.devRef .tc main_arg6) = X6 m c)]
theorem be0 : W3 m ρ c (Proc.devRef .tc main_v9) = row64 (beN0 (F := Ideal) (X7 m c)) := by rw [W3_be m ρ c, (arg_W2 m ρ c main_arg7 (by decide) : W2 m ρ c (Proc.devRef .tc main_arg7) = X7 m c)]
theorem wh0 : W5 m ρ c (Proc.devRef .tc main_v15) = whN0 (F := Ideal) (X4 m c) := by rw [W5_w m ρ c, (arg_W4 m ρ c main_arg4 (by decide) : W4 m ρ c (Proc.devRef .tc main_arg4) = X4 m c)]
theorem bh0 : W5 m ρ c (Proc.devRef .tc main_v18) = row64 (bhN0 (F := Ideal) (X5 m c)) := by rw [W5_b m ρ c, (arg_W4 m ρ c main_arg5 (by decide) : W4 m ρ c (Proc.devRef .tc main_arg5) = X5 m c)]
theorem we1 : W8 m ρ c (Proc.devRef .tc main_v22) = weN1 (F := Ideal) (X6 m c) := by rw [W8_we m ρ c, (arg_W7 m ρ c main_arg6 (by decide) : W7 m ρ c (Proc.devRef .tc main_arg6) = X6 m c)]
theorem be1 : W8 m ρ c (Proc.devRef .tc main_v25) = row64 (beN1 (F := Ideal) (X7 m c)) := by rw [W8_be m ρ c, (arg_W7 m ρ c main_arg7 (by decide) : W7 m ρ c (Proc.devRef .tc main_arg7) = X7 m c)]
theorem wh1 : W10 m ρ c (Proc.devRef .tc main_v31) = whN1 (F := Ideal) (X4 m c) := by rw [W10_w m ρ c, (arg_W9 m ρ c main_arg4 (by decide) : W9 m ρ c (Proc.devRef .tc main_arg4) = X4 m c)]
theorem bh1 : W10 m ρ c (Proc.devRef .tc main_v34) = row64 (bhN1 (F := Ideal) (X5 m c)) := by rw [W10_b m ρ c, (arg_W9 m ρ c main_arg5 (by decide) : W9 m ρ c (Proc.devRef .tc main_arg5) = X5 m c)]
theorem we2 : W13 m ρ c (Proc.devRef .tc main_v38) = weN2 (F := Ideal) (X6 m c) := by rw [W13_we m ρ c, (arg_W12 m ρ c main_arg6 (by decide) : W12 m ρ c (Proc.devRef .tc main_arg6) = X6 m c)]
theorem be2 : W13 m ρ c (Proc.devRef .tc main_v41) = row64 (beN2 (F := Ideal) (X7 m c)) := by rw [W13_be m ρ c, (arg_W12 m ρ c main_arg7 (by decide) : W12 m ρ c (Proc.devRef .tc main_arg7) = X7 m c)]
theorem wh2 : W15 m ρ c (Proc.devRef .tc main_v47) = whN2 (F := Ideal) (X4 m c) := by rw [W15_w m ρ c, (arg_W14 m ρ c main_arg4 (by decide) : W14 m ρ c (Proc.devRef .tc main_arg4) = X4 m c)]
theorem bh2 : W15 m ρ c (Proc.devRef .tc main_v50) = row64 (bhN2 (F := Ideal) (X5 m c)) := by rw [W15_b m ρ c, (arg_W14 m ρ c main_arg5 (by decide) : W14 m ρ c (Proc.devRef .tc main_arg5) = X5 m c)]
theorem we3 : W18 m ρ c (Proc.devRef .tc main_v54) = weN3 (F := Ideal) (X6 m c) := by rw [W18_we m ρ c, (arg_W17 m ρ c main_arg6 (by decide) : W17 m ρ c (Proc.devRef .tc main_arg6) = X6 m c)]
theorem be3 : W18 m ρ c (Proc.devRef .tc main_v57) = row64 (beN3 (F := Ideal) (X7 m c)) := by rw [W18_be m ρ c, (arg_W17 m ρ c main_arg7 (by decide) : W17 m ρ c (Proc.devRef .tc main_arg7) = X7 m c)]
theorem bo : W20 m ρ c (Proc.devRef .tc main_v62) = cell1 (X9 m c) := by rw [W20_b m ρ c, (arg_W19 m ρ c main_arg9 (by decide) : W19 m ρ c (Proc.devRef .tc main_arg9) = X9 m c)]

/-! ## Layer by layer: each stage's buffer holds the reference's value of that stage -/

variable (hin : InRange (srcN (X1 m c)))
include hin

/-- Layer 0: the gathered source features (every source index is in range, so the masked gather is the plain one). -/
theorem hs0 : W2 m ρ c (Proc.devRef .tc main_v4) = val_main_v18 (F := Ideal) (X0 m c) (X1 m c) := by
  rw [W2_take m ρ c (by rw [src_W1 m ρ c]; exact hin), src_W1 m ρ c, (arg_W1 m ρ c main_arg0 (by decide) : W1 m ρ c (Proc.devRef .tc main_arg0) = X0 m c), link_v18]

/-- Layer 0: the edge messages. -/
theorem msg0 : W4 m ρ c (Proc.devRef .tc main_v10) = val_main_v20 (F := Ideal) (X0 m c) (X1 m c) (X2 m c) (X6 m c) (X7 m c) := by
  have e : W4 m ρ c (Proc.devRef .tc main_v10) = EdgeG (W3 m ρ c (Proc.devRef .tc main_v4)) (W3 m ρ c (Proc.devRef .tc main_arg2)) (W3 m ρ c (Proc.devRef .tc main_v6)) (W3 m ρ c (Proc.devRef .tc main_v9)) :=
    (W4_arr m ρ c 4).trans (final0 (V3 m ρ) c)
  rw [e, keep_W3 m ρ c main_v4 (by decide), hs0 m ρ c hin, (arg_W3 m ρ c main_arg2 (by decide) : W3 m ρ c (Proc.devRef .tc main_arg2) = X2 m c), we0 m ρ c, be0 m ρ c, ref_edge0, link_v5, link_v7]

/-- Layer 0: the messages summed at their destinations. -/
theorem aggr0 : W5 m ρ c (Proc.devRef .tc main_v13) = val_main_v23 (F := Ideal) (X0 m c) (X1 m c) (X2 m c) (X6 m c) (X7 m c) := by
  rw [W5_aggr m ρ c, dst_W4 m ρ c, msg0 m ρ c hin, link_v23]

/-- Layer 0: the updated node features. -/
theorem h1 : W6 m ρ c (Proc.devRef .tc main_v19) = val_main_v33 (F := Ideal) (X0 m c) (X1 m c) (X2 m c) (X4 m c) (X5 m c) (X6 m c) (X7 m c) := by
  have e : W6 m ρ c (Proc.devRef .tc main_v19) = NodeG (W5 m ρ c (Proc.devRef .tc main_arg0)) (W5 m ρ c (Proc.devRef .tc main_v13)) (W5 m ρ c (Proc.devRef .tc main_v15)) (W5 m ρ c (Proc.devRef .tc main_v18)) :=
    (W6_arr m ρ c 4).trans (final1 (V5 m ρ) c)
  rw [e, (arg_W5 m ρ c main_arg0 (by decide) : W5 m ρ c (Proc.devRef .tc main_arg0) = X0 m c), aggr0 m ρ c hin, wh0 m ρ c, bh0 m ρ c, ref_node0, link_v26, link_v29]

/-- Layer 1. -/
theorem hs1 : W7 m ρ c (Proc.devRef .tc main_v20) = val_main_v48 (F := Ideal) (X0 m c) (X1 m c) (X2 m c) (X4 m c) (X5 m c) (X6 m c) (X7 m c) := by
  rw [W7_take m ρ c (by rw [src_W6 m ρ c]; exact hin), src_W6 m ρ c, h1 m ρ c hin, link_v48]

theorem msg1 : W9 m ρ c (Proc.devRef .tc main_v26) = val_main_v50 (F := Ideal) (X0 m c) (X1 m c) (X2 m c) (X4 m c) (X5 m c) (X6 m c) (X7 m c) := by
  have e : W9 m ρ c (Proc.devRef .tc main_v26) = EdgeG (W8 m ρ c (Proc.devRef .tc main_v20)) (W8 m ρ c (Proc.devRef .tc main_arg2)) (W8 m ρ c (Proc.devRef .tc main_v22)) (W8 m ρ c (Proc.devRef .tc main_v25)) :=
    (W9_arr m ρ c 4).trans (final2 (V8 m ρ) c)
  rw [e, keep_W8 m ρ c main_v20 (by decide), hs1 m ρ c hin, (arg_W8 m ρ c main_arg2 (by decide) : W8 m ρ c (Proc.devRef .tc main_arg2) = X2 m c), we1 m ρ c, be1 m ρ c, ref_edge1, link_v35, link_v37]

theorem aggr1 : W10 m ρ c (Proc.devRef .tc main_v29) = val_main_v53 (F := Ideal) (X0 m c) (X1 m c) (X2 m c) (X4 m c) (X5 m c) (X6 m c) (X7 m c) := by
  rw [W10_aggr m ρ c, dst_W9 m ρ c, msg1 m ρ c hin, link_v53]

theorem h2 : W11 m ρ c (Proc.devRef .tc main_v35) = val_main_v63 (F := Ideal) (X0 m c) (X1 m c) (X2 m c) (X4 m c) (X5 m c) (X6 m c) (X7 m c) := by
  have e : W11 m ρ c (Proc.devRef .tc main_v35) = NodeG (W10 m ρ c (Proc.devRef .tc main_v19)) (W10 m ρ c (Proc.devRef .tc main_v29)) (W10 m ρ c (Proc.devRef .tc main_v31)) (W10 m ρ c (Proc.devRef .tc main_v34)) :=
    (W11_arr m ρ c 4).trans (final3 (V10 m ρ) c)
  rw [e, (keep_W10 m ρ c main_v19 (by decide)).trans ((keep_W9 m ρ c main_v19 (by decide)).trans ((keep_W8 m ρ c main_v19 (by decide)).trans (keep_W7 m ρ c main_v19 (by decide)))), h1 m ρ c hin, aggr1 m ρ c hin, wh1 m ρ c, bh1 m ρ c, ref_node1, link_v56, link_v59]

/-- Layer 2. -/
theorem hs2 : W12 m ρ c (Proc.devRef .tc main_v36) = val_main_v78 (F := Ideal) (X0 m c) (X1 m c) (X2 m c) (X4 m c) (X5 m c) (X6 m c) (X7 m c) := by
  rw [W12_take m ρ c (by rw [src_W11 m ρ c]; exact hin), src_W11 m ρ c, h2 m ρ c hin, link_v78]

theorem msg2 : W14 m ρ c (Proc.devRef .tc main_v42) = val_main_v80 (F := Ideal) (X0 m c) (X1 m c) (X2 m c) (X4 m c) (X5 m c) (X6 m c) (X7 m c) := by
  have e : W14 m ρ c (Proc.devRef .tc main_v42) = EdgeG (W13 m ρ c (Proc.devRef .tc main_v36)) (W13 m ρ c (Proc.devRef .tc main_arg2)) (W13 m ρ c (Proc.devRef .tc main_v38)) (W13 m ρ c (Proc.devRef .tc main_v41)) :=
    (W14_arr m ρ c 4).trans (final4 (V13 m ρ) c)
  rw [e, keep_W13 m ρ c main_v36 (by decide), hs2 m ρ c hin, (arg_W13 m ρ c main_arg2 (by decide) : W13 m ρ c (Proc.devRef .tc main_arg2) = X2 m c), we2 m ρ c, be2 m ρ c, ref_edge2, link_v65, link_v67]

theorem aggr2 : W15 m ρ c (Proc.devRef .tc main_v45) = val_main_v83 (F := Ideal) (X0 m c) (X1 m c) (X2 m c) (X4 m c) (X5 m c) (X6 m c) (X7 m c) := by
  rw [W15_aggr m ρ c, dst_W14 m ρ c, msg2 m ρ c hin, link_v83]

theorem h3 : W16 m ρ c (Proc.devRef .tc main_v51) = val_main_v93 (F := Ideal) (X0 m c) (X1 m c) (X2 m c) (X4 m c) (X5 m c) (X6 m c) (X7 m c) := by
  have e : W16 m ρ c (Proc.devRef .tc main_v51) = NodeG (W15 m ρ c (Proc.devRef .tc main_v35)) (W15 m ρ c (Proc.devRef .tc main_v45)) (W15 m ρ c (Proc.devRef .tc main_v47)) (W15 m ρ c (Proc.devRef .tc main_v50)) :=
    (W16_arr m ρ c 4).trans (final5 (V15 m ρ) c)
  rw [e, (keep_W15 m ρ c main_v35 (by decide)).trans ((keep_W14 m ρ c main_v35 (by decide)).trans ((keep_W13 m ρ c main_v35 (by decide)).trans (keep_W12 m ρ c main_v35 (by decide)))), h2 m ρ c hin, aggr2 m ρ c hin, wh2 m ρ c, bh2 m ρ c, ref_node2, link_v86, link_v89]

/-- Layer 3 (the last: linear, one output column). -/
theorem hs3 : W17 m ρ c (Proc.devRef .tc main_v52) = val_main_v108 (F := Ideal) (X0 m c) (X1 m c) (X2 m c) (X4 m c) (X5 m c) (X6 m c) (X7 m c) := by
  rw [W17_take m ρ c (by rw [src_W16 m ρ c]; exact hin), src_W16 m ρ c, h3 m ρ c hin, link_v108]

theorem msg3 : W19 m ρ c (Proc.devRef .tc main_v58) = val_main_v110 (F := Ideal) (X0 m c) (X1 m c) (X2 m c) (X4 m c) (X5 m c) (X6 m c) (X7 m c) := by
  have e : W19 m ρ c (Proc.devRef .tc main_v58) = EdgeG (W18 m ρ c (Proc.devRef .tc main_v52)) (W18 m ρ c (Proc.devRef .tc main_arg2)) (W18 m ρ c (Proc.devRef .tc main_v54)) (W18 m ρ c (Proc.devRef .tc main_v57)) :=
    (W19_arr m ρ c 4).trans (final6 (V18 m ρ) c)
  rw [e, keep_W18 m ρ c main_v52 (by decide), hs3 m ρ c hin, (arg_W18 m ρ c main_arg2 (by decide) : W18 m ρ c (Proc.devRef .tc main_arg2) = X2 m c), we3 m ρ c, be3 m ρ c, ref_edge3, link_v95, link_v97]

theorem aggr3 : W20 m ρ c (Proc.devRef .tc main_v61) = val_main_v113 (F := Ideal) (X0 m c) (X1 m c) (X2 m c) (X4 m c) (X5 m c) (X6 m c) (X7 m c) := by
  rw [W20_aggr m ρ c, dst_W19 m ρ c, msg3 m ρ c hin, link_v113]

theorem h4 : W21 m ρ c (Proc.devRef .tc main_v63) = val_main_v118 (F := Ideal) (X0 m c) (X1 m c) (X2 m c) (X4 m c) (X5 m c) (X6 m c) (X7 m c) (X8 m c) (X9 m c) := by
  have e : W21 m ρ c (Proc.devRef .tc main_v63) = LinG (W20 m ρ c (Proc.devRef .tc main_v51)) (W20 m ρ c (Proc.devRef .tc main_v61)) (W20 m ρ c (Proc.devRef .tc main_arg8)) (W20 m ρ c (Proc.devRef .tc main_v62)) :=
    (W21_arr m ρ c 4).trans (final7 (V20 m ρ) c)
  rw [e, (keep_W20 m ρ c main_v51 (by decide)).trans ((keep_W19 m ρ c main_v51 (by decide)).trans ((keep_W18 m ρ c main_v51 (by decide)).trans (keep_W17 m ρ c main_v51 (by decide)))), h3 m ρ c hin, aggr3 m ρ c hin, (arg_W20 m ρ c main_arg8 (by decide) : W20 m ρ c (Proc.devRef .tc main_arg8) = X8 m c), bo m ρ c, ref_lin]

/-- The result: the shared pooling / normalisation / sigmoid tail of the last layer's output. -/
theorem out : W22 m ρ c (Proc.devRef .tc main_v104)
    = val_main_v159 (F := Ideal) (X0 m c) (X1 m c) (X2 m c) (X3 m c) (X4 m c) (X5 m c) (X6 m c) (X7 m c) (X8 m c) (X9 m c) (X10 m c) (X11 m c) := by
  rw [W22_out m ρ c, h4 m ρ c hin, (arg_W21 m ρ c main_arg3 (by decide) : W21 m ρ c (Proc.devRef .tc main_arg3) = X3 m c), (arg_W21 m ρ c main_arg10 (by decide) : W21 m ρ c (Proc.devRef .tc main_arg10) = X10 m c), (arg_W21 m ρ c main_arg11 (by decide) : W21 m ρ c (Proc.devRef .tc main_arg11) = X11 m c), tail_ref]

end Cert.KernelIdeal.Chain

end
-- ==== Proof.lean ====
/-
  The certificate: a four-layer message-passing network (edge messages max(h[src] + attr·We + be, 0), summed at the
  destination nodes, then a linear node update with a clip at 0, the last layer linear with one output), a mean
  pool per graph, a batch normalisation and a sigmoid. The kernel program runs the dense steps of every layer as
  blocked matrix products; the reference runs the whole network on the host. Over the extended reals both compute
  the same arrays stage by stage (Proof/Chain.lean), provided every source index lies in [0, 50000): there the
  kernel's gather, which masks out-of-range rows, is the reference's plain gather (Proof/Take.lean; the range is the
  precondition's last conjunct, Proof/PreRange.lean). Each blocked region's output array is the layer's map of the
  region's input arrays (Proof/Region0.lean … Region7.lean over Proof/Spec.lean); the reference's operations are the
  same maps (Proof/RefMath.lean); the host steps in between are shared (Proof/HostFns.lean, Proof/Stretch.lean,
  Proof/TailFn.lean, Proof/TailK.lean); a buffer no segment writes keeps its contents (Proof/Keep.lean).
  The three frames are the generated ones; the ideal pass rewrote nothing, so preserves is trivial.
-/
import proofs.«413400_j8254927142997_1_alg».proof.Defs
import proofs.«413400_j8254927142997_1_alg».proof.Proof.Gen.Kernel
import proofs.«413400_j8254927142997_1_alg».proof.Proof.Gen.Kernel.Skeleton
import proofs.«413400_j8254927142997_1_alg».proof.Proof.Gen.Kernel.Launch
import proofs.«413400_j8254927142997_1_alg».proof.Proof.Gen.Kernel.Points
import proofs.«413400_j8254927142997_1_alg».proof.Proof.Gen.Kernel.Frame
import proofs.«413400_j8254927142997_1_alg».proof.Proof.Gen.KernelIdeal
import proofs.«413400_j8254927142997_1_alg».proof.Proof.Gen.KernelIdeal.Skeleton
import proofs.«413400_j8254927142997_1_alg».proof.Proof.Gen.KernelIdeal.Launch
import proofs.«413400_j8254927142997_1_alg».proof.Proof.Gen.KernelIdeal.Points
import proofs.«413400_j8254927142997_1_alg».proof.Proof.Gen.KernelIdeal.Frame
import proofs.«413400_j8254927142997_1_alg».proof.Proof.Gen.ReferenceIdeal
import proofs.«413400_j8254927142997_1_alg».proof.Proof.Gen.ReferenceIdeal.Run
import proofs.«413400_j8254927142997_1_alg».proof.Proof.Gen.ReferenceIdeal.Read
import proofs.«413400_j8254927142997_1_alg».proof.Proof.Gen.Pre_finite_inputs
import proofs.«413400_j8254927142997_1_alg».proof.Proof.KRun
import proofs.«413400_j8254927142997_1_alg».proof.Proof.PreRange
import proofs.«413400_j8254927142997_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's last value of the arguments: the kernel's result buffer by the stage-by-stage
    chain (the source indices are in range by the precondition), the reference's by its own run. -/
theorem algebraic : Cert.algebraic_KernelIdeal_ReferenceIdeal := by
  intro m ρ m' ρ' hpre hagree
  refine ⟨fun c => Cert.ReferenceIdeal.Read.val_main_v159 (F := Ideal) (Cert.KernelIdeal.Chain.X0 m c) (Cert.KernelIdeal.Chain.X1 m c) (Cert.KernelIdeal.Chain.X2 m c) (Cert.KernelIdeal.Chain.X3 m c) (Cert.KernelIdeal.Chain.X4 m c) (Cert.KernelIdeal.Chain.X5 m c) (Cert.KernelIdeal.Chain.X6 m c) (Cert.KernelIdeal.Chain.X7 m c) (Cert.KernelIdeal.Chain.X8 m c) (Cert.KernelIdeal.Chain.X9 m c) (Cert.KernelIdeal.Chain.X10 m c) (Cert.KernelIdeal.Chain.X11 m c), ?_, ?_⟩
  · exact (θ_run Cert.KernelIdeal.defs _ _).mono
      (fun r h c => ⟨(h c).1.trans (Cert.KernelIdeal.Chain.out m ρ c (Cert.KernelIdeal.PreRange.inRange_of_pre m hpre c)), (h c).2⟩)
      (Cert.KernelIdeal.KRun.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v159_eq, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
